-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x14x3 : Shape := ⟨3, ![32768, 14, 3]⟩
abbrev S32768 : Shape := ⟨1, ![32768]⟩
abbrev S256x256 : Shape := ⟨2, ![256, 256]⟩
abbrev S42x512 : Shape := ⟨2, ![42, 512]⟩
abbrev S512 : Shape := ⟨1, ![512]⟩
abbrev S512x256 : Shape := ⟨2, ![512, 256]⟩
abbrev S256 : Shape := ⟨1, ![256]⟩
abbrev S256x1024 : Shape := ⟨2, ![256, 1024]⟩
abbrev S1024x256 : Shape := ⟨2, ![1024, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x14x3 : S_.BroadcastsInDim S32768x14x3 (![] : Fin 0 → Fin S32768x14x3.rank)
  reducesTo_S32768x14x3_S_d0_1_2 : S32768x14x3.ReducesTo [0, 1, 2] S_
  bcast_S_S256x256 : S_.BroadcastsInDim S256x256 (![] : Fin 0 → Fin S256x256.rank)
  reducesTo_S256x256_S_d0_1 : S256x256.ReducesTo [0, 1] S_
  bcast_S_S42x512 : S_.BroadcastsInDim S42x512 (![] : Fin 0 → Fin S42x512.rank)
  reducesTo_S42x512_S_d0_1 : S42x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S32768 : S_.BroadcastsInDim S32768 (![] : Fin 0 → Fin S32768.rank)
  reducesTo_S32768_S_d0 : S32768.ReducesTo [0] S_

variable [Facts]

def fn_part4 {F : FTy → Type} [FloatOps F] (main_arg3 : IVec S32768 32) (main_arg4 : IVec S32768 32) (main_v63 : IVec S_ 1) (main_v67 : IVec S_ 1) : IVec S_ 1 :=
  let main_v68 : IVec S_ 1 := andi main_v63 main_v67
  let main_c_26 : IVec S_ 32 := constantI S_ 32 0#32
  let main_v69 : IVec S32768 32 := broadcastInDim S32768 ![] bcast_S_S32768 main_c_26
  let main_v70 : IVec S32768 1 := cmpi .sge main_arg4 main_v69
  let main_c_27 : IVec S_ 32 := constantI S_ 32 8#32
  let main_v71 : IVec S32768 32 := broadcastInDim S32768 ![] bcast_S_S32768 main_c_27
  let main_v72 : IVec S32768 1 := cmpi .slt main_arg4 main_v71
  let main_v73 : IVec S32768 1 := andi main_v70 main_v72
  let main_c_28 : IVec S_ 1 := constantI S_ 1 1#1
  let main_v74 : IVec S_ 1 := (fun x v => Host.reduce IntOp.andi x v reducesTo_S32768_S_d0 h_S_) main_v73 main_c_28
  let main_v75 : IVec S_ 1 := andi main_v68 main_v74
  let main_c_29 : IVec S_ 32 := constantI S_ 32 0#32
  let main_v76 : IVec S32768 32 := broadcastInDim S32768 ![] bcast_S_S32768 main_c_29
  let main_v77 : IVec S32768 1 := cmpi .sge main_arg3 main_v76
  let main_c_30 : IVec S_ 32 := constantI S_ 32 32#32
  let main_v78 : IVec S32768 32 := broadcastInDim S32768 ![] bcast_S_S32768 main_c_30
  let main_v79 : IVec S32768 1 := cmpi .slt main_arg3 main_v78
  let main_v80 : IVec S32768 1 := andi main_v77 main_v79
  let main_c_31 : IVec S_ 1 := constantI S_ 1 1#1
  let main_v81 : IVec S_ 1 := (fun x v => Host.reduce IntOp.andi x v reducesTo_S32768_S_d0 h_S_) main_v80 main_c_31
  let main_v82 : IVec S_ 1 := andi main_v75 main_v81
  main_v82

def fn_part3 {F : FTy → Type} [FloatOps F] (main_arg3 : IVec S32768 32) (main_arg4 : IVec S32768 32) (main_arg14 : FVec F S256x1024 .f32) (main_arg15 : FVec F S1024x256 .f32) (main_arg16 : FVec F S256 .f32) (main_v48 : IVec S_ 1) (main_v49 : FVec F S256x1024 .f32) (main_v50 : FVec F S256x1024 .f32) : IVec S_ 1 :=
  let main_v51 : IVec S256x1024 1 := cmpf .olt main_v49 main_v50
  let main_c_19 : IVec S_ 1 := constantI S_ 1 1#1
  let main_v52 : IVec S_ 1 := (fun x v => Host.reduce IntOp.andi x v reducesTo_S256x1024_S_d0_1 h_S_) main_v51 main_c_19
  let main_v53 : IVec S_ 1 := andi main_v48 main_v52
  let main_v54 : FVec F S256x1024 .f32 := Host.absf main_arg14
  let main_cst_20 : FVec F S_ .f32 := constant S_ .f32 0x7F800000#32
  let main_v55 : FVec F S256x1024 .f32 := broadcastInDim S256x1024 ![] bcast_S_S256x1024 main_cst_20
  let main_v56 : IVec S256x1024 1 := cmpf .olt main_v54 main_v55
  let main_c_21 : IVec S_ 1 := constantI S_ 1 1#1
  let main_v57 : IVec S_ 1 := (fun x v => Host.reduce IntOp.andi x v reducesTo_S256x1024_S_d0_1 h_S_) main_v56 main_c_21
  let main_v58 : IVec S_ 1 := andi main_v53 main_v57
  let main_v59 : FVec F S1024x256 .f32 := Host.absf main_arg15
  let main_cst_22 : FVec F S_ .f32 := constant S_ .f32 0x7F800000#32
  let main_v60 : FVec F S1024x256 .f32 := broadcastInDim S1024x256 ![] bcast_S_S1024x256 main_cst_22
  let main_v61 : IVec S1024x256 1 := cmpf .olt main_v59 main_v60
  let main_c_23 : IVec S_ 1 := constantI S_ 1 1#1
  let main_v62 : IVec S_ 1 := (fun x v => Host.reduce IntOp.andi x v reducesTo_S1024x256_S_d0_1 h_S_) main_v61 main_c_23
  let main_v63 : IVec S_ 1 := andi main_v58 main_v62
  let main_v64 : FVec F S256 .f32 := Host.absf main_arg16
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg3 main_arg4 main_v63 main_v67

def fn_part2 {F : FTy → Type} [FloatOps F] (main_arg3 : IVec S32768 32) (main_arg4 : IVec S32768 32) (main_arg10 : FVec F S256 .f32) (main_arg11 : FVec F S256x1024 .f32) (main_arg12 : FVec F S256x1024 .f32) (main_arg13 : FVec F S256x1024 .f32) (main_arg14 : FVec F S256x1024 .f32) (main_arg15 : FVec F S1024x256 .f32) (main_arg16 : FVec F S256 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1024 .f32 := Host.absf main_arg11
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S256x1024 .f32 := Host.absf main_arg12
  let main_cst_16 : FVec F S_ .f32 := constant S_ .f32 0x7F800000#32
  let main_v45 : FVec F S256x1024 .f32 := broadcastInDim S256x1024 ![] bcast_S_S256x1024 main_cst_16
  let main_v46 : IVec S256x1024 1 := cmpf .olt main_v44 main_v45
  let main_c_17 : IVec S_ 1 := constantI S_ 1 1#1
  let main_v47 : IVec S_ 1 := (fun x v => Host.reduce IntOp.andi x v reducesTo_S256x1024_S_d0_1 h_S_) main_v46 main_c_17
  let main_v48 : IVec S_ 1 := andi main_v43 main_v47
  let main_v49 : FVec F S256x1024 .f32 := Host.absf main_arg13
  let main_cst_18 : FVec F S_ .f32 := constant S_ .f32 0x7F800000#32
  let main_v50 : FVec F S256x1024 .f32 := broadcastInDim S256x1024 ![] bcast_S_S256x1024 main_cst_18
  fn_part3 (F := F) main_arg3 main_arg4 main_arg14 main_arg15 main_arg16 main_v48 main_v49 main_v50

def fn_part1 {F : FTy → Type} [FloatOps F] (main_arg3 : IVec S32768 32) (main_arg4 : IVec S32768 32) (main_arg7 : FVec F S42x512 .f32) (main_arg8 : FVec F S512 .f32) (main_arg9 : FVec F S512x256 .f32) (main_arg10 : FVec F S256 .f32) (main_arg11 : FVec F S256x1024 .f32) (main_arg12 : FVec F S256x1024 .f32) (main_arg13 : FVec F S256x1024 .f32) (main_arg14 : FVec F S256x1024 .f32) (main_arg15 : FVec F S1024x256 .f32) (main_arg16 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S42x512 .f32 := Host.absf main_arg7
  let main_cst_6 : FVec F S_ .f32 := constant S_ .f32 0x7F800000#32
  let main_v20 : FVec F S42x512 .f32 := broadcastInDim S42x512 ![] bcast_S_S42x512 main_cst_6
  let main_v21 : IVec S42x512 1 := cmpf .olt main_v19 main_v20
  let main_c_7 : IVec S_ 1 := constantI S_ 1 1#1
  let main_v22 : IVec S_ 1 := (fun x v => Host.reduce IntOp.andi x v reducesTo_S42x512_S_d0_1 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg9
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg3 main_arg4 main_arg10 main_arg11 main_arg12 main_arg13 main_arg14 main_arg15 main_arg16 main_v33

def fn {F : FTy → Type} [FloatOps F] (main_arg0 : FVec F S32768x256 .f32) (main_arg1 : FVec F S32768x14x3 .f32) (main_arg2 : FVec F S32768x256 .f32) (main_arg3 : IVec S32768 32) (main_arg4 : IVec S32768 32) (main_arg5 : IVec S32768 1) (main_arg6 : FVec F S256x256 .f32) (main_arg7 : FVec F S42x512 .f32) (main_arg8 : FVec F S512 .f32) (main_arg9 : FVec F S512x256 .f32) (main_arg10 : FVec F S256 .f32) (main_arg11 : FVec F S256x1024 .f32) (main_arg12 : FVec F S256x1024 .f32) (main_arg13 : FVec F S256x1024 .f32) (main_arg14 : FVec F S256x1024 .f32) (main_arg15 : FVec F S1024x256 .f32) (main_arg16 : FVec F S256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x14x3 .f32 := Host.absf main_arg1
  let main_cst_0 : FVec F S_ .f32 := constant S_ .f32 0x7F800000#32
  let main_v5 : FVec F S32768x14x3 .f32 := broadcastInDim S32768x14x3 ![] bcast_S_S32768x14x3 main_cst_0
  let main_v6 : IVec S32768x14x3 1 := cmpf .olt main_v4 main_v5
  let main_c_1 : IVec S_ 1 := constantI S_ 1 1#1
  let main_v7 : IVec S_ 1 := (fun x v => Host.reduce IntOp.andi x v reducesTo_S32768x14x3_S_d0_1_2 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg3 main_arg4 main_arg7 main_arg8 main_arg9 main_arg10 main_arg11 main_arg12 main_arg13 main_arg14 main_arg15 main_arg16 main_v13 main_v16
-- ==== Kernel.lean ====
abbrev S32768x256 : Shape := ⟨2, ![32768, 256]⟩
abbrev S32768x14x3 : Shape := ⟨3, ![32768, 14, 3]⟩
abbrev S32768 : Shape := ⟨1, ![32768]⟩
abbrev S256x256 : Shape := ⟨2, ![256, 256]⟩
abbrev S42x512 : Shape := ⟨2, ![42, 512]⟩
abbrev S512 : Shape := ⟨1, ![512]⟩
abbrev S512x256 : Shape := ⟨2, ![512, 256]⟩
abbrev S256 : Shape := ⟨1, ![256]⟩
abbrev S256x1024 : Shape := ⟨2, ![256, 1024]⟩
abbrev S1024x256 : Shape := ⟨2, ![1024, 256]⟩
abbrev S32768x1x3 : Shape := ⟨3, ![32768, 1, 3]⟩
abbrev S32768x42 : Shape := ⟨2, ![32768, 42]⟩
abbrev S32768x1 : Shape := ⟨2, ![32768, 1]⟩
abbrev S32768x8 : Shape := ⟨2, ![32768, 8]⟩
abbrev S32768x32 : Shape := ⟨2, ![32768, 32]⟩
abbrev S2x8x1024 : Shape := ⟨3, ![2, 8, 1024]⟩
abbrev S2x8x1 : Shape := ⟨3, ![2, 8, 1]⟩
abbrev S2x32x1024 : Shape := ⟨3, ![2, 32, 1024]⟩
abbrev S2x32x1 : Shape := ⟨3, ![2, 32, 1]⟩
abbrev S1024x42 : Shape := ⟨2, ![1024, 42]⟩
abbrev S1024x8 : Shape := ⟨2, ![1024, 8]⟩
abbrev S1024x32 : Shape := ⟨2, ![1024, 32]⟩
abbrev S1024x1 : Shape := ⟨2, ![1024, 1]⟩
abbrev S1x8x1024 : Shape := ⟨3, ![1, 8, 1024]⟩
abbrev S1x8x1 : Shape := ⟨3, ![1, 8, 1]⟩
abbrev S1x32x1024 : Shape := ⟨3, ![1, 32, 1024]⟩
abbrev S1x32x1 : Shape := ⟨3, ![1, 32, 1]⟩
abbrev S1024x512 : Shape := ⟨2, ![1024, 512]⟩
abbrev S1x512 : Shape := ⟨2, ![1, 512]⟩
abbrev S1x256 : Shape := ⟨2, ![1, 256]⟩
abbrev S1024x1024 : Shape := ⟨2, ![1024, 1024]⟩
abbrev S8x1024 : Shape := ⟨2, ![8, 1024]⟩
abbrev S8x1 : Shape := ⟨2, ![8, 1]⟩
abbrev S32x1024 : Shape := ⟨2, ![32, 1024]⟩
abbrev S32x1 : Shape := ⟨2, ![32, 1]⟩
abbrev S_ : Shape := ⟨0, ![]⟩

abbrev nBuf : Space → Nat
  | .hbm => 65
  | .vmem => 44
  | .smem => 0
  | _ => 0

abbrev bufTy : (tb : Table) → Fin (tcTables nBuf tb) → BufTy
  | .hbm, ⟨0, _⟩ => ⟨S32768x256, .f32⟩
  | .hbm, ⟨1, _⟩ => ⟨S32768x14x3, .f32⟩
  | .hbm, ⟨2, _⟩ => ⟨S32768x256, .f32⟩
  | .hbm, ⟨3, _⟩ => ⟨S32768, .i32⟩
  | .hbm, ⟨4, _⟩ => ⟨S32768, .i32⟩
  | .hbm, ⟨5, _⟩ => ⟨S32768, .i1⟩
  | .hbm, ⟨6, _⟩ => ⟨S256x256, .f32⟩
  | .hbm, ⟨7, _⟩ => ⟨S42x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S1024x256, .f32⟩
  | .hbm, ⟨16, _⟩ => ⟨S256, .f32⟩
  | .hbm, ⟨17, _⟩ => ⟨S32768x1x3, .f32⟩
  | .hbm, ⟨18, _⟩ => ⟨S32768x14x3, .f32⟩
  | .hbm, ⟨19, _⟩ => ⟨S32768x14x3, .f32⟩
  | .hbm, ⟨20, _⟩ => ⟨S32768x42, .f32⟩
  | .hbm, ⟨21, _⟩ => ⟨S32768, .f32⟩
  | .hbm, ⟨22, _⟩ => ⟨S32768x1, .f32⟩
  | .hbm, ⟨23, _⟩ => ⟨S32768x1, .i32⟩
  | .hbm, ⟨24, _⟩ => ⟨S32768x8, .i32⟩
  | .hbm, ⟨25, _⟩ => ⟨S32768x8, .i32⟩
  | .hbm, ⟨26, _⟩ => ⟨S32768x8, .i1⟩
  | .hbm, ⟨27, _⟩ => ⟨S32768x8, .f32⟩
  | .hbm, ⟨28, _⟩ => ⟨S32768x1, .i32⟩
  | .hbm, ⟨29, _⟩ => ⟨S32768x32, .i32⟩
  | .hbm, ⟨30, _⟩ => ⟨S32768x32, .i32⟩
  | .hbm, ⟨31, _⟩ => ⟨S32768x32, .i1⟩
  | .hbm, ⟨32, _⟩ => ⟨S32768x32, .f32⟩
  | .hbm, ⟨33, _⟩ => ⟨S256x256, .bf16⟩
  | .hbm, ⟨34, _⟩ => ⟨S42x512, .bf16⟩
  | .hbm, ⟨35, _⟩ => ⟨S512x256, .bf16⟩
  | .hbm, ⟨36, _⟩ => ⟨S256x1024, .bf16⟩
  | .hbm, ⟨37, _⟩ => ⟨S256x1024, .bf16⟩
  | .hbm, ⟨38, _⟩ => ⟨S256x1024, .bf16⟩
  | .hbm, ⟨39, _⟩ => ⟨S256x1024, .bf16⟩
  | .hbm, ⟨40, _⟩ => ⟨S1024x256, .bf16⟩
  | .hbm, ⟨41, _⟩ => ⟨S32768x256, .bf16⟩
  | .hbm, ⟨42, _⟩ => ⟨S2x8x1024, .f32⟩
  | .hbm, ⟨43, _⟩ => ⟨S2x8x1, .f32⟩
  | .hbm, ⟨44, _⟩ => ⟨S2x32x1024, .f32⟩
  | .hbm, ⟨45, _⟩ => ⟨S2x32x1, .f32⟩
  | .hbm, ⟨46, _⟩ => ⟨S_, .f32⟩
  | .hbm, ⟨47, _⟩ => ⟨S8x1024, .f32⟩
  | .hbm, ⟨48, _⟩ => ⟨S_, .f32⟩
  | .hbm, ⟨49, _⟩ => ⟨S8x1, .f32⟩
  | .hbm, ⟨50, _⟩ => ⟨S_, .f32⟩
  | .hbm, ⟨51, _⟩ => ⟨S32x1024, .f32⟩
  | .hbm, ⟨52, _⟩ => ⟨S_, .f32⟩
  | .hbm, ⟨53, _⟩ => ⟨S32x1, .f32⟩
  | .hbm, ⟨54, _⟩ => ⟨S_, .f32⟩
  | .hbm, ⟨55, _⟩ => ⟨S8x1, .f32⟩
  | .hbm, ⟨56, _⟩ => ⟨S8x1, .f32⟩
  | .hbm, ⟨57, _⟩ => ⟨S8x1024, .f32⟩
  | .hbm, ⟨58, _⟩ => ⟨S8x1024, .f32⟩
  | .hbm, ⟨59, _⟩ => ⟨S_, .f32⟩
  | .hbm, ⟨60, _⟩ => ⟨S32x1, .f32⟩
  | .hbm, ⟨61, _⟩ => ⟨S32x1, .f32⟩
  | .hbm, ⟨62, _⟩ => ⟨S32x1024, .f32⟩
  | .hbm, ⟨63, _⟩ => ⟨S32x1024, .f32⟩
  | .hbm, ⟨64, _⟩ => ⟨S32768x256, .f32⟩
  | .local _ .vmem, ⟨0, _⟩ => ⟨S1024x42, .f32⟩
  | .local _ .vmem, ⟨1, _⟩ => ⟨S1024x42, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x8, .f32⟩
  | .local _ .vmem, ⟨7, _⟩ => ⟨S1024x8, .f32⟩
  | .local _ .vmem, ⟨8, _⟩ => ⟨S1024x32, .f32⟩
  | .local _ .vmem, ⟨9, _⟩ => ⟨S1024x32, .f32⟩
  | .local _ .vmem, ⟨10, _⟩ => ⟨S1024x1, .f32⟩
  | .local _ .vmem, ⟨11, _⟩ => ⟨S1024x1, .f32⟩
  | .local _ .vmem, ⟨12, _⟩ => ⟨S256x256, .bf16⟩
  | .local _ .vmem, ⟨13, _⟩ => ⟨S42x512, .bf16⟩
  | .local _ .vmem, ⟨14, _⟩ => ⟨S512, .f32⟩
  | .local _ .vmem, ⟨15, _⟩ => ⟨S512x256, .bf16⟩
  | .local _ .vmem, ⟨16, _⟩ => ⟨S256, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x256, .bf16⟩
  | .local _ .vmem, ⟨21, _⟩ => ⟨S1024x256, .bf16⟩
  | .local _ .vmem, ⟨22, _⟩ => ⟨S1x8x1024, .f32⟩
  | .local _ .vmem, ⟨23, _⟩ => ⟨S1x8x1024, .f32⟩
  | .local _ .vmem, ⟨24, _⟩ => ⟨S1x8x1, .f32⟩
  | .local _ .vmem, ⟨25, _⟩ => ⟨S1x8x1, .f32⟩
  | .local _ .vmem, ⟨26, _⟩ => ⟨S1x32x1024, .f32⟩
  | .local _ .vmem, ⟨27, _⟩ => ⟨S1x32x1024, .f32⟩
  | .local _ .vmem, ⟨28, _⟩ => ⟨S1x32x1, .f32⟩
  | .local _ .vmem, ⟨29, _⟩ => ⟨S1x32x1, .f32⟩
  | .local _ .vmem, ⟨30, _⟩ => ⟨S1024x256, .bf16⟩
  | .local _ .vmem, ⟨31, _⟩ => ⟨S1024x256, .bf16⟩
  | .local _ .vmem, ⟨32, _⟩ => ⟨S1024x8, .f32⟩
  | .local _ .vmem, ⟨33, _⟩ => ⟨S1024x8, .f32⟩
  | .local _ .vmem, ⟨34, _⟩ => ⟨S1024x32, .f32⟩
  | .local _ .vmem, ⟨35, _⟩ => ⟨S1024x32, .f32⟩
  | .local _ .vmem, ⟨36, _⟩ => ⟨S256x1024, .bf16⟩
  | .local _ .vmem, ⟨37, _⟩ => ⟨S256x1024, .bf16⟩
  | .local _ .vmem, ⟨38, _⟩ => ⟨S8x1024, .f32⟩
  | .local _ .vmem, ⟨39, _⟩ => ⟨S32x1024, .f32⟩
  | .local _ .vmem, ⟨40, _⟩ => ⟨S1024x256, .bf16⟩
  | .local _ .vmem, ⟨41, _⟩ => ⟨S256, .f32⟩
  | .local _ .vmem, ⟨42, _⟩ => ⟨S1024x256, .f32⟩
  | .local _ .vmem, ⟨43, _⟩ => ⟨S1024x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v24_2 : Ref sig .tc := ⟨.hbm, 43, rfl⟩
abbrev main_v24_3 : Ref sig .tc := ⟨.hbm, 44, rfl⟩
abbrev main_v24_4 : Ref sig .tc := ⟨.hbm, 45, rfl⟩
abbrev main_cst : Ref sig .tc := ⟨.hbm, 46, rfl⟩
abbrev main_v25 : Ref sig .tc := ⟨.hbm, 47, rfl⟩
abbrev main_cst_0 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg4_0 : Ref sig .tc := ⟨.vmem, 37, rfl⟩
abbrev cc1_stg5_0 : Ref sig .tc := ⟨.vmem, 38, rfl⟩
abbrev cc1_stg6_0 : Ref sig .tc := ⟨.vmem, 39, rfl⟩
abbrev cc1_stg7_0 : Ref sig .tc := ⟨.vmem, 40, rfl⟩
abbrev cc1_stg8_0 : Ref sig .tc := ⟨.vmem, 41, rfl⟩
abbrev cc1_stg9_0 : Ref sig .tc := ⟨.vmem, 42, rfl⟩
abbrev cc1_stg9_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem4_0 : DmaSem sig := 37
abbrev cc1_sem5_0 : DmaSem sig := 38
abbrev cc1_sem6_0 : DmaSem sig := 39
abbrev cc1_sem7_0 : DmaSem sig := 40
abbrev cc1_sem8_0 : DmaSem sig := 41
abbrev cc1_sem9_0 : DmaSem sig := 42
abbrev cc1_sem9_1 : DmaSem sig := 43

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x42 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S42x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x32x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S32768x14x3_S32768x1x3_0_1_0 : S32768x14x3.Slices ![0, 1, 0] S32768x1x3
  bcast_S32768x1x3_S32768x14x3_0_1_2 : S32768x1x3.BroadcastsInDim S32768x14x3 (![0, 1, 2] : Fin 3 → Fin S32768x14x3.rank)
  shapeCasts_S32768x14x3_S32768x42 : S32768x14x3.ShapeCasts S32768x42
  shapeCasts_S32768_S32768x1 : S32768.ShapeCasts S32768x1
  bcast_S32768x1_S32768x8_0_1 : S32768x1.BroadcastsInDim S32768x8 (![0, 1] : Fin 2 → Fin S32768x8.rank)
  bcast_S32768x1_S32768x32_0_1 : S32768x1.BroadcastsInDim S32768x32 (![0, 1] : Fin 2 → Fin S32768x32.rank)
  bitsLt_bf16_f32 : FTy.bits .bf16 < FTy.bits .f32
  inb_S1x8x1024_S1x8x1024_0_0_0 : ∀ a, (![0, 0, 0] : Fin 3 → Nat) a + S1x8x1024.size a ≤ S1x8x1024.size a
  h_S1x8x1024 : 0 < S1x8x1024.numel
  inb_S1x8x1_S1x8x1_0_0_0 : ∀ a, (![0, 0, 0] : Fin 3 → Nat) a + S1x8x1.size a ≤ S1x8x1.size a
  h_S1x8x1 : 0 < S1x8x1.numel
  inb_S1x32x1024_S1x32x1024_0_0_0 : ∀ a, (![0, 0, 0] : Fin 3 → Nat) a + S1x32x1024.size a ≤ S1x32x1024.size a
  h_S1x32x1024 : 0 < S1x32x1024.numel
  inb_S1x32x1_S1x32x1_0_0_0 : ∀ a, (![0, 0, 0] : Fin 3 → Nat) a + S1x32x1.size a ≤ S1x32x1.size a
  h_S1x32x1 : 0 < S1x32x1.numel
  inb_S1024x42_S1024x42_0_0 : ∀ a, (![0, 0] : Fin 2 → Nat) a + S1024x42.size a ≤ S1024x42.size a
  h_S1024x42 : 0 < S1024x42.numel
  shapeCasts_S1024x42_S1024x42 : S1024x42.ShapeCasts S1024x42
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S42x512_S42x512_0_0 : ∀ a, (![0, 0] : Fin 2 → Nat) a + S42x512.size a ≤ S42x512.size a
  h_S42x512 : 0 < S42x512.numel
  shapeCasts_S42x512_S42x512 : S42x512.ShapeCasts S42x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  broadcasts_S1024x1_S1024x1024 : S1024x1.Broadcasts S1024x1024
  shapeCasts_S1x8x1024_S1x8x1024 : S1x8x1024.ShapeCasts S1x8x1024
  shapeCasts_S8x1024_S1x8x1024 : S8x1024.ShapeCasts S1x8x1024
  shapeCasts_S1x8x1_S1x8x1 : S1x8x1.ShapeCasts S1x8x1
  shapeCasts_S8x1_S1x8x1 : S8x1.ShapeCasts S1x8x1
  shapeCasts_S1x32x1024_S1x32x1024 : S1x32x1024.ShapeCasts S1x32x1024
  shapeCasts_S32x1024_S1x32x1024 : S32x1024.ShapeCasts S1x32x1024
  shapeCasts_S1x32x1_S1x32x1 : S1x32x1.ShapeCasts S1x32x1
  shapeCasts_S32x1_S1x32x1 : S32x1.ShapeCasts S1x32x1
  reducesTo_S2x8x1024_S8x1024_d0 : S2x8x1024.ReducesTo [0] S8x1024
  h_S_ : 0 < S_.numel
  reducesTo_S2x8x1_S8x1_d0 : S2x8x1.ReducesTo [0] S8x1
  reducesTo_S2x32x1024_S32x1024_d0 : S2x32x1024.ReducesTo [0] S32x1024
  reducesTo_S2x32x1_S32x1_d0 : S2x32x1.ReducesTo [0] S32x1
  bcast_S_S8x1 : S_.BroadcastsInDim S8x1 (![] : Fin 0 → Fin S8x1.rank)
  bcast_S8x1_S8x1024_0_1 : S8x1.BroadcastsInDim S8x1024 (![0, 1] : Fin 2 → Fin S8x1024.rank)
  bcast_S_S32x1 : S_.BroadcastsInDim S32x1 (![] : Fin 0 → Fin S32x1.rank)
  bcast_S32x1_S32x1024_0_1 : S32x1.BroadcastsInDim S32x1024 (![0, 1] : Fin 2 → Fin S32x1024.rank)
  shapeCasts_S1024x256_S1024x256 : S1024x256.ShapeCasts S1024x256
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  dot_S1024x256_S256x256_S1024x256_1_0_0_1_n_n_wf : DotDims.WF S1024x256 S256x256 S1024x256 [1] [0] [0] [1] [] []
  dot_S1024x42_S42x512_S1024x512_1_0_0_1_n_n_wf : DotDims.WF S1024x42 S42x512 S1024x512 [1] [0] [0] [1] [] []
  dot_S1024x512_S512x256_S1024x256_1_0_0_1_n_n_wf : DotDims.WF S1024x512 S512x256 S1024x256 [1] [0] [0] [1] [] []
  dot_S1024x256_S256x1024_S1024x1024_1_0_0_1_n_n_wf : DotDims.WF S1024x256 S256x1024 S1024x1024 [1] [0] [0] [1] [] []
  dot_S1024x8_S1024x1024_S8x1024_0_0_1_1_n_n_wf : DotDims.WF S1024x8 S1024x1024 S8x1024 [0] [0] [1] [1] [] []
  dot_S1024x8_S1024x1_S8x1_0_0_1_1_n_n_wf : DotDims.WF S1024x8 S1024x1 S8x1 [0] [0] [1] [1] [] []
  dot_S1024x32_S1024x1024_S32x1024_0_0_1_1_n_n_wf : DotDims.WF S1024x32 S1024x1024 S32x1024 [0] [0] [1] [1] [] []
  dot_S1024x32_S1024x1_S32x1_0_0_1_1_n_n_wf : DotDims.WF S1024x32 S1024x1 S32x1 [0] [0] [1] [1] [] []
  dot_S1024x8_S8x1024_S1024x1024_1_0_0_1_n_n_wf : DotDims.WF S1024x8 S8x1024 S1024x1024 [1] [0] [0] [1] [] []
  dot_S1024x32_S32x1024_S1024x1024_1_0_0_1_n_n_wf : DotDims.WF S1024x32 S32x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x42.size a ≤ S32768x42.size a
  hwx0_0 : ∀ i : grid0.Coords, EltTy.bits .f32 = 32 ∨ (Rect.block (s := S32768x42) S1024x42.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .f32 = 32 ∨ (Rect.block (s := S32768x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S32768x8.size a
  hwx0_3 : ∀ i : grid0.Coords, EltTy.bits .f32 = 32 ∨ (Rect.block (s := S32768x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S32768x32.size a
  hwx0_4 : ∀ i : grid0.Coords, EltTy.bits .f32 = 32 ∨ (Rect.block (s := S32768x32) S1024x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S32768x1.size a
  hwx0_5 : ∀ i : grid0.Coords, EltTy.bits .f32 = 32 ∨ (Rect.block (s := S32768x1) S1024x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S42x512.size a ≤ S42x512.size a
  hwx0_7 : ∀ i : grid0.Coords, EltTy.bits .bf16 = 32 ∨ (Rect.block (s := S42x512) S42x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x256.size a
  hwx0_9 : ∀ i : grid0.Coords, EltTy.bits .bf16 = 32 ∨ (Rect.block (s := S512x256) S512x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S256x1024.size a
  hwx0_11 : ∀ i : grid0.Coords, EltTy.bits .bf16 = 32 ∨ (Rect.block (s := S256x1024) S256x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S256x1024.size a
  hwx0_12 : ∀ i : grid0.Coords, EltTy.bits .bf16 = 32 ∨ (Rect.block (s := S256x1024) S256x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S256x1024.size a
  hwx0_13 : ∀ i : grid0.Coords, EltTy.bits .bf16 = 32 ∨ (Rect.block (s := S256x1024) S256x1024.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x256.size a ≤ S32768x256.size a
  hwx0_14 : ∀ i : grid0.Coords, EltTy.bits .bf16 = 32 ∨ (Rect.block (s := S32768x256) S1024x256.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x8x1024.size a ≤ S2x8x1024.size a
  hwx0_15 : ∀ i : grid0.Coords, EltTy.bits .f32 = 32 ∨ (Rect.block (s := S2x8x1024) S1x8x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x8x1.size a ≤ S2x8x1.size a
  hwx0_16 : ∀ i : grid0.Coords, EltTy.bits .f32 = 32 ∨ (Rect.block (s := S2x8x1) S1x8x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x32x1024.size a ≤ S2x32x1024.size a
  hwx0_17 : ∀ i : grid0.Coords, EltTy.bits .f32 = 32 ∨ (Rect.block (s := S2x32x1024) S1x32x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x32x1.size a ≤ S2x32x1.size a
  hwx0_18 : ∀ i : grid0.Coords, EltTy.bits .f32 = 32 ∨ (Rect.block (s := S2x32x1) S1x32x1.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S32768x256.size a
  hwx1_0 : ∀ i : grid1.Coords, EltTy.bits .bf16 = 32 ∨ (Rect.block (s := S32768x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x8.size a ≤ S32768x8.size a
  hwx1_1 : ∀ i : grid1.Coords, EltTy.bits .f32 = 32 ∨ (Rect.block (s := S32768x8) S1024x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S32768x32.size a
  hwx1_2 : ∀ i : grid1.Coords, EltTy.bits .f32 = 32 ∨ (Rect.block (s := S32768x32) S1024x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .bf16 = 32 ∨ (Rect.block (s := S256x1024) S256x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S256x1024.size a
  hwx1_4 : ∀ i : grid1.Coords, EltTy.bits .bf16 = 32 ∨ (Rect.block (s := S256x1024) S256x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x1024.size a ≤ S8x1024.size a
  hwx1_5 : ∀ i : grid1.Coords, EltTy.bits .f32 = 32 ∨ (Rect.block (s := S8x1024) S8x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x1024.size a ≤ S32x1024.size a
  hwx1_6 : ∀ i : grid1.Coords, EltTy.bits .f32 = 32 ∨ (Rect.block (s := S32x1024) S32x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x256.size a ≤ S1024x256.size a
  hwx1_7 : ∀ i : grid1.Coords, EltTy.bits .bf16 = 32 ∨ (Rect.block (s := S1024x256) S1024x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x256.size a ≤ S32768x256.size a
  hwx1_9 : ∀ i : grid1.Coords, EltTy.bits .f32 = 32 ∨ (Rect.block (s := S32768x256) S1024x256.size (cc1_transform_9 i) (hinb1_9 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x42_S42x512_S1024x512_1_0_0_1_n_n : DotDims S1024x42 S42x512 S1024x512 where
  lhsContracting := [1]
  rhsContracting := [0]
  lhsNonContracting := [0]
  rhsNonContracting := [1]
  lhsBatch := []
  rhsBatch := []
  wf := dot_S1024x42_S42x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x8_S1024x1024_S8x1024_0_0_1_1_n_n : DotDims S1024x8 S1024x1024 S8x1024 where
  lhsContracting := [0]
  rhsContracting := [0]
  lhsNonContracting := [1]
  rhsNonContracting := [1]
  lhsBatch := []
  rhsBatch := []
  wf := dot_S1024x8_S1024x1024_S8x1024_0_0_1_1_n_n_wf
def dot_S1024x8_S1024x1_S8x1_0_0_1_1_n_n : DotDims S1024x8 S1024x1 S8x1 where
  lhsContracting := [0]
  rhsContracting := [0]
  lhsNonContracting := [1]
  rhsNonContracting := [1]
  lhsBatch := []
  rhsBatch := []
  wf := dot_S1024x8_S1024x1_S8x1_0_0_1_1_n_n_wf
def dot_S1024x32_S1024x1024_S32x1024_0_0_1_1_n_n : DotDims S1024x32 S1024x1024 S32x1024 where
  lhsContracting := [0]
  rhsContracting := [0]
  lhsNonContracting := [1]
  rhsNonContracting := [1]
  lhsBatch := []
  rhsBatch := []
  wf := dot_S1024x32_S1024x1024_S32x1024_0_0_1_1_n_n_wf
def dot_S1024x32_S1024x1_S32x1_0_0_1_1_n_n : DotDims S1024x32 S1024x1 S32x1 where
  lhsContracting := [0]
  rhsContracting := [0]
  lhsNonContracting := [1]
  rhsNonContracting := [1]
  lhsBatch := []
  rhsBatch := []
  wf := dot_S1024x32_S1024x1_S32x1_0_0_1_1_n_n_wf
def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v3) S1024x42.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S42x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S512x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S256x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S256x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S256x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v24_0) S1024x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v24_1) S1x8x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v24_2) S1x8x1.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v24_3) S1x32x1024.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v24_4) S1x32x1.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v24_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S256x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S256x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S8x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S32x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1024x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S1024x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S32768x256 : Shape := ⟨2, ![32768, 256]⟩
abbrev S32768x14x3 : Shape := ⟨3, ![32768, 14, 3]⟩
abbrev S32768 : Shape := ⟨1, ![32768]⟩
abbrev S256x256 : Shape := ⟨2, ![256, 256]⟩
abbrev S42x512 : Shape := ⟨2, ![42, 512]⟩
abbrev S512 : Shape := ⟨1, ![512]⟩
abbrev S512x256 : Shape := ⟨2, ![512, 256]⟩
abbrev S256 : Shape := ⟨1, ![256]⟩
abbrev S256x1024 : Shape := ⟨2, ![256, 1024]⟩
abbrev S1024x256 : Shape := ⟨2, ![1024, 256]⟩
abbrev S32768x1 : Shape := ⟨2, ![32768, 1]⟩
abbrev S32768x1x3 : Shape := ⟨3, ![32768, 1, 3]⟩
abbrev S32768x3 : Shape := ⟨2, ![32768, 3]⟩
abbrev S32768x42 : Shape := ⟨2, ![32768, 42]⟩
abbrev S32768x512 : Shape := ⟨2, ![32768, 512]⟩
abbrev S1x512 : Shape := ⟨2, ![1, 512]⟩
abbrev S_ : Shape := ⟨0, ![]⟩
abbrev S1x256 : Shape := ⟨2, ![1, 256]⟩
abbrev S32768x1024 : Shape := ⟨2, ![32768, 1024]⟩
abbrev S8x1024 : Shape := ⟨2, ![8, 1024]⟩
abbrev S8x1 : Shape := ⟨2, ![8, 1]⟩
abbrev S32x1024 : Shape := ⟨2, ![32, 1024]⟩
abbrev S32x1 : Shape := ⟨2, ![32, 1]⟩

abbrev nBuf : Space → Nat
  | .hbm => 165
  | .vmem => 0
  | .smem => 0
  | _ => 0

abbrev hbmTy0_0 (i : Nat) : BufTy := match i % 128 with
  | 0 => ⟨S32768x256, .f32⟩
  | 1 => ⟨S32768x14x3, .f32⟩
  | 2 => ⟨S32768x256, .f32⟩
  | 3 => ⟨S32768, .i32⟩
  | 4 => ⟨S32768, .i32⟩
  | 5 => ⟨S32768, .i1⟩
  | 6 => ⟨S256x256, .f32⟩
  | 7 => ⟨S42x512, .f32⟩
  | 8 => ⟨S512, .f32⟩
  | 9 => ⟨S512x256, .f32⟩
  | 10 => ⟨S256, .f32⟩
  | 11 => ⟨S256x1024, .f32⟩
  | 12 => ⟨S256x1024, .f32⟩
  | 13 => ⟨S256x1024, .f32⟩
  | 14 => ⟨S256x1024, .f32⟩
  | 15 => ⟨S1024x256, .f32⟩
  | 16 => ⟨S256, .f32⟩
  | 17 => ⟨S32768, .f32⟩
  | 18 => ⟨S32768x1, .f32⟩
  | 19 => ⟨S32768x1x3, .f32⟩
  | 20 => ⟨S32768x3, .f32⟩
  | 21 => ⟨S32768x1x3, .f32⟩
  | 22 => ⟨S32768x14x3, .f32⟩
  | 23 => ⟨S32768x14x3, .f32⟩
  | 24 => ⟨S32768x42, .f32⟩
  | 25 => ⟨S32768x256, .f32⟩
  | 26 => ⟨S32768x256, .f32⟩
  | 27 => ⟨S32768x512, .f32⟩
  | 28 => ⟨S1x512, .f32⟩
  | 29 => ⟨S32768x512, .f32⟩
  | 30 => ⟨S32768x512, .f32⟩
  | 31 => ⟨S32768x512, .f32⟩
  | 32 => ⟨S32768x512, .f32⟩
  | 33 => ⟨S_, .f32⟩
  | 34 => ⟨S32768x512, .f32⟩
  | 35 => ⟨S32768x512, .f32⟩
  | 36 => ⟨S32768x512, .f32⟩
  | 37 => ⟨S_, .f32⟩
  | 38 => ⟨S32768x512, .f32⟩
  | 39 => ⟨S32768x512, .f32⟩
  | 40 => ⟨S32768x512, .f32⟩
  | 41 => ⟨S_, .f32⟩
  | 42 => ⟨S32768x512, .f32⟩
  | 43 => ⟨S32768x512, .f32⟩
  | 44 => ⟨S_, .f32⟩
  | 45 => ⟨S32768x512, .f32⟩
  | 46 => ⟨S32768x512, .f32⟩
  | 47 => ⟨S32768x512, .f32⟩
  | 48 => ⟨S32768x256, .f32⟩
  | 49 => ⟨S32768x256, .f32⟩
  | 50 => ⟨S1x256, .f32⟩
  | 51 => ⟨S32768x256, .f32⟩
  | 52 => ⟨S32768x256, .f32⟩
  | 53 => ⟨S32768x1024, .f32⟩
  | 54 => ⟨S32768x1024, .f32⟩
  | 55 => ⟨S32768x1024, .f32⟩
  | 56 => ⟨S32768x1024, .f32⟩
  | 57 => ⟨S_, .f32⟩
  | 58 => ⟨S32768x1024, .f32⟩
  | 59 => ⟨S32768x1024, .f32⟩
  | 60 => ⟨S32768x1024, .f32⟩
  | 61 => ⟨S_, .f32⟩
  | 62 => ⟨S32768x1024, .f32⟩
  | 63 => ⟨S32768x1024, .f32⟩
  | 64 => ⟨S32768x1024, .f32⟩
  | 65 => ⟨S_, .f32⟩
  | 66 => ⟨S32768x1024, .f32⟩
  | 67 => ⟨S32768x1024, .f32⟩
  | 68 => ⟨S_, .f32⟩
  | 69 => ⟨S32768x1024, .f32⟩
  | 70 => ⟨S32768x1024, .f32⟩
  | 71 => ⟨S32768x1024, .f32⟩
  | 72 => ⟨S32768x1024, .f32⟩
  | 73 => ⟨S32768x1024, .f32⟩
  | 74 => ⟨S32768x1024, .f32⟩
  | 75 => ⟨S_, .f32⟩
  | 76 => ⟨S32768x1024, .f32⟩
  | 77 => ⟨S32768x1024, .f32⟩
  | 78 => ⟨S32768x1024, .f32⟩
  | 79 => ⟨S_, .f32⟩
  | 80 => ⟨S32768x1024, .f32⟩
  | 81 => ⟨S32768x1024, .f32⟩
  | 82 => ⟨S32768x1024, .f32⟩
  | 83 => ⟨S_, .f32⟩
  | 84 => ⟨S32768x1024, .f32⟩
  | 85 => ⟨S32768x1024, .f32⟩
  | 86 => ⟨S_, .f32⟩
  | 87 => ⟨S32768x1024, .f32⟩
  | 88 => ⟨S32768x1024, .f32⟩
  | 89 => ⟨S32768x1024, .f32⟩
  | 90 => ⟨S32768x1024, .f32⟩
  | 91 => ⟨S32768x1024, .f32⟩
  | 92 => ⟨S32768x1024, .f32⟩
  | 93 => ⟨S_, .f32⟩
  | 94 => ⟨S32768x1024, .f32⟩
  | 95 => ⟨S32768x1024, .f32⟩
  | 96 => ⟨S32768x1024, .f32⟩
  | 97 => ⟨S_, .f32⟩
  | 98 => ⟨S32768x1024, .f32⟩
  | 99 => ⟨S32768x1024, .f32⟩
  | 100 => ⟨S32768x1024, .f32⟩
  | 101 => ⟨S_, .f32⟩
  | 102 => ⟨S32768x1024, .f32⟩
  | 103 => ⟨S32768x1024, .f32⟩
  | 104 => ⟨S_, .f32⟩
  | 105 => ⟨S32768x1024, .f32⟩
  | 106 => ⟨S32768x1024, .f32⟩
  | 107 => ⟨S32768x1024, .f32⟩
  | 108 => ⟨S32768x1024, .f32⟩
  | 109 => ⟨S32768x1024, .f32⟩
  | 110 => ⟨S32768x1024, .f32⟩
  | 111 => ⟨S32768x1024, .f32⟩
  | 112 => ⟨S_, .f32⟩
  | 113 => ⟨S8x1024, .f32⟩
  | 114 => ⟨S32768x1, .i32⟩
  | 115 => ⟨S8x1024, .f32⟩
  | 116 => ⟨S_, .f32⟩
  | 117 => ⟨S8x1, .f32⟩
  | 118 => ⟨S32768x1, .i32⟩
  | 119 => ⟨S8x1, .f32⟩
  | 120 => ⟨S_, .f32⟩
  | 121 => ⟨S8x1, .f32⟩
  | 122 => ⟨S8x1, .f32⟩
  | 123 => ⟨S8x1024, .f32⟩
  | 124 => ⟨S8x1024, .f32⟩
  | 125 => ⟨S_, .i32⟩
  | 126 => ⟨S32768, .i32⟩
  | 127 => ⟨S32768, .i1⟩
  | _ => ⟨S32768x256, .f32⟩

abbrev hbmTy0_1 (i : Nat) : BufTy := match i % 128 with
  | 0 => ⟨S_, .i32⟩
  | 1 => ⟨S32768, .i32⟩
  | 2 => ⟨S32768, .i32⟩
  | 3 => ⟨S32768, .i32⟩
  | 4 => ⟨S32768x1, .i32⟩
  | 5 => ⟨S32768x1024, .f32⟩
  | 6 => ⟨S32768x1024, .f32⟩
  | 7 => ⟨S32768x1024, .f32⟩
  | 8 => ⟨S32768x1024, .f32⟩
  | 9 => ⟨S32768x1024, .f32⟩
  | 10 => ⟨S_, .f32⟩
  | 11 => ⟨S32x1024, .f32⟩
  | 12 => ⟨S32768x1, .i32⟩
  | 13 => ⟨S32x1024, .f32⟩
  | 14 => ⟨S_, .f32⟩
  | 15 => ⟨S32x1, .f32⟩
  | 16 => ⟨S32768x1, .i32⟩
  | 17 => ⟨S32x1, .f32⟩
  | 18 => ⟨S_, .f32⟩
  | 19 => ⟨S32x1, .f32⟩
  | 20 => ⟨S32x1, .f32⟩
  | 21 => ⟨S32x1024, .f32⟩
  | 22 => ⟨S32x1024, .f32⟩
  | 23 => ⟨S_, .i32⟩
  | 24 => ⟨S32768, .i32⟩
  | 25 => ⟨S32768, .i1⟩
  | 26 => ⟨S_, .i32⟩
  | 27 => ⟨S32768, .i32⟩
  | 28 => ⟨S32768, .i32⟩
  | 29 => ⟨S32768, .i32⟩
  | 30 => ⟨S32768x1, .i32⟩
  | 31 => ⟨S32768x1024, .f32⟩
  | 32 => ⟨S32768x1024, .f32⟩
  | 33 => ⟨S32768x256, .f32⟩
  | 34 => ⟨S1x256, .f32⟩
  | 35 => ⟨S32768x256, .f32⟩
  | 36 => ⟨S32768x256, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_16 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c : Ref sig .tc := ⟨.hbm, 125, rfl⟩
abbrev main_v89 : Ref sig .tc := ⟨.hbm, 126, rfl⟩
abbrev main_v90 : Ref sig .tc := ⟨.hbm, 127, rfl⟩
abbrev main_c_18 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_19 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_20 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_21 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_22 : Ref sig .tc := ⟨.hbm, 151, rfl⟩
abbrev main_v110 : Ref sig .tc := ⟨.hbm, 152, rfl⟩
abbrev main_v111 : Ref sig .tc := ⟨.hbm, 153, rfl⟩
abbrev main_c_23 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩

abbrev nD : Nat := 1
abbrev τ : Topo := Topo.v7x

variable {F : FTy → Type} [FloatOps F]

class Facts₀ : Prop where
  bcast_S32768_S32768x1_0 : S32768.BroadcastsInDim S32768x1 (![0] : Fin 1 → Fin S32768x1.rank)
  slices_S32768x14x3_S32768x1x3_0_1_0 : S32768x14x3.Slices ![0, 1, 0] S32768x1x3
  shapeCasts_S32768x1x3_S32768x3 : S32768x1x3.ShapeCasts S32768x3
  bcast_S32768x3_S32768x1x3_0_2 : S32768x3.BroadcastsInDim S32768x1x3 (![0, 2] : Fin 2 → Fin S32768x1x3.rank)
  bcast_S32768x1x3_S32768x14x3_0_1_2 : S32768x1x3.BroadcastsInDim S32768x14x3 (![0, 1, 2] : Fin 3 → Fin S32768x14x3.rank)
  shapeCasts_S32768x14x3_S32768x42 : S32768x14x3.ShapeCasts S32768x42
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  bcast_S_S8x1024 : S_.BroadcastsInDim S8x1024 (![] : Fin 0 → Fin S8x1024.rank)
  bcast_S_S8x1 : S_.BroadcastsInDim S8x1 (![] : Fin 0 → Fin S8x1.rank)
  bcast_S8x1_S8x1024_0_1 : S8x1.BroadcastsInDim S8x1024 (![0, 1] : Fin 2 → Fin S8x1024.rank)
  bcast_S_S32768 : S_.BroadcastsInDim S32768 (![] : Fin 0 → Fin S32768.rank)
  bcast_S_S32x1024 : S_.BroadcastsInDim S32x1024 (![] : Fin 0 → Fin S32x1024.rank)
  bcast_S_S32x1 : S_.BroadcastsInDim S32x1 (![] : Fin 0 → Fin S32x1.rank)
  bcast_S32x1_S32x1024_0_1 : S32x1.BroadcastsInDim S32x1024 (![0, 1] : Fin 2 → Fin S32x1024.rank)
  dot_S32768x256_S256x256_S32768x256_1_0_0_1_n_n_wf : DotDims.WF S32768x256 S256x256 S32768x256 [1] [0] [0] [1] [] []
  dot_S32768x42_S42x512_S32768x512_1_0_0_1_n_n_wf : DotDims.WF S32768x42 S42x512 S32768x512 [1] [0] [0] [1] [] []
  dot_S32768x512_S512x256_S32768x256_1_0_0_1_n_n_wf : DotDims.WF S32768x512 S512x256 S32768x256 [1] [0] [0] [1] [] []
  dot_S32768x256_S256x1024_S32768x1024_1_0_0_1_n_n_wf : DotDims.WF S32768x256 S256x1024 S32768x1024 [1] [0] [0] [1] [] []
  scatter_S8x1024_S32768x1_S32768x1024_1_0_0_1_wf : ScatterDims.WF S8x1024 S32768x1 S32768x1024 [1] [0] [0] 1
  scatter_S8x1_S32768x1_S32768x1_1_0_0_1_wf : ScatterDims.WF S8x1 S32768x1 S32768x1 [1] [0] [0] 1
  gather_S8x1024_S32768x1_S32768x1024_1_0_n_n_0_1_11024_wf : GatherDims.WF S8x1024 S32768x1 S32768x1024 [1] [0] [] [0] [] 1 ![1, 1024]
  scatter_S32x1024_S32768x1_S32768x1024_1_0_0_1_wf : ScatterDims.WF S32x1024 S32768x1 S32768x1024 [1] [0] [0] 1
  scatter_S32x1_S32768x1_S32768x1_1_0_0_1_wf : ScatterDims.WF S32x1 S32768x1 S32768x1 [1] [0] [0] 1
  gather_S32x1024_S32768x1_S32768x1024_1_0_n_n_0_1_11024_wf : GatherDims.WF S32x1024 S32768x1 S32768x1024 [1] [0] [] [0] [] 1 ![1, 1024]
  dot_S32768x1024_S1024x256_S32768x256_1_0_0_1_n_n_wf : DotDims.WF S32768x1024 S1024x256 S32768x256 [1] [0] [0] [1] [] []

variable [Facts₀]

def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x42_S42x512_S32768x512_1_0_0_1_n_n : DotDims S32768x42 S42x512 S32768x512 where
  lhsContracting := [1]
  rhsContracting := [0]
  lhsNonContracting := [0]
  rhsNonContracting := [1]
  lhsBatch := []
  rhsBatch := []
  wf := dot_S32768x42_S42x512_S32768x512_1_0_0_1_n_n_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def scatter_S8x1024_S32768x1_S32768x1024_1_0_0_1 : ScatterDims S8x1024 S32768x1 S32768x1024 where
  updateWindowDims := [1]
  insertedWindowDims := [0]
  scatterDimsToOperandDims := [0]
  indexVectorDim := 1
  wf := scatter_S8x1024_S32768x1_S32768x1024_1_0_0_1_wf
def scatter_S8x1_S32768x1_S32768x1_1_0_0_1 : ScatterDims S8x1 S32768x1 S32768x1 where
  updateWindowDims := [1]
  insertedWindowDims := [0]
  scatterDimsToOperandDims := [0]
  indexVectorDim := 1
  wf := scatter_S8x1_S32768x1_S32768x1_1_0_0_1_wf
def gather_S8x1024_S32768x1_S32768x1024_1_0_n_n_0_1_11024 : GatherDims S8x1024 S32768x1 S32768x1024 where
  offsetDims := [1]
  collapsedSliceDims := [0]
  operandBatchingDims := []
  startIndicesBatchingDims := []
  startIndexMap := [0]
  indexVectorDim := 1
  sliceSizes := ![1, 1024]
  wf := gather_S8x1024_S32768x1_S32768x1024_1_0_n_n_0_1_11024_wf
def scatter_S32x1024_S32768x1_S32768x1024_1_0_0_1 : ScatterDims S32x1024 S32768x1 S32768x1024 where
  updateWindowDims := [1]
  insertedWindowDims := [0]
  scatterDimsToOperandDims := [0]
  indexVectorDim := 1
  wf := scatter_S32x1024_S32768x1_S32768x1024_1_0_0_1_wf
def scatter_S32x1_S32768x1_S32768x1_1_0_0_1 : ScatterDims S32x1 S32768x1 S32768x1 where
  updateWindowDims := [1]
  insertedWindowDims := [0]
  scatterDimsToOperandDims := [0]
  indexVectorDim := 1
  wf := scatter_S32x1_S32768x1_S32768x1_1_0_0_1_wf
def gather_S32x1024_S32768x1_S32768x1024_1_0_n_n_0_1_11024 : GatherDims S32x1024 S32768x1 S32768x1024 where
  offsetDims := [1]
  collapsedSliceDims := [0]
  operandBatchingDims := []
  startIndicesBatchingDims := []
  startIndexMap := [0]
  indexVectorDim := 1
  sliceSizes := ![1, 1024]
  wf := gather_S32x1024_S32768x1_S32768x1024_1_0_n_n_0_1_11024_wf
def dot_S32768x1024_S1024x256_S32768x256_1_0_0_1_n_n : DotDims S32768x1024 S1024x256 S32768x256 where
  lhsContracting := [1]
  rhsContracting := [0]
  lhsNonContracting := [0]
  rhsNonContracting := [1]
  lhsBatch := []
  rhsBatch := []
  wf := dot_S32768x1024_S1024x256_S32768x256_1_0_0_1_n_n_wf

class Facts : Prop extends Facts₀ where

variable [Facts]
-- ==== Proof.Spec.lean ====
/-
  The mathematics both programs compute, written once as functions of the seventeen argument arrays read as
  extended reals (floats) and machine words (segment ids, mask).

  Per residue n:  centred atom coordinates  lp n j = pos[n, j/3, j%3] - pos[n, 1, j%3]  (j < 42);
  the mixed feature row  L n = (loc n + cond n · Wc) + gelu(lp n · W1 + b1) · W2 + b2;
  four projections of L n to 1024 columns:  U = L·Wu,  G = gelu(L·Wg),  CG = gelu(L·Wcg),  BG = gelu(L·Wbg).
  Per segment s of an id array: the masked sum of BG·U (CG·U) over the residues whose id is s, and the masked
  count, written with the one-hot weight  oh id s ∈ {0, 1};  the segment mean is sum / max(count, eps).
  The hidden row adds to G·U the two means of the residue's own segments, again picked by the one-hot weight,
  and the result is  hidden · Wo + bo.
-/
import Idealize.ShloMosaic.PureOps.Ideal
import Idealize.ShloMosaic.Lib.ValueIdx

noncomputable section

open scoped BigOperators

namespace Cert.Spec

open Idealize.ShloMosaic Idealize.ShloMosaic.ValueIdx

/-- Literal shapes of rank one, two and three. -/
abbrev Sh1 (a : Nat) : Shape := ⟨1, ![a]⟩
abbrev Sh2 (a b : Nat) : Shape := ⟨2, ![a, b]⟩
abbrev Sh3 (a b c : Nat) : Shape := ⟨3, ![a, b, c]⟩

/-- The seventeen argument arrays: floats as extended reals, ids as 32-bit words, the mask as bits. -/
structure Args where
  loc : (Sh2 32768 256).Idx → EReal
  pos : (Sh3 32768 14 3).Idx → EReal
  cond : (Sh2 32768 256).Idx → EReal
  chain : (Sh1 32768).Idx → BitVec 32
  batch : (Sh1 32768).Idx → BitVec 32
  mask : (Sh1 32768).Idx → BitVec 1
  Wc : (Sh2 256 256).Idx → EReal
  W1 : (Sh2 42 512).Idx → EReal
  b1 : (Sh1 512).Idx → EReal
  W2 : (Sh2 512 256).Idx → EReal
  b2 : (Sh1 256).Idx → EReal
  Wu : (Sh2 256 1024).Idx → EReal
  Wg : (Sh2 256 1024).Idx → EReal
  Wcg : (Sh2 256 1024).Idx → EReal
  Wbg : (Sh2 256 1024).Idx → EReal
  Wo : (Sh2 1024 256).Idx → EReal
  bo : (Sh1 256).Idx → EReal

/-- The five float literals, each the exact value of its binary word. -/
def c044 : EReal := Ideal.ofBits .f32 0x3D372713#32
def c079 : EReal := Ideal.ofBits .f32 0x3F4C422A#32
def cOne : EReal := Ideal.ofBits .f32 0x3F800000#32
def cHalf : EReal := Ideal.ofBits .f32 0x3F000000#32
def cEps : EReal := Ideal.ofBits .f32 0x358637BD#32

/-- The tanh form of gelu, the cube grouped x · (x · x). -/
def gelu (x : EReal) : EReal := x * (cHalf * (cOne + Ideal.tanh (c079 * (x + c044 * (x * (x * x))))))

/-- The same with the cube grouped (x · x) · x. -/
def geluR (x : EReal) : EReal := x * (cHalf * (cOne + Ideal.tanh (c079 * (x + c044 * ((x * x) * x)))))

/-- The two groupings of the cube agree: multiplication of extended reals is commutative. -/
theorem geluR_eq (x : EReal) : geluR x = gelu x := by
  unfold geluR gelu
  rw [mul_comm (x * x) x]

/-- The one-hot weight of an id word against segment number s. -/
def oh (w : BitVec 32) (s : ℕ) : EReal := if w = BitVec.ofNat 32 s then 1 else 0

/-- A bit as the number 0 or 1. -/
def bit (b : BitVec 1) : EReal := ((b.toNat : ℝ) : EReal)

variable (a : Args)

/-- Column j of the flattened centred coordinates is atom j / 3, axis j % 3, minus atom 1 on the same axis. -/
def lp (n : Fin 32768) (j : Fin 42) : EReal :=
  a.pos (ix3 n (⟨j.val / 3, by have := j.isLt; omega⟩ : Fin 14) (⟨j.val % 3, by omega⟩ : Fin 3))
    - a.pos (ix3 n (1 : Fin 14) (⟨j.val % 3, by omega⟩ : Fin 3))

/-- loc + cond · Wc. -/
def mix1 (n : Fin 32768) (d : Fin 256) : EReal :=
  a.loc (ix2 n d) + ∑ k : Fin 256, a.cond (ix2 n k) * a.Wc (ix2 k d)

/-- lp · W1 + b1. -/
def hid (n : Fin 32768) (h : Fin 512) : EReal :=
  (∑ j : Fin 42, lp a n j * a.W1 (ix2 j h)) + a.b1 (ix1 h)

/-- The mixed feature row. -/
def L (n : Fin 32768) (d : Fin 256) : EReal :=
  (mix1 a n d + ∑ h : Fin 512, gelu (hid a n h) * a.W2 (ix2 h d)) + a.b2 (ix1 d)

/-- L · W for a 256 × 1024 weight. -/
def proj (W : (Sh2 256 1024).Idx → EReal) (n : Fin 32768) (f : Fin 1024) : EReal :=
  ∑ d : Fin 256, L a n d * W (ix2 d f)

def U (n : Fin 32768) (f : Fin 1024) : EReal := proj a a.Wu n f
def G (n : Fin 32768) (f : Fin 1024) : EReal := gelu (proj a a.Wg n f)
def CG (n : Fin 32768) (f : Fin 1024) : EReal := gelu (proj a a.Wcg n f)
def BG (n : Fin 32768) (f : Fin 1024) : EReal := gelu (proj a a.Wbg n f)

/-- The mask bit of residue n as 0 or 1. -/
def mf (n : Fin 32768) : EReal := bit (a.mask (ix1 n))

/-- The masked gated products that are summed per segment. -/
def Xb (n : Fin 32768) (f : Fin 1024) : EReal := BG a n f * U a n f * mf a n
def Xc (n : Fin 32768) (f : Fin 1024) : EReal := CG a n f * U a n f * mf a n

/-- Row number of row r of tile t of half k: the 32768 rows are 2 halves of 16 tiles of 1024 rows. -/
def rowOf (k : Fin 2) (t : Fin 16) (r : Fin 1024) : Fin 32768 :=
  ⟨(k.val * 16 + t.val) * 1024 + r.val, by have := k.isLt; have := t.isLt; have := r.isLt; omega⟩

/-- One half's share of a segment's masked sum and count (batch ids, 8 segments). -/
def SbPart (k : Fin 2) (s : Fin 8) (f : Fin 1024) : EReal :=
  ∑ t : Fin 16, ∑ r : Fin 1024, oh (a.batch (ix1 (rowOf k t r))) s.val * Xb a (rowOf k t r) f
def NbPart (k : Fin 2) (s : Fin 8) : EReal :=
  ∑ t : Fin 16, ∑ r : Fin 1024, oh (a.batch (ix1 (rowOf k t r))) s.val * mf a (rowOf k t r)
/-- The same for chain ids, 32 segments. -/
def ScPart (k : Fin 2) (s : Fin 32) (f : Fin 1024) : EReal :=
  ∑ t : Fin 16, ∑ r : Fin 1024, oh (a.chain (ix1 (rowOf k t r))) s.val * Xc a (rowOf k t r) f
def NcPart (k : Fin 2) (s : Fin 32) : EReal :=
  ∑ t : Fin 16, ∑ r : Fin 1024, oh (a.chain (ix1 (rowOf k t r))) s.val * mf a (rowOf k t r)

/-- A segment's masked sum and count over all residues. -/
def Sb (s : Fin 8) (f : Fin 1024) : EReal := ∑ n : Fin 32768, oh (a.batch (ix1 n)) s.val * Xb a n f
def Nb (s : Fin 8) : EReal := ∑ n : Fin 32768, oh (a.batch (ix1 n)) s.val * mf a n
def Sc (s : Fin 32) (f : Fin 1024) : EReal := ∑ n : Fin 32768, oh (a.chain (ix1 n)) s.val * Xc a n f
def Nc (s : Fin 32) : EReal := ∑ n : Fin 32768, oh (a.chain (ix1 n)) s.val * mf a n

/-- The segment means: sum over max(count, eps). -/
def Mb (s : Fin 8) (f : Fin 1024) : EReal := Ideal.div (Sb a s f) (max (Nb a s) cEps)
def Mc (s : Fin 32) (f : Fin 1024) : EReal := Ideal.div (Sc a s f) (max (Nc a s) cEps)

/-- The hidden row: the gated projection plus the means of the residue's batch segment and chain segment. -/
def hidden (n : Fin 32768) (f : Fin 1024) : EReal :=
  (G a n f * U a n f + ∑ s : Fin 8, oh (a.batch (ix1 n)) s.val * Mb a s f)
    + ∑ s : Fin 32, oh (a.chain (ix1 n)) s.val * Mc a s f

/-- The result: hidden · Wo + bo. -/
def out (n : Fin 32768) (d : Fin 256) : EReal :=
  (∑ f : Fin 1024, hidden a n f * a.Wo (ix2 f d)) + a.bo (ix1 d)

/-- The result as an array over the [32768, 256] index. -/
def outArr : (Sh2 32768 256).Idx → EReal :=
  fun i => out a ⟨(i 0).val, idx2_lt0 i⟩ ⟨(i 1).val, idx2_lt1 i⟩

theorem outArr_ix2 (n : Fin 32768) (d : Fin 256) : outArr a (ix2 n d) = out a n d := rfl

/-- An array that agrees with the result at every row and column is the result array. -/
theorem eq_outArr (x : (Sh2 32768 256).Idx → EReal) (h : ∀ (n : Fin 32768) (d : Fin 256), x (ix2 n d) = out a n d) :
    x = outArr a := by
  funext j
  rw [eq_ix2 j]
  exact (h (j 0) (j 1)).trans (outArr_ix2 a (j 0) (j 1)).symm

end Cert.Spec

end
-- ==== Proof.KArgs.lean ====
/-
  The seventeen argument arrays of the kernel's program, on one core, as the specification's argument record.
-/
import proofs.«408712_j4063039062804_2_alg».proof.KernelIdeal
import proofs.«408712_j4063039062804_2_alg».proof.Proof.Spec

set_option maxRecDepth 16384

noncomputable section

open scoped BigOperators

namespace Cert.KernelIdeal.KV

open Idealize.ShloMosaic Idealize.SL.Sem Cert.KernelIdeal

/-- The launch memory's argument arrays on core c. -/
def argsK (m : (ℓ : Loc nD τ sig) → Buf (Elt Ideal) ℓ) (c : Dev nD) : Cert.Spec.Args where
  loc := m ((c.tc : Thread nD τ).loc main_arg0)
  pos := m ((c.tc : Thread nD τ).loc main_arg1)
  cond := m ((c.tc : Thread nD τ).loc main_arg2)
  chain := m ((c.tc : Thread nD τ).loc main_arg3)
  batch := m ((c.tc : Thread nD τ).loc main_arg4)
  mask := m ((c.tc : Thread nD τ).loc main_arg5)
  Wc := m ((c.tc : Thread nD τ).loc main_arg6)
  W1 := m ((c.tc : Thread nD τ).loc main_arg7)
  b1 := m ((c.tc : Thread nD τ).loc main_arg8)
  W2 := m ((c.tc : Thread nD τ).loc main_arg9)
  b2 := m ((c.tc : Thread nD τ).loc main_arg10)
  Wu := m ((c.tc : Thread nD τ).loc main_arg11)
  Wg := m ((c.tc : Thread nD τ).loc main_arg12)
  Wcg := m ((c.tc : Thread nD τ).loc main_arg13)
  Wbg := m ((c.tc : Thread nD τ).loc main_arg14)
  Wo := m ((c.tc : Thread nD τ).loc main_arg15)
  bo := m ((c.tc : Thread nD τ).loc main_arg16)

end Cert.KernelIdeal.KV

end
-- ==== Proof.KHost0.lean ====
/-
  What the first pallas_call finds in its operand arrays: the host operations before it, read at an index.
  The flattened centred coordinates, the mask as a column of 0/1, the two one-hot matrices of the segment ids,
  and the weights after a change of float format, which is the identity on extended reals.
-/
import proofs.«408712_j4063039062804_2_alg».proof.Proof.Gen.KernelIdeal.Frame
import proofs.«408712_j4063039062804_2_alg».proof.Proof.KArgs
import Idealize.ShloMosaic.Lib.ValueIdx
import Idealize.ShloMosaic.Lib.Pipeline.Value
import Idealize.ShloMosaic.Lib.StableHlo.Predicate

set_option maxRecDepth 16384

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The centred coordinates

Entry (n, j) of the flattened array sits at row-major position 42·n + j of the [32768, 14, 3] difference, which is
atom j / 3, axis j % 3. The subtrahend is the slice "atom 1" broadcast back along the atom axis, so it reads atom 1 on
the same axis whatever j / 3 is. -/

theorem V1_lpos (n : Fin 32768) (j : Fin 42) :
    (V1 m ρ c main_v3 : S32768x42.Idx → EReal) (ix2 n j) = Cert.Spec.lp (argsK m c) n j := by
  show StableHlo.after hostOps0 (W0 m ρ c) (Proc.devRef .tc main_v3) (ix2 n j) = _
  after_results
  show shapeCast S32768x42
      (subf (F := Ideal) (W0 m ρ c (Proc.devRef .tc main_arg1))
        (broadcastInDim S32768x14x3 ![0, 1, 2] bcast_S32768x1x3_S32768x14x3_0_1_2
          (extractStridedSlice S32768x1x3 ![0, 1, 0] (W0 m ρ c (Proc.devRef .tc main_arg1))
            slices_S32768x14x3_S32768x1x3_0_1_0)))
      shapeCasts_S32768x14x3_S32768x42 (ix2 n j) = _
  have hj := j.isLt
  refine (shapeCast_apply _ _ (ix2 n j)
    (ix3 n (⟨j.val / 3, by omega⟩ : Fin 14) (⟨j.val % 3, by omega⟩ : Fin 3)) ?_).trans ?_
  · rw [Shape.rowMajor_val_three, Shape.rowMajor_val_two]
    show (n.val * 14 + j.val / 3) * 3 + j.val % 3 = n.val * 42 + j.val
    omega
  rw [subf_apply]
  unfold Cert.Spec.lp
  congr 1
  refine (broadcastInDim_apply _ _ _ _ (ix3 n (0 : Fin 1) (⟨j.val % 3, by omega⟩ : Fin 3)) ?_).trans ?_
  · intro a
    match a with
    | ⟨0, _⟩ =>
      show n.val = if (32768 : ℕ) = 1 then 0 else n.val
      exact (if_neg (by decide)).symm
    | ⟨1, _⟩ =>
      show (0 : ℕ) = if (1 : ℕ) = 1 then 0 else j.val / 3
      exact (if_pos rfl).symm
    | ⟨2, _⟩ =>
      show j.val % 3 = if (3 : ℕ) = 1 then 0 else j.val % 3
      exact (if_neg (by decide)).symm
  refine (extractStridedSlice_apply _ _ _ _ (ix3 n (1 : Fin 14) (⟨j.val % 3, by omega⟩ : Fin 3)) ?_).trans ?_
  · intro a
    match a with
    | ⟨0, _⟩ =>
      show n.val = 0 + n.val
      omega
    | ⟨1, _⟩ =>
      show (1 : ℕ) = 1 + 0
      rfl
    | ⟨2, _⟩ =>
      show j.val % 3 = 0 + j.val % 3
      omega
  rfl

/-! ## Arrays no host operation writes hold the launch contents -/

theorem V1_cond : (V1 m ρ c main_arg2 : S32768x256.Idx → EReal) = (argsK m c).cond := by
  show StableHlo.after hostOps0 (W0 m ρ c) (Proc.devRef .tc main_arg2) = _
  refine (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_
  rfl

theorem V1_loc : (V1 m ρ c main_arg0 : S32768x256.Idx → EReal) = (argsK m c).loc := by
  show StableHlo.after hostOps0 (W0 m ρ c) (Proc.devRef .tc main_arg0) = _
  refine (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_
  rfl

/-! ## The one-hot matrices

Column s of the matrix compares the residue's id word, copied along the row, with the word of the number s; the
comparison bit read as a number is 1 when the two words are equal and 0 otherwise. -/

/-- The bit of an equality test of two words, as a number, is the one-hot weight. -/
private theorem cmp_eq_oh (w : BitVec 32) (s : ℕ) :
    (((IntOp.cmpi .eq w (BitVec.ofNat 32 s)).toNat : ℝ) : EReal) = Cert.Spec.oh w s := by
  unfold Cert.Spec.oh
  by_cases h : w = BitVec.ofNat 32 s
  · rw [if_pos h, StableHlo.Predicate.cmpi_eq_iff.mpr h]
    simp
  · rw [if_neg h, eq_zero_of_ne_one (fun h1 => h (StableHlo.Predicate.cmpi_eq_iff.mp h1))]
    simp

theorem V1_ohb (n : Fin 32768) (s : Fin 8) :
    (V1 m ρ c main_v10 : S32768x8.Idx → EReal) (ix2 n s) = Cert.Spec.oh ((argsK m c).batch (ix1 n)) s.val := by
  show StableHlo.after hostOps0 (W0 m ρ c) (Proc.devRef .tc main_v10) (ix2 n s) = _
  after_results
  show (((IntOp.cmpi .eq
      (broadcastInDim S32768x8 ![0, 1] bcast_S32768x1_S32768x8_0_1
        (shapeCast S32768x1 (W0 m ρ c (Proc.devRef .tc main_arg4)) shapeCasts_S32768_S32768x1) (ix2 n s))
      (BitVec.ofNat 32 s.val)).toNat : ℝ) : EReal) = _
  rw [cmp_eq_oh]
  congr 1
  refine (broadcastInDim_apply _ _ _ (ix2 n s) (ix2 n (0 : Fin 1)) ?_).trans ?_
  · intro a
    match a with
    | ⟨0, _⟩ =>
      show n.val = if (32768 : ℕ) = 1 then 0 else n.val
      exact (if_neg (by decide)).symm
    | ⟨1, _⟩ =>
      show (0 : ℕ) = if (1 : ℕ) = 1 then 0 else s.val
      exact (if_pos rfl).symm
  refine (shapeCast_apply _ _ (ix2 n (0 : Fin 1)) (ix1 n) ?_).trans ?_
  · rw [Shape.rowMajor_val_two, Shape.rowMajor_val_one]
    show n.val = n.val * 1 + 0
    omega
  · rfl

theorem V1_ohc (n : Fin 32768) (s : Fin 32) :
    (V1 m ρ c main_v15 : S32768x32.Idx → EReal) (ix2 n s) = Cert.Spec.oh ((argsK m c).chain (ix1 n)) s.val := by
  show StableHlo.after hostOps0 (W0 m ρ c) (Proc.devRef .tc main_v15) (ix2 n s) = _
  after_results
  show (((IntOp.cmpi .eq
      (broadcastInDim S32768x32 ![0, 1] bcast_S32768x1_S32768x32_0_1
        (shapeCast S32768x1 (W0 m ρ c (Proc.devRef .tc main_arg3)) shapeCasts_S32768_S32768x1) (ix2 n s))
      (BitVec.ofNat 32 s.val)).toNat : ℝ) : EReal) = _
  rw [cmp_eq_oh]
  congr 1
  refine (broadcastInDim_apply _ _ _ (ix2 n s) (ix2 n (0 : Fin 1)) ?_).trans ?_
  · intro a
    match a with
    | ⟨0, _⟩ =>
      show n.val = if (32768 : ℕ) = 1 then 0 else n.val
      exact (if_neg (by decide)).symm
    | ⟨1, _⟩ =>
      show (0 : ℕ) = if (1 : ℕ) = 1 then 0 else s.val
      exact (if_pos rfl).symm
  refine (shapeCast_apply _ _ (ix2 n (0 : Fin 1)) (ix1 n) ?_).trans ?_
  · rw [Shape.rowMajor_val_two, Shape.rowMajor_val_one]
    show n.val = n.val * 1 + 0
    omega
  · rfl

/-! ## The mask column: the mask bit of residue n read as the number 0 or 1 -/

theorem V1_mf (n : Fin 32768) :
    (V1 m ρ c main_v5 : S32768x1.Idx → EReal) (ix2 n (0 : Fin 1)) = Cert.Spec.mf (argsK m c) n := by
  show StableHlo.after hostOps0 (W0 m ρ c) (Proc.devRef .tc main_v5) (ix2 n (0 : Fin 1)) = _
  after_results
  show shapeCast S32768x1 (uitofp (F := Ideal) .f32 (W0 m ρ c (Proc.devRef .tc main_arg5))) shapeCasts_S32768_S32768x1 (ix2 n (0 : Fin 1)) = _
  refine (shapeCast_apply _ _ (ix2 n (0 : Fin 1)) (ix1 n) ?_).trans ?_
  · rw [Shape.rowMajor_val_two, Shape.rowMajor_val_one]
    show n.val = n.val * 1 + 0
    omega
  · rfl

/-! ## The weights: a change of float format is the identity on extended reals -/

theorem V1_Wc : (V1 m ρ c main_v16 : S256x256.Idx → EReal) = (argsK m c).Wc := by
  show StableHlo.after hostOps0 (W0 m ρ c) (Proc.devRef .tc main_v16) = _
  after_results
  rfl

theorem V1_W1 : (V1 m ρ c main_v17 : S42x512.Idx → EReal) = (argsK m c).W1 := by
  show StableHlo.after hostOps0 (W0 m ρ c) (Proc.devRef .tc main_v17) = _
  after_results
  rfl

theorem V1_b1 : (V1 m ρ c main_arg8 : S512.Idx → EReal) = (argsK m c).b1 := by
  show StableHlo.after hostOps0 (W0 m ρ c) (Proc.devRef .tc main_arg8) = _
  refine (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_
  rfl

theorem V1_W2 : (V1 m ρ c main_v18 : S512x256.Idx → EReal) = (argsK m c).W2 := by
  show StableHlo.after hostOps0 (W0 m ρ c) (Proc.devRef .tc main_v18) = _
  after_results
  rfl

theorem V1_b2 : (V1 m ρ c main_arg10 : S256.Idx → EReal) = (argsK m c).b2 := by
  show StableHlo.after hostOps0 (W0 m ρ c) (Proc.devRef .tc main_arg10) = _
  refine (StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_
  rfl

theorem V1_Wu : (V1 m ρ c main_v19 : S256x1024.Idx → EReal) = (argsK m c).Wu := by
  show StableHlo.after hostOps0 (W0 m ρ c) (Proc.devRef .tc main_v19) = _
  after_results
  rfl

theorem V1_Wg : (V1 m ρ c main_v20 : S256x1024.Idx → EReal) = (argsK m c).Wg := by
  show StableHlo.after hostOps0 (W0 m ρ c) (Proc.devRef .tc main_v20) = _
  after_results
  rfl

theorem V1_Wcg : (V1 m ρ c main_v21 : S256x1024.Idx → EReal) = (argsK m c).Wcg := by
  show StableHlo.after hostOps0 (W0 m ρ c) (Proc.devRef .tc main_v21) = _
  after_results
  rfl

theorem V1_Wbg : (V1 m ρ c main_v22 : S256x1024.Idx → EReal) = (argsK m c).Wbg := by
  show StableHlo.after hostOps0 (W0 m ρ c) (Proc.devRef .tc main_v22) = _
  after_results
  rfl

theorem V1_Wo : (V1 m ρ c main_v23 : S1024x256.Idx → EReal) = (argsK m c).Wo := by
  show StableHlo.after hostOps0 (W0 m ρ c) (Proc.devRef .tc main_v23) = _
  after_results
  rfl

theorem V1_bo : (V1 m ρ c main_arg16 : S256.Idx → EReal) = (argsK m c).bo := by
  show StableHlo.after hostOps0 (W0 m ρ c) (Proc.devRef .tc main_arg16) = _
  refine (StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_
  rfl

end Cert.KernelIdeal.KV

end
-- ==== Proof.PayLocal.lean ====
/-
  One tile of the first pallas_call: the mixed feature rows of the tile's 1024 residues as a function of the tile's
  blocks, read at row r and column d:
  ((loc[r,d] + Σ_k cond[r,k]·Wc[k,d]) + Σ_h gelu(Σ_j lp[r,j]·W1[j,h] + b1[h])·W2[h,d]) + b2[d].
  A change of float format is the identity on extended reals, and a matrix product into a zero accumulator is the sum
  over the contracted axis.
-/
import proofs.«408712_j4063039062804_2_alg».proof.Proof.Gen.KernelIdeal.Skeleton
import proofs.«408712_j4063039062804_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Idealize.ShloMosaic Idealize.ShloMosaic.ValueIdx
open Cert.KernelIdeal Cert.KernelIdeal.Gen

/-! ### cond · Wc: a [1024,256] by [256,256] product -/

/-- The left operand's row is the result's row. -/
private theorem lhsC_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- The left operand's column is the contracted coordinate. -/
private theorem lhsC_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- The right operand's row is the contracted coordinate. -/
private theorem rhsC_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- The right operand's column is the result's column. -/
private theorem rhsC_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Entry (r, d) of the product into a zero accumulator: Σ_k l[r,k] · w[k,d]. -/
private theorem mmC {φ₁ φ₂ : FTy} (l : FVec Ideal S1024x256 φ₁) (w : FVec Ideal S256x256 φ₂) (r : Fin 1024) (d : Fin 256) :
    (matmul dot_S1024x256_S256x256_S1024x256_1_0_0_1_n_n none l w (constant (F := Ideal) S1024x256 .f32 0x00000000#32) : FVec Ideal S1024x256 .f32) (ix2 r d)
      = ∑ k : Fin 256, l (ix2 r k) * w (ix2 k d) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 r d) ((contrEquiv1 dot_S1024x256_S256x256_S1024x256_1_0_0_1_n_n 256 rfl rfl).symm k) = ix2 r k := funext fun a => Fin.ext (by
    match a with
    | ⟨0, _⟩ => exact lhsC_0 _ _
    | ⟨1, _⟩ => exact (lhsC_1 _ _).trans hk)
  have er : dot_S1024x256_S256x256_S1024x256_1_0_0_1_n_n.rhsIdx (ix2 r d) ((contrEquiv1 dot_S1024x256_S256x256_S1024x256_1_0_0_1_n_n 256 rfl rfl).symm k) = ix2 k d := funext fun a => Fin.ext (by
    match a with
    | ⟨0, _⟩ => exact (rhsC_0 _ _).trans hk
    | ⟨1, _⟩ => exact rhsC_1 _ _)
  rw [el, er]

/-! ### lp · W1: a [1024,42] by [42,512] product -/

/-- The left operand's row is the result's row. -/
private theorem lhsH_0 (i : S1024x512.Idx) (q : dot_S1024x42_S42x512_S1024x512_1_0_0_1_n_n.contr.Idx) :
    (dot_S1024x42_S42x512_S1024x512_1_0_0_1_n_n.lhsIdx i q 0).val = (i 0).val := by
  unfold DotDims.lhsIdx
  rw [dif_neg (show ¬(0 : Fin S1024x42.rank) ∈ dot_S1024x42_S42x512_S1024x512_1_0_0_1_n_n.lhsBatch by decide), dif_pos (show (0 : Fin S1024x42.rank) ∈ dot_S1024x42_S42x512_S1024x512_1_0_0_1_n_n.lhsNonContracting by decide)]
  rfl
/-- The left operand's column is the contracted coordinate. -/
private theorem lhsH_1 (i : S1024x512.Idx) (q : dot_S1024x42_S42x512_S1024x512_1_0_0_1_n_n.contr.Idx) :
    (dot_S1024x42_S42x512_S1024x512_1_0_0_1_n_n.lhsIdx i q 1).val = (q ⟨0, by decide⟩).val :=
  dot_S1024x42_S42x512_S1024x512_1_0_0_1_n_n.lhsIdx_val_of_single rfl i q
/-- The right operand's row is the contracted coordinate. -/
private theorem rhsH_0 (i : S1024x512.Idx) (q : dot_S1024x42_S42x512_S1024x512_1_0_0_1_n_n.contr.Idx) :
    (dot_S1024x42_S42x512_S1024x512_1_0_0_1_n_n.rhsIdx i q 0).val = (q ⟨0, by decide⟩).val :=
  dot_S1024x42_S42x512_S1024x512_1_0_0_1_n_n.rhsIdx_val_of_single rfl i q
/-- The right operand's column is the result's column. -/
private theorem rhsH_1 (i : S1024x512.Idx) (q : dot_S1024x42_S42x512_S1024x512_1_0_0_1_n_n.contr.Idx) :
    (dot_S1024x42_S42x512_S1024x512_1_0_0_1_n_n.rhsIdx i q 1).val = (i 1).val := by
  unfold DotDims.rhsIdx
  rw [dif_neg (show ¬(1 : Fin S42x512.rank) ∈ dot_S1024x42_S42x512_S1024x512_1_0_0_1_n_n.rhsBatch by decide), dif_pos (show (1 : Fin S42x512.rank) ∈ dot_S1024x42_S42x512_S1024x512_1_0_0_1_n_n.rhsNonContracting by decide)]
  rfl

/-- Entry (r, d) of the product into a zero accumulator: Σ_k l[r,k] · w[k,d]. -/
private theorem mmH {φ₁ φ₂ : FTy} (l : FVec Ideal S1024x42 φ₁) (w : FVec Ideal S42x512 φ₂) (r : Fin 1024) (d : Fin 512) :
    (matmul dot_S1024x42_S42x512_S1024x512_1_0_0_1_n_n none l w (constant (F := Ideal) S1024x512 .f32 0x00000000#32) : FVec Ideal S1024x512 .f32) (ix2 r d)
      = ∑ k : Fin 42, l (ix2 r k) * w (ix2 k d) := by
  simp only [matmul]
  rw [Ideal.matmul_constant_zero_apply, ← Equiv.sum_comp (contrEquiv1 dot_S1024x42_S42x512_S1024x512_1_0_0_1_n_n 42 rfl rfl).symm]
  refine Finset.sum_congr rfl fun k _ => ?_
  have hk := contrEquiv1_symm_val dot_S1024x42_S42x512_S1024x512_1_0_0_1_n_n 42 rfl rfl k
  have el : dot_S1024x42_S42x512_S1024x512_1_0_0_1_n_n.lhsIdx (ix2 r d) ((contrEquiv1 dot_S1024x42_S42x512_S1024x512_1_0_0_1_n_n 42 rfl rfl).symm k) = ix2 r k := funext fun a => Fin.ext (by
    match a with
    | ⟨0, _⟩ => exact lhsH_0 _ _
    | ⟨1, _⟩ => exact (lhsH_1 _ _).trans hk)
  have er : dot_S1024x42_S42x512_S1024x512_1_0_0_1_n_n.rhsIdx (ix2 r d) ((contrEquiv1 dot_S1024x42_S42x512_S1024x512_1_0_0_1_n_n 42 rfl rfl).symm k) = ix2 k d := funext fun a => Fin.ext (by
    match a with
    | ⟨0, _⟩ => exact (rhsH_0 _ _).trans hk
    | ⟨1, _⟩ => exact rhsH_1 _ _)
  rw [el, er]

/-! ### gelu(hid) · W2: a [1024,512] by [512,256] product -/

/-- The left operand's row is the result's row. -/
private theorem lhsO_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
/-- The left operand's column is the contracted coordinate. -/
private theorem lhsO_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
/-- The right operand's row is the contracted coordinate. -/
private theorem rhsO_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
/-- The right operand's column is the result's column. -/
private theorem rhsO_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- Entry (r, d) of the product into a zero accumulator: Σ_k l[r,k] · w[k,d]. -/
private theorem mmO {φ₁ φ₂ : FTy} (l : FVec Ideal S1024x512 φ₁) (w : FVec Ideal S512x256 φ₂) (r : Fin 1024) (d : Fin 256) :
    (matmul dot_S1024x512_S512x256_S1024x256_1_0_0_1_n_n none l w (constant (F := Ideal) S1024x256 .f32 0x00000000#32) : FVec Ideal S1024x256 .f32) (ix2 r d)
      = ∑ k : Fin 512, l (ix2 r k) * w (ix2 k d) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r d) ((contrEquiv1 dot_S1024x512_S512x256_S1024x256_1_0_0_1_n_n 512 rfl rfl).symm k) = ix2 r k := funext fun a => Fin.ext (by
    match a with
    | ⟨0, _⟩ => exact lhsO_0 _ _
    | ⟨1, _⟩ => exact (lhsO_1 _ _).trans hk)
  have er : dot_S1024x512_S512x256_S1024x256_1_0_0_1_n_n.rhsIdx (ix2 r d) ((contrEquiv1 dot_S1024x512_S512x256_S1024x256_1_0_0_1_n_n 512 rfl rfl).symm k) = ix2 k d := funext fun a => Fin.ext (by
    match a with
    | ⟨0, _⟩ => exact (rhsO_0 _ _).trans hk
    | ⟨1, _⟩ => exact rhsO_1 _ _)
  rw [el, er]

/-! ### The payloads at an index -/

/-- loc + cond · Wc at (r, d): the format change of cond and the cast of Wc to its own shape are identities. -/
private theorem pay9_at (x1 x2 : Vec Ideal S1024x256 .f32) (x6 : Vec Ideal S256x256 .bf16) (r : Fin 1024) (d : Fin 256) :
    (k0_pay9 (F := Ideal) x1 x2 x6 : S1024x256.Idx → EReal) (ix2 r d)
      = (x2 : S1024x256.Idx → EReal) (ix2 r d)
        + ∑ k : Fin 256, (x1 : S1024x256.Idx → EReal) (ix2 r k) * (x6 : S256x256.Idx → EReal) (ix2 k d) := by
  unfold k0_pay9
  refine (addf_apply _ _ _).trans ?_
  refine congrArg ((x2 : S1024x256.Idx → EReal) (ix2 r d) + ·) ?_
  refine (mmC (truncf .bf16 x1 bitsLt_bf16_f32) (shapeCast S256x256 x6 shapeCasts_S256x256_S256x256) r d).trans ?_
  refine Finset.sum_congr rfl fun k _ => ?_
  exact congrArg ((x1 : S1024x256.Idx → EReal) (ix2 r k) * ·) (congrFun (shapeCast_self x6 _) (ix2 k d))

/-- lp · W1 + b1 at (r, h): the bias vector is cast to one row and that row is repeated down the 1024 rows. -/
private theorem pay10_at (x0 : Vec Ideal S1024x42 .f32) (x7 : Vec Ideal S42x512 .bf16) (x8 : Vec Ideal S512 .f32)
    (r : Fin 1024) (h : Fin 512) :
    (k0_pay10 (F := Ideal) x0 x7 x8 : S1024x512.Idx → EReal) (ix2 r h)
      = (∑ j : Fin 42, (x0 : S1024x42.Idx → EReal) (ix2 r j) * (x7 : S42x512.Idx → EReal) (ix2 j h))
        + (x8 : S512.Idx → EReal) (ix1 h) := by
  unfold k0_pay10
  refine (addf_apply _ _ _).trans ?_
  refine congrArg₂ (· + ·) ?_ ?_
  · refine (mmH (truncf .bf16 (shapeCast S1024x42 x0 shapeCasts_S1024x42_S1024x42) bitsLt_bf16_f32)
      (shapeCast S42x512 x7 shapeCasts_S42x512_S42x512) r h).trans ?_
    refine Finset.sum_congr rfl fun j _ => ?_
    exact congrArg₂ (· * ·) (congrFun (shapeCast_self x0 _) (ix2 r j)) (congrFun (shapeCast_self x7 _) (ix2 j h))
  · refine (broadcastTo_1b_ab_apply _ _ r h).trans ?_
    exact shapeCast_a_1a_apply x8 _ 0 h

/-- The tanh inside gelu at (r, h), over the hidden pre-activation p = (lp · W1 + b1)[r, h]: every step is entrywise. -/
private theorem pay11_at (x0 : Vec Ideal S1024x42 .f32) (x7 : Vec Ideal S42x512 .bf16) (x8 : Vec Ideal S512 .f32)
    (r : Fin 1024) (h : Fin 512) :
    (k0_pay11 (F := Ideal) x0 x7 x8 : S1024x512.Idx → EReal) (ix2 r h)
      = Ideal.tanh (Cert.Spec.c079 * ((k0_pay10 (F := Ideal) x0 x7 x8 : S1024x512.Idx → EReal) (ix2 r h)
          + Cert.Spec.c044 * ((k0_pay10 (F := Ideal) x0 x7 x8 : S1024x512.Idx → EReal) (ix2 r h)
            * ((k0_pay10 (F := Ideal) x0 x7 x8 : S1024x512.Idx → EReal) (ix2 r h)
              * (k0_pay10 (F := Ideal) x0 x7 x8 : S1024x512.Idx → EReal) (ix2 r h))))) := rfl

/-- The last payload at (r, d) over any three earlier values: (a + Σ_h (p·(½·(1 + t)))[r,h] · W2[h,d]) + b2[d]. -/
private theorem pay12_at (v17 : FVec Ideal S1024x256 .f32) (v25 v33 : FVec Ideal S1024x512 .f32)
    (x9 : Vec Ideal S512x256 .bf16) (x10 : Vec Ideal S256 .f32) (r : Fin 1024) (d : Fin 256) :
    (k0_pay12 (F := Ideal) v17 v25 v33 x9 x10 : S1024x256.Idx → EReal) (ix2 r d)
      = ((v17 : S1024x256.Idx → EReal) (ix2 r d)
          + ∑ h : Fin 512, ((v25 : S1024x512.Idx → EReal) (ix2 r h)
              * (Cert.Spec.cHalf * (Cert.Spec.cOne + (v33 : S1024x512.Idx → EReal) (ix2 r h))))
            * (x9 : S512x256.Idx → EReal) (ix2 h d))
        + (x10 : S256.Idx → EReal) (ix1 d) := by
  unfold k0_pay12
  refine (truncf_apply (φ := .f32) (ψ := .bf16) _ bitsLt_bf16_f32 (ix2 r d)).trans ?_
  refine (addf_apply _ _ _).trans ?_
  refine congrArg₂ (· + ·) ?_ ?_
  · refine (addf_apply _ _ _).trans ?_
    refine congrArg ((v17 : S1024x256.Idx → EReal) (ix2 r d) + ·) ?_
    refine (mmO _ (shapeCast S512x256 x9 shapeCasts_S512x256_S512x256) r d).trans ?_
    refine Finset.sum_congr rfl fun h _ => ?_
    exact congrArg (((v25 : S1024x512.Idx → EReal) (ix2 r h)
      * (Cert.Spec.cHalf * (Cert.Spec.cOne + (v33 : S1024x512.Idx → EReal) (ix2 r h)))) * ·)
      (congrFun (shapeCast_self x9 _) (ix2 h d))
  · refine (broadcastTo_1b_ab_apply _ _ r d).trans ?_
    exact shapeCast_a_1a_apply x10 _ 0 d

/-- The tile's feature rows at (r, d), from the tile's blocks. -/
theorem pay_local (x0 : Vec Ideal S1024x42 .f32) (x1 x2 : Vec Ideal S1024x256 .f32) (x6 : Vec Ideal S256x256 .bf16)
    (x7 : Vec Ideal S42x512 .bf16) (x8 : Vec Ideal S512 .f32) (x9 : Vec Ideal S512x256 .bf16) (x10 : Vec Ideal S256 .f32)
    (r : Fin 1024) (d : Fin 256) :
    (k0_pay12 (F := Ideal) (k0_pay9 x1 x2 x6) (k0_pay10 x0 x7 x8) (k0_pay11 x0 x7 x8) x9 x10 : S1024x256.Idx → EReal) (ix2 r d)
      = (((x2 : S1024x256.Idx → EReal) (ix2 r d)
            + ∑ k : Fin 256, (x1 : S1024x256.Idx → EReal) (ix2 r k) * (x6 : S256x256.Idx → EReal) (ix2 k d))
          + ∑ h : Fin 512, Cert.Spec.gelu ((∑ j : Fin 42, (x0 : S1024x42.Idx → EReal) (ix2 r j) * (x7 : S42x512.Idx → EReal) (ix2 j h))
              + (x8 : S512.Idx → EReal) (ix1 h)) * (x9 : S512x256.Idx → EReal) (ix2 h d))
        + (x10 : S256.Idx → EReal) (ix1 d) := by
  refine (pay12_at _ _ _ x9 x10 r d).trans ?_
  refine congrArg (· + (x10 : S256.Idx → EReal) (ix1 d)) ?_
  refine congrArg₂ (· + ·) (pay9_at x1 x2 x6 r d) (Finset.sum_congr rfl fun h _ => ?_)
  refine congrArg (· * (x9 : S512x256.Idx → EReal) (ix2 h d)) ?_
  rw [pay11_at, pay10_at]
  rfl

end Cert.KernelIdeal.KV

end
-- ==== Proof.KReg0Local.lean ====
/-
  The first pallas_call's first result array: row n holds the mixed feature row L n. Each grid point writes the
  1024 rows of its tile whole, from that tile's rows of the operands, and the 32 tiles cover the 32768 rows.
-/
import proofs.«408712_j4063039062804_2_alg».proof.Proof.Gen.KernelIdeal.Frame
import proofs.«408712_j4063039062804_2_alg».proof.Proof.KArgs
import proofs.«408712_j4063039062804_2_alg».proof.Proof.KHost0
import proofs.«408712_j4063039062804_2_alg».proof.Proof.PayLocal
import Idealize.ShloMosaic.Lib.ValueIdx
import Idealize.ShloMosaic.Lib.Pipeline.Value
import Idealize.ShloMosaic.Lib.Tactic

set_option maxRecDepth 16384

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

/-! ### What each control case leaves in the feature-row buffer

In both cases the body stores the buffer whole, once, and every operand it reads is a whole staging buffer: the stored
value is the payload of the point's input blocks. -/

section Pieces
variable {F : FTy → Type} [FloatOps F]

/-- The zero offsets of a rank-2 and of a rank-1 whole-buffer access. -/
theorem hz14 : (![0, 0] : Fin 2 → Nat) = fun _ => 0 := funext fun a => by fin_cases a <;> rfl
theorem hz14v : (![0] : Fin 1 → Nat) = fun _ => 0 := funext fun a => by fin_cases a; rfl

/-- Tile 0 of a half (the case that also resets the running segment sums): the feature rows are the payload. -/
theorem out_A_14 (c : Dev nD) (i : grid0.Coords) (arg2 : Memref sig .tc .vmem S1024x42 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x8 .f32) (harg5 : arg5.IsWhole) (arg6 : Memref sig .tc .vmem S1024x32 .f32) (harg6 : arg6.IsWhole) (arg7 : Memref sig .tc .vmem S1024x1 .f32) (harg7 : arg7.IsWhole) (arg8 : Memref sig .tc .vmem S256x256 .bf16) (harg8 : arg8.IsWhole) (arg9 : Memref sig .tc .vmem S42x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S1x8x1024 .f32) (harg17 : arg17.IsWhole) (arg18 : Memref sig .tc .vmem S1x8x1 .f32) (harg18 : arg18.IsWhole) (arg19 : Memref sig .tc .vmem S1x32x1024 .f32) (harg19 : arg19.IsWhole) (arg20 : Memref sig .tc .vmem S1x32x1 .f32) (harg20 : arg20.IsWhole) (hc0 : cond0_0 i) (x0 : Vec F S1024x42 .f32) (x1 : Vec F S1024x256 .f32) (x2 : Vec F S1024x256 .f32) (x3 : Vec F S1024x8 .f32) (x4 : Vec F S1024x32 .f32) (x5 : Vec F S1024x1 .f32) (x6 : Vec F S256x256 .bf16) (x7 : Vec F S42x512 .bf16) (x8 : Vec F S512 .f32) (x9 : Vec F S512x256 .bf16) (x10 : Vec F S256 .f32) (x11 : Vec F S256x1024 .bf16) (x12 : Vec F S256x1024 .bf16) (x13 : Vec F S256x1024 .bf16) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 = k0_pay12 (k0_pay9 x1 x2 x6) (k0_pay10 x0 x7 x8) (k0_pay11 x0 x7 x8) x9 x10 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  sl_unfold_words
  rw [View.canon_unit_zero hz14]
  simp only [View.readAt_eq_ld, harg2.read_unread, harg3.read_unread, harg4.read_unread, harg8.read_unread, harg9.read_unread, harg10.read_unread, harg11.read_unread, harg12.read_unread,
    View.ld_unit_zero (S := S1024x42) hz14, View.ld_unit_zero (S := S1024x256) hz14, View.ld_unit_zero (S := S256x256) hz14,
    View.ld_unit_zero (S := S42x512) hz14, View.ld_unit_zero (S := S512x256) hz14,
    View.ld_unit_zero (S := S512) hz14v, View.ld_unit_zero (S := S256) hz14v]

/-- Every other tile: the same payload; the carried segment sums do not enter the feature rows. -/
theorem out_B_14 (c : Dev nD) (i : grid0.Coords) (arg2 : Memref sig .tc .vmem S1024x42 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x8 .f32) (harg5 : arg5.IsWhole) (arg6 : Memref sig .tc .vmem S1024x32 .f32) (harg6 : arg6.IsWhole) (arg7 : Memref sig .tc .vmem S1024x1 .f32) (harg7 : arg7.IsWhole) (arg8 : Memref sig .tc .vmem S256x256 .bf16) (harg8 : arg8.IsWhole) (arg9 : Memref sig .tc .vmem S42x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S1x8x1024 .f32) (harg17 : arg17.IsWhole) (arg18 : Memref sig .tc .vmem S1x8x1 .f32) (harg18 : arg18.IsWhole) (arg19 : Memref sig .tc .vmem S1x32x1024 .f32) (harg19 : arg19.IsWhole) (arg20 : Memref sig .tc .vmem S1x32x1 .f32) (harg20 : arg20.IsWhole) (hc0 : ¬cond0_0 i) (x0 : Vec F S1024x42 .f32) (x1 : Vec F S1024x256 .f32) (x2 : Vec F S1024x256 .f32) (x3 : Vec F S1024x8 .f32) (x4 : Vec F S1024x32 .f32) (x5 : Vec F S1024x1 .f32) (x6 : Vec F S256x256 .bf16) (x7 : Vec F S42x512 .bf16) (x8 : Vec F S512 .f32) (x9 : Vec F S512x256 .bf16) (x10 : Vec F S256 .f32) (x11 : Vec F S256x1024 .bf16) (x12 : Vec F S256x1024 .bf16) (x13 : Vec F S256x1024 .bf16) (xo15 : Vec F S1x8x1024 .f32) (xo16 : Vec F S1x8x1 .f32) (xo17 : Vec F S1x32x1024 .f32) (xo18 : Vec F S1x32x1 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xo15 xo16 xo17 xo18 = k0_pay12 (k0_pay9 x1 x2 x6) (k0_pay10 x0 x7 x8) (k0_pay11 x0 x7 x8) x9 x10 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xo15 xo16 xo17 xo18)]
  unfold kernelRun0_B
  dsimp only
  sl_unfold_words
  rw [View.canon_unit_zero hz14]
  simp only [View.readAt_eq_ld, harg2.read_unread, harg3.read_unread, harg4.read_unread, harg8.read_unread, harg9.read_unread, harg10.read_unread, harg11.read_unread, harg12.read_unread,
    View.ld_unit_zero (S := S1024x42) hz14, View.ld_unit_zero (S := S1024x256) hz14, View.ld_unit_zero (S := S256x256) hz14,
    View.ld_unit_zero (S := S42x512) hz14, View.ld_unit_zero (S := S512x256) hz14,
    View.ld_unit_zero (S := S512) hz14v, View.ld_unit_zero (S := S256) hz14v]

end Pieces

variable (m : (ℓ : Loc nD τ sig) → Buf (Elt Ideal) ℓ) (ρ : Dev nD → PrngReg) (c : Dev nD)

/-! ### Where each block sits in its array

The 32 points are numbered t = 16·(half) + (tile). The four row windows (centred coordinates, cond, loc, and the feature
rows written back) hold rows 1024·t … 1024·t + 1023 of their arrays; the weight and bias windows hold their whole arrays
at every point. -/

/-- The printed index maps, decided once over the 32 points: a row window's block index is (t, 0), a weight or bias
    window's is zero. -/
theorem idx_facts14 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_14.index t (0 : Fin 2) = t.val ∧ win0_14.index t (1 : Fin 2) = 0 :=
  (by decide +kernel : ∀ t : Fin grid0.N, _)

/-- Row r of the tile of point t is row 1024·t + r of the arrays. -/
def tileRow (t : Fin cfg0.N) (r : Fin 1024) : Fin 32768 :=
  ⟨t.val * 1024 + r.val, by
    have h := t.isLt
    have hN : cfg0.N = 32 := N_0
    have := r.isLt
    omega⟩

/-- The operand blocks of point t, each at its literal type. -/
abbrev B0 (t : Fin cfg0.N) : Vec Ideal S1024x42 .f32 := iblk0 (V1 m ρ) c 0 t
abbrev B1 (t : Fin cfg0.N) : Vec Ideal S1024x256 .f32 := iblk0 (V1 m ρ) c 1 t
abbrev B2 (t : Fin cfg0.N) : Vec Ideal S1024x256 .f32 := iblk0 (V1 m ρ) c 2 t
abbrev B6 (t : Fin cfg0.N) : Vec Ideal S256x256 .bf16 := iblk0 (V1 m ρ) c 6 t
abbrev B7 (t : Fin cfg0.N) : Vec Ideal S42x512 .bf16 := iblk0 (V1 m ρ) c 7 t
abbrev B8 (t : Fin cfg0.N) : Vec Ideal S512 .f32 := iblk0 (V1 m ρ) c 8 t
abbrev B9 (t : Fin cfg0.N) : Vec Ideal S512x256 .bf16 := iblk0 (V1 m ρ) c 9 t
abbrev B10 (t : Fin cfg0.N) : Vec Ideal S256 .f32 := iblk0 (V1 m ρ) c 10 t

/-- The centred-coordinate block at (r, j) is lp of row 1024·t + r, column j. -/
theorem blk0_at (t : Fin cfg0.N) (r : Fin 1024) (q : Fin 42) :
    (B0 m ρ c t : S1024x42.Idx → EReal) (ix2 r q) = Cert.Spec.lp (argsK m c) (tileRow t r) q := by
  obtain ⟨e00, e01, e10, e11, e20, e21, e60, e61, e70, e71, e80, e90, e91, e100, e140, e141⟩ := idx_facts14 t
  refine Eq.trans ?_ (V1_lpos m ρ c (tileRow t r) q)
  show V1 m ρ c main_v3 (((cfg0.win 0).blk t).view.emb (ix2 r q)) = V1 m ρ c main_v3 (ix2 (tileRow t r) q)
  refine congrArg (V1 m ρ c main_v3) (funext fun a => Fin.ext ?_)
  match a with
  | ⟨0, _⟩ => show win0_0.index t (0 : Fin 2) * 1024 + 1 * r.val = t.val * 1024 + r.val; rw [e00]; omega
  | ⟨1, _⟩ => show win0_0.index t (1 : Fin 2) * 42 + 1 * q.val = q.val; rw [e01]; omega

/-- The cond block at (r, k) is cond at row 1024·t + r. -/
theorem blk1_at (t : Fin cfg0.N) (r : Fin 1024) (q : Fin 256) :
    (B1 m ρ c t : S1024x256.Idx → EReal) (ix2 r q) = (argsK m c).cond (ix2 (tileRow t r) q) := by
  obtain ⟨e00, e01, e10, e11, e20, e21, e60, e61, e70, e71, e80, e90, e91, e100, e140, e141⟩ := idx_facts14 t
  refine Eq.trans ?_ (congrFun (V1_cond m ρ c) (ix2 (tileRow t r) q))
  show V1 m ρ c main_arg2 (((cfg0.win 1).blk t).view.emb (ix2 r q)) = V1 m ρ c main_arg2 (ix2 (tileRow t r) q)
  refine congrArg (V1 m ρ c main_arg2) (funext fun a => Fin.ext ?_)
  match a with
  | ⟨0, _⟩ => show win0_1.index t (0 : Fin 2) * 1024 + 1 * r.val = t.val * 1024 + r.val; rw [e10]; omega
  | ⟨1, _⟩ => show win0_1.index t (1 : Fin 2) * 256 + 1 * q.val = q.val; rw [e11]; omega

/-- The loc block at (r, d) is loc at row 1024·t + r. -/
theorem blk2_at (t : Fin cfg0.N) (r : Fin 1024) (q : Fin 256) :
    (B2 m ρ c t : S1024x256.Idx → EReal) (ix2 r q) = (argsK m c).loc (ix2 (tileRow t r) q) := by
  obtain ⟨e00, e01, e10, e11, e20, e21, e60, e61, e70, e71, e80, e90, e91, e100, e140, e141⟩ := idx_facts14 t
  refine Eq.trans ?_ (congrFun (V1_loc m ρ c) (ix2 (tileRow t r) q))
  show V1 m ρ c main_arg0 (((cfg0.win 2).blk t).view.emb (ix2 r q)) = V1 m ρ c main_arg0 (ix2 (tileRow t r) q)
  refine congrArg (V1 m ρ c main_arg0) (funext fun a => Fin.ext ?_)
  match a with
  | ⟨0, _⟩ => show win0_2.index t (0 : Fin 2) * 1024 + 1 * r.val = t.val * 1024 + r.val; rw [e20]; omega
  | ⟨1, _⟩ => show win0_2.index t (1 : Fin 2) * 256 + 1 * q.val = q.val; rw [e21]; omega

/-- The Wc block is all of Wc. -/
theorem blk6_at (t : Fin cfg0.N) (p : Fin 256) (q : Fin 256) :
    (B6 m ρ c t : S256x256.Idx → EReal) (ix2 p q) = (argsK m c).Wc (ix2 p q) := by
  obtain ⟨e00, e01, e10, e11, e20, e21, e60, e61, e70, e71, e80, e90, e91, e100, e140, e141⟩ := idx_facts14 t
  refine Eq.trans ?_ (congrFun (V1_Wc m ρ c) (ix2 p q))
  show V1 m ρ c main_v16 (((cfg0.win 6).blk t).view.emb (ix2 p q)) = V1 m ρ c main_v16 (ix2 p q)
  refine congrArg (V1 m ρ c main_v16) (funext fun a => Fin.ext ?_)
  match a with
  | ⟨0, _⟩ => show win0_6.index t (0 : Fin 2) * 256 + 1 * p.val = p.val; rw [e60]; omega
  | ⟨1, _⟩ => show win0_6.index t (1 : Fin 2) * 256 + 1 * q.val = q.val; rw [e61]; omega

/-- The W1 block is all of W1. -/
theorem blk7_at (t : Fin cfg0.N) (p : Fin 42) (q : Fin 512) :
    (B7 m ρ c t : S42x512.Idx → EReal) (ix2 p q) = (argsK m c).W1 (ix2 p q) := by
  obtain ⟨e00, e01, e10, e11, e20, e21, e60, e61, e70, e71, e80, e90, e91, e100, e140, e141⟩ := idx_facts14 t
  refine Eq.trans ?_ (congrFun (V1_W1 m ρ c) (ix2 p q))
  show V1 m ρ c main_v17 (((cfg0.win 7).blk t).view.emb (ix2 p q)) = V1 m ρ c main_v17 (ix2 p q)
  refine congrArg (V1 m ρ c main_v17) (funext fun a => Fin.ext ?_)
  match a with
  | ⟨0, _⟩ => show win0_7.index t (0 : Fin 2) * 42 + 1 * p.val = p.val; rw [e70]; omega
  | ⟨1, _⟩ => show win0_7.index t (1 : Fin 2) * 512 + 1 * q.val = q.val; rw [e71]; omega

/-- The b1 block is all of b1. -/
theorem blk8_at (t : Fin cfg0.N) (p : Fin 512) :
    (B8 m ρ c t : S512.Idx → EReal) (ix1 p) = (argsK m c).b1 (ix1 p) := by
  obtain ⟨e00, e01, e10, e11, e20, e21, e60, e61, e70, e71, e80, e90, e91, e100, e140, e141⟩ := idx_facts14 t
  refine Eq.trans ?_ (congrFun (V1_b1 m ρ c) (ix1 p))
  show V1 m ρ c main_arg8 (((cfg0.win 8).blk t).view.emb (ix1 p)) = V1 m ρ c main_arg8 (ix1 p)
  refine congrArg (V1 m ρ c main_arg8) (funext fun a => Fin.ext ?_)
  match a with
  | ⟨0, _⟩ => show win0_8.index t (0 : Fin 1) * 512 + 1 * p.val = p.val; rw [e80]; omega

/-- The W2 block is all of W2. -/
theorem blk9_at (t : Fin cfg0.N) (p : Fin 512) (q : Fin 256) :
    (B9 m ρ c t : S512x256.Idx → EReal) (ix2 p q) = (argsK m c).W2 (ix2 p q) := by
  obtain ⟨e00, e01, e10, e11, e20, e21, e60, e61, e70, e71, e80, e90, e91, e100, e140, e141⟩ := idx_facts14 t
  refine Eq.trans ?_ (congrFun (V1_W2 m ρ c) (ix2 p q))
  show V1 m ρ c main_v18 (((cfg0.win 9).blk t).view.emb (ix2 p q)) = V1 m ρ c main_v18 (ix2 p q)
  refine congrArg (V1 m ρ c main_v18) (funext fun a => Fin.ext ?_)
  match a with
  | ⟨0, _⟩ => show win0_9.index t (0 : Fin 2) * 512 + 1 * p.val = p.val; rw [e90]; omega
  | ⟨1, _⟩ => show win0_9.index t (1 : Fin 2) * 256 + 1 * q.val = q.val; rw [e91]; omega

/-- The b2 block is all of b2. -/
theorem blk10_at (t : Fin cfg0.N) (p : Fin 256) :
    (B10 m ρ c t : S256.Idx → EReal) (ix1 p) = (argsK m c).b2 (ix1 p) := by
  obtain ⟨e00, e01, e10, e11, e20, e21, e60, e61, e70, e71, e80, e90, e91, e100, e140, e141⟩ := idx_facts14 t
  refine Eq.trans ?_ (congrFun (V1_b2 m ρ c) (ix1 p))
  show V1 m ρ c main_arg10 (((cfg0.win 10).blk t).view.emb (ix1 p)) = V1 m ρ c main_arg10 (ix1 p)
  refine congrArg (V1 m ρ c main_arg10) (funext fun a => Fin.ext ?_)
  match a with
  | ⟨0, _⟩ => show win0_10.index t (0 : Fin 1) * 256 + 1 * p.val = p.val; rw [e100]; omega

/-- Entry (r, d) of the feature-row block of point t is entry (1024·t + r, d) of the array. -/
theorem emb14 (t : Fin cfg0.N) (r : Fin 1024) (d : Fin 256) :
    ((cfg0.win 14).blk t).view.emb (ix2 r d) = (ix2 (tileRow t r) d : S32768x256.Idx) := by
  obtain ⟨e00, e01, e10, e11, e20, e21, e60, e61, e70, e71, e80, e90, e91, e100, e140, e141⟩ := idx_facts14 t
  funext a
  apply Fin.ext
  match a with
  | ⟨0, _⟩ => show win0_14.index t (0 : Fin 2) * 1024 + 1 * r.val = t.val * 1024 + r.val; rw [e140]; omega
  | ⟨1, _⟩ => show win0_14.index t (1 : Fin 2) * 256 + 1 * d.val = d.val; rw [e141]; omega

/-- An index of the feature-row array is in point t's block iff each coordinate is in the block's range on its axis. -/
theorem mem_blk14 (t : Fin cfg0.N) (i : S32768x256.Idx) :
    i ∈ ((cfg0.win 14).blk t).view.set ↔ ∀ a : Fin 2, win0_14.index t a * S1024x256.size a ≤ (i a).val
      ∧ (i a).val < win0_14.index t a * S1024x256.size a + S1024x256.size a := by
  show i ∈ ((View.whole main_v24_0).slice (win0_14.rect t)).set ↔ _
  rw [View.set_slice_whole, Rect.mem_set_unit]
  exact Iff.rfl

/-- Row n lies in the tile of point n / 1024, and every point writes its tile back. -/
theorem cover14 (i : S32768x256.Idx) :
    ∃ t : Fin cfg0.N, (cfg0.win 14).flush t = true ∧ i ∈ ((cfg0.win 14).blk t).view.set := by
  have hi0 : (i 0).val < 32768 := idx2_lt0 i
  have hi1 : (i 1).val < 256 := idx2_lt1 i
  have hN : cfg0.N = 32 := N_0
  have ht : (i 0).val / 1024 < cfg0.N := by rw [hN]; omega
  refine ⟨⟨(i 0).val / 1024, ht⟩, flush0_14 _, ?_⟩
  rw [mem_blk14]
  obtain ⟨e00, e01, e10, e11, e20, e21, e60, e61, e70, e71, e80, e90, e91, e100, e140, e141⟩ := idx_facts14 ⟨(i 0).val / 1024, ht⟩
  intro a
  match a with
  | ⟨0, _⟩ =>
    show win0_14.index ⟨(i 0).val / 1024, ht⟩ (0 : Fin 2) * 1024 ≤ (i 0).val
      ∧ (i 0).val < win0_14.index ⟨(i 0).val / 1024, ht⟩ (0 : Fin 2) * 1024 + 1024
    rw [e140]
    show (i 0).val / 1024 * 1024 ≤ (i 0).val ∧ (i 0).val < (i 0).val / 1024 * 1024 + 1024
    omega
  | ⟨1, _⟩ =>
    show win0_14.index ⟨(i 0).val / 1024, ht⟩ (1 : Fin 2) * 256 ≤ (i 1).val
      ∧ (i 1).val < win0_14.index ⟨(i 0).val / 1024, ht⟩ (1 : Fin 2) * 256 + 256
    rw [e141]
    omega

/-! ### What a point writes back, and the whole array -/

/-- The array of mixed feature rows. -/
abbrev Larr : S32768x256.Idx → EReal :=
  fun i => Cert.Spec.L (argsK m c) ⟨(i 0).val, idx2_lt0 i⟩ ⟨(i 1).val, idx2_lt1 i⟩

/-- After the body at point t the feature-row buffer holds the payload of that point's operand blocks, whichever of the
    two control cases the point is. -/
theorem outs14 (t : Fin cfg0.N) :
    (outsAt0 (V1 m ρ) c t.val t.isLt).1 = k0_pay12 (F := Ideal) (k0_pay9 (B1 m ρ c t) (B2 m ρ c t) (B6 m ρ c t)) (k0_pay10 (B0 m ρ c t) (B7 m ρ c t) (B8 m ρ c t)) (k0_pay11 (B0 m ρ c t) (B7 m ρ c t) (B8 m ρ c t)) (B9 m ρ c t) (B10 m ρ c t) := by
  by_cases h : t.val % 16 = 0
  · rw [outsAt0_A (V1 m ρ) c t h]
    dsimp only
    exact out_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t)
  · rw [outsAt0_B (V1 m ρ) c t h]
    dsimp only
    exact out_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h' => h ((hcond0_0 t).mp h')) (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 (outsAt0 (V1 m ρ) c (t.val - 1) (Nat.lt_of_le_of_lt (Nat.sub_le _ _) t.isLt)).2.2.2.1 (outsAt0 (V1 m ρ) c (t.val - 1) (Nat.lt_of_le_of_lt (Nat.sub_le _ _) t.isLt)).2.2.2.2

/-- What point t writes back is block t of the array of feature rows: the payload at (r, d) is L at row 1024·t + r,
    each operand block read where the tile's rows sit in its array. -/
theorem flushed14 (t : Fin cfg0.N) :
    (dat0 (V1 m ρ) c).flushed 14 t = ((cfg0.win 14).blk t).view.read (Elt Ideal) (Larr m c) := by
  show (cfg0.win 14).cut (grid0.coords t) ((dat0 (V1 m ρ) c).after 14 t) = _
  rw [after0_14, outs14]
  funext j
  obtain ⟨r, d, rfl⟩ : ∃ (r : Fin 1024) (d : Fin 256), j = ix2 r d := ⟨j 0, j 1, eq_ix2 j⟩
  show (k0_pay12 (F := Ideal) (k0_pay9 (B1 m ρ c t) (B2 m ρ c t) (B6 m ρ c t)) (k0_pay10 (B0 m ρ c t) (B7 m ρ c t) (B8 m ρ c t)) (k0_pay11 (B0 m ρ c t) (B7 m ρ c t) (B8 m ρ c t)) (B9 m ρ c t) (B10 m ρ c t) : S1024x256.Idx → EReal) (ix2 r d) = Larr m c (((cfg0.win 14).blk t).view.emb (ix2 r d))
  rw [emb14 t r d]
  refine (pay_local (B0 m ρ c t) (B1 m ρ c t) (B2 m ρ c t) (B6 m ρ c t) (B7 m ρ c t) (B8 m ρ c t) (B9 m ρ c t) (B10 m ρ c t) r d).trans ?_
  show _ = Cert.Spec.L (argsK m c) (tileRow t r) d
  unfold Cert.Spec.L Cert.Spec.mix1 Cert.Spec.hid
  simp only [blk0_at, blk1_at, blk2_at, blk6_at, blk7_at, blk8_at, blk9_at, blk10_at]

theorem arr14 (n : Fin 32768) (d : Fin 256) :
    ((dat0 (V1 m ρ) c).arrAt 14 cfg0.N : S32768x256.Idx → EReal) (ix2 n d) = Cert.Spec.L (argsK m c) n d := by
  have e := (dat0 (V1 m ρ) c).arrAt_eq_of_cover 14 (Larr m c) (fun t _ => flushed14 m ρ c t) (cover14)
  exact congrFun e (ix2 n d)

end Cert.KernelIdeal.KV

end
-- ==== Proof.KReg0Acc.lean ====
/-
  The first pallas_call's four accumulator arrays. Half k of the grid owns slab k of each; its first tile zeroes the
  slab and every tile adds its one-hot-weighted sum over the tile's 1024 rows, so after the 16 tiles slab k holds
  half k's share of each segment's masked sum and count.
-/
import proofs.«408712_j4063039062804_2_alg».proof.Proof.Gen.KernelIdeal.Frame
import proofs.«408712_j4063039062804_2_alg».proof.Proof.KArgs
import proofs.«408712_j4063039062804_2_alg».proof.Proof.KHost0
import Idealize.ShloMosaic.Lib.ValueIdx
import proofs.«408712_j4063039062804_2_alg».proof.Proof.PayLocal
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV.Acc

open Idealize.ShloMosaic Idealize.ShloMosaic.TcCoe Idealize.ShloMosaic.ValueIdx Idealize.SL.Sem
open Cert.KernelIdeal Cert.KernelIdeal.Gen Cert.KernelIdeal.KV

/-! ## What each case of the body leaves in the four accumulator blocks

Case A (first tile of a half): the block is zeroed, read back, and the tile's sum added. Case B: the tile's sum is
added to what the block held. Each is the last store's value, its loads reading whole buffers. -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

theorem piece15_A (c : Dev nD) (i : grid0.Coords) (arg2 : Memref sig .tc .vmem S1024x42 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x8 .f32) (harg5 : arg5.IsWhole) (arg6 : Memref sig .tc .vmem S1024x32 .f32) (harg6 : arg6.IsWhole) (arg7 : Memref sig .tc .vmem S1024x1 .f32) (harg7 : arg7.IsWhole) (arg8 : Memref sig .tc .vmem S256x256 .bf16) (harg8 : arg8.IsWhole) (arg9 : Memref sig .tc .vmem S42x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S1x8x1024 .f32) (harg17 : arg17.IsWhole) (arg18 : Memref sig .tc .vmem S1x8x1 .f32) (harg18 : arg18.IsWhole) (arg19 : Memref sig .tc .vmem S1x32x1024 .f32) (harg19 : arg19.IsWhole) (arg20 : Memref sig .tc .vmem S1x32x1 .f32) (harg20 : arg20.IsWhole) (hc0 : cond0_0 i)
    (x0 : Vec F S1024x42 .f32) (x1 : Vec F S1024x256 .f32) (x2 : Vec F S1024x256 .f32) (x3 : Vec F S1024x8 .f32) (x4 : Vec F S1024x32 .f32) (x5 : Vec F S1024x1 .f32) (x6 : Vec F S256x256 .bf16) (x7 : Vec F S42x512 .bf16) (x8 : Vec F S512 .f32) (x9 : Vec F S512x256 .bf16) (x10 : Vec F S256 .f32) (x11 : Vec F S256x1024 .bf16) (x12 : Vec F S256x1024 .bf16) (x13 : Vec F S256x1024 .bf16) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 = k0_pay16 (k0_pay6 x5) (k0_pay7 x3) (k0_pay13 (k0_pay9 x1 x2 x6) (k0_pay10 x0 x7 x8) (k0_pay11 x0 x7 x8) x9 x10 x11) (k0_pay14 (k0_pay9 x1 x2 x6) (k0_pay10 x0 x7 x8) (k0_pay11 x0 x7 x8) x9 x10 x12) k0_pay2 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  sl_unfold_words
  rw [View.canon_cons_unit_zero (S := S1x8x1024) hz3, View.readCov_unit_zero (S := S1x8x1024) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread,
    View.ld_unit_zero (S := S1024x42) hz2, View.ld_unit_zero (S := S1024x256) hz2, View.ld_unit_zero (S := S1024x8) hz2, View.ld_unit_zero (S := S1024x32) hz2, View.ld_unit_zero (S := S1024x1) hz2, View.ld_unit_zero (S := S256x256) hz2, View.ld_unit_zero (S := S42x512) hz2, View.ld_unit_zero (S := S512x256) hz2, View.ld_unit_zero (S := S256x1024) hz2, View.ld_unit_zero (S := S512) hz1, View.ld_unit_zero (S := S256) hz1, View.ld_unit_zero (S := S1x8x1024) hz3, View.ld_unit_zero (S := S1x8x1) hz3, View.ld_unit_zero (S := S1x32x1024) hz3, View.ld_unit_zero (S := S1x32x1) hz3]

theorem piece15_B (c : Dev nD) (i : grid0.Coords) (arg2 : Memref sig .tc .vmem S1024x42 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x8 .f32) (harg5 : arg5.IsWhole) (arg6 : Memref sig .tc .vmem S1024x32 .f32) (harg6 : arg6.IsWhole) (arg7 : Memref sig .tc .vmem S1024x1 .f32) (harg7 : arg7.IsWhole) (arg8 : Memref sig .tc .vmem S256x256 .bf16) (harg8 : arg8.IsWhole) (arg9 : Memref sig .tc .vmem S42x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S1x8x1024 .f32) (harg17 : arg17.IsWhole) (arg18 : Memref sig .tc .vmem S1x8x1 .f32) (harg18 : arg18.IsWhole) (arg19 : Memref sig .tc .vmem S1x32x1024 .f32) (harg19 : arg19.IsWhole) (arg20 : Memref sig .tc .vmem S1x32x1 .f32) (harg20 : arg20.IsWhole) (hc0 : ¬cond0_0 i)
    (x0 : Vec F S1024x42 .f32) (x1 : Vec F S1024x256 .f32) (x2 : Vec F S1024x256 .f32) (x3 : Vec F S1024x8 .f32) (x4 : Vec F S1024x32 .f32) (x5 : Vec F S1024x1 .f32) (x6 : Vec F S256x256 .bf16) (x7 : Vec F S42x512 .bf16) (x8 : Vec F S512 .f32) (x9 : Vec F S512x256 .bf16) (x10 : Vec F S256 .f32) (x11 : Vec F S256x1024 .bf16) (x12 : Vec F S256x1024 .bf16) (x13 : Vec F S256x1024 .bf16) (xo15 : Vec F S1x8x1024 .f32) (xo16 : Vec F S1x8x1 .f32) (xo17 : Vec F S1x32x1024 .f32) (xo18 : Vec F S1x32x1 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xo15 xo16 xo17 xo18 = k0_pay16 (k0_pay6 x5) (k0_pay7 x3) (k0_pay13 (k0_pay9 x1 x2 x6) (k0_pay10 x0 x7 x8) (k0_pay11 x0 x7 x8) x9 x10 x11) (k0_pay14 (k0_pay9 x1 x2 x6) (k0_pay10 x0 x7 x8) (k0_pay11 x0 x7 x8) x9 x10 x12) xo15 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xo15 xo16 xo17 xo18)]
  unfold kernelRun0_B
  dsimp only
  sl_unfold_words
  rw [View.canon_unit_zero (S := S1x8x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread,
    View.ld_unit_zero (S := S1024x42) hz2, View.ld_unit_zero (S := S1024x256) hz2, View.ld_unit_zero (S := S1024x8) hz2, View.ld_unit_zero (S := S1024x32) hz2, View.ld_unit_zero (S := S1024x1) hz2, View.ld_unit_zero (S := S256x256) hz2, View.ld_unit_zero (S := S42x512) hz2, View.ld_unit_zero (S := S512x256) hz2, View.ld_unit_zero (S := S256x1024) hz2, View.ld_unit_zero (S := S512) hz1, View.ld_unit_zero (S := S256) hz1, View.ld_unit_zero (S := S1x8x1024) hz3, View.ld_unit_zero (S := S1x8x1) hz3, View.ld_unit_zero (S := S1x32x1024) hz3, View.ld_unit_zero (S := S1x32x1) hz3]

theorem piece16_A (c : Dev nD) (i : grid0.Coords) (arg2 : Memref sig .tc .vmem S1024x42 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x8 .f32) (harg5 : arg5.IsWhole) (arg6 : Memref sig .tc .vmem S1024x32 .f32) (harg6 : arg6.IsWhole) (arg7 : Memref sig .tc .vmem S1024x1 .f32) (harg7 : arg7.IsWhole) (arg8 : Memref sig .tc .vmem S256x256 .bf16) (harg8 : arg8.IsWhole) (arg9 : Memref sig .tc .vmem S42x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S1x8x1024 .f32) (harg17 : arg17.IsWhole) (arg18 : Memref sig .tc .vmem S1x8x1 .f32) (harg18 : arg18.IsWhole) (arg19 : Memref sig .tc .vmem S1x32x1024 .f32) (harg19 : arg19.IsWhole) (arg20 : Memref sig .tc .vmem S1x32x1 .f32) (harg20 : arg20.IsWhole) (hc0 : cond0_0 i)
    (x0 : Vec F S1024x42 .f32) (x1 : Vec F S1024x256 .f32) (x2 : Vec F S1024x256 .f32) (x3 : Vec F S1024x8 .f32) (x4 : Vec F S1024x32 .f32) (x5 : Vec F S1024x1 .f32) (x6 : Vec F S256x256 .bf16) (x7 : Vec F S42x512 .bf16) (x8 : Vec F S512 .f32) (x9 : Vec F S512x256 .bf16) (x10 : Vec F S256 .f32) (x11 : Vec F S256x1024 .bf16) (x12 : Vec F S256x1024 .bf16) (x13 : Vec F S256x1024 .bf16) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 = k0_pay17 (k0_pay6 x5) (k0_pay7 x3) k0_pay3 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  sl_unfold_words
  rw [View.canon_cons_unit_zero (S := S1x8x1) hz3, View.readCov_unit_zero (S := S1x8x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread,
    View.ld_unit_zero (S := S1024x42) hz2, View.ld_unit_zero (S := S1024x256) hz2, View.ld_unit_zero (S := S1024x8) hz2, View.ld_unit_zero (S := S1024x32) hz2, View.ld_unit_zero (S := S1024x1) hz2, View.ld_unit_zero (S := S256x256) hz2, View.ld_unit_zero (S := S42x512) hz2, View.ld_unit_zero (S := S512x256) hz2, View.ld_unit_zero (S := S256x1024) hz2, View.ld_unit_zero (S := S512) hz1, View.ld_unit_zero (S := S256) hz1, View.ld_unit_zero (S := S1x8x1024) hz3, View.ld_unit_zero (S := S1x8x1) hz3, View.ld_unit_zero (S := S1x32x1024) hz3, View.ld_unit_zero (S := S1x32x1) hz3]

theorem piece16_B (c : Dev nD) (i : grid0.Coords) (arg2 : Memref sig .tc .vmem S1024x42 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x8 .f32) (harg5 : arg5.IsWhole) (arg6 : Memref sig .tc .vmem S1024x32 .f32) (harg6 : arg6.IsWhole) (arg7 : Memref sig .tc .vmem S1024x1 .f32) (harg7 : arg7.IsWhole) (arg8 : Memref sig .tc .vmem S256x256 .bf16) (harg8 : arg8.IsWhole) (arg9 : Memref sig .tc .vmem S42x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S1x8x1024 .f32) (harg17 : arg17.IsWhole) (arg18 : Memref sig .tc .vmem S1x8x1 .f32) (harg18 : arg18.IsWhole) (arg19 : Memref sig .tc .vmem S1x32x1024 .f32) (harg19 : arg19.IsWhole) (arg20 : Memref sig .tc .vmem S1x32x1 .f32) (harg20 : arg20.IsWhole) (hc0 : ¬cond0_0 i)
    (x0 : Vec F S1024x42 .f32) (x1 : Vec F S1024x256 .f32) (x2 : Vec F S1024x256 .f32) (x3 : Vec F S1024x8 .f32) (x4 : Vec F S1024x32 .f32) (x5 : Vec F S1024x1 .f32) (x6 : Vec F S256x256 .bf16) (x7 : Vec F S42x512 .bf16) (x8 : Vec F S512 .f32) (x9 : Vec F S512x256 .bf16) (x10 : Vec F S256 .f32) (x11 : Vec F S256x1024 .bf16) (x12 : Vec F S256x1024 .bf16) (x13 : Vec F S256x1024 .bf16) (xo15 : Vec F S1x8x1024 .f32) (xo16 : Vec F S1x8x1 .f32) (xo17 : Vec F S1x32x1024 .f32) (xo18 : Vec F S1x32x1 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xo15 xo16 xo17 xo18 = k0_pay17 (k0_pay6 x5) (k0_pay7 x3) xo16 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xo15 xo16 xo17 xo18)]
  unfold kernelRun0_B
  dsimp only
  sl_unfold_words
  rw [View.canon_unit_zero (S := S1x8x1) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread,
    View.ld_unit_zero (S := S1024x42) hz2, View.ld_unit_zero (S := S1024x256) hz2, View.ld_unit_zero (S := S1024x8) hz2, View.ld_unit_zero (S := S1024x32) hz2, View.ld_unit_zero (S := S1024x1) hz2, View.ld_unit_zero (S := S256x256) hz2, View.ld_unit_zero (S := S42x512) hz2, View.ld_unit_zero (S := S512x256) hz2, View.ld_unit_zero (S := S256x1024) hz2, View.ld_unit_zero (S := S512) hz1, View.ld_unit_zero (S := S256) hz1, View.ld_unit_zero (S := S1x8x1024) hz3, View.ld_unit_zero (S := S1x8x1) hz3, View.ld_unit_zero (S := S1x32x1024) hz3, View.ld_unit_zero (S := S1x32x1) hz3]

theorem piece17_A (c : Dev nD) (i : grid0.Coords) (arg2 : Memref sig .tc .vmem S1024x42 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x8 .f32) (harg5 : arg5.IsWhole) (arg6 : Memref sig .tc .vmem S1024x32 .f32) (harg6 : arg6.IsWhole) (arg7 : Memref sig .tc .vmem S1024x1 .f32) (harg7 : arg7.IsWhole) (arg8 : Memref sig .tc .vmem S256x256 .bf16) (harg8 : arg8.IsWhole) (arg9 : Memref sig .tc .vmem S42x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S1x8x1024 .f32) (harg17 : arg17.IsWhole) (arg18 : Memref sig .tc .vmem S1x8x1 .f32) (harg18 : arg18.IsWhole) (arg19 : Memref sig .tc .vmem S1x32x1024 .f32) (harg19 : arg19.IsWhole) (arg20 : Memref sig .tc .vmem S1x32x1 .f32) (harg20 : arg20.IsWhole) (hc0 : cond0_0 i)
    (x0 : Vec F S1024x42 .f32) (x1 : Vec F S1024x256 .f32) (x2 : Vec F S1024x256 .f32) (x3 : Vec F S1024x8 .f32) (x4 : Vec F S1024x32 .f32) (x5 : Vec F S1024x1 .f32) (x6 : Vec F S256x256 .bf16) (x7 : Vec F S42x512 .bf16) (x8 : Vec F S512 .f32) (x9 : Vec F S512x256 .bf16) (x10 : Vec F S256 .f32) (x11 : Vec F S256x1024 .bf16) (x12 : Vec F S256x1024 .bf16) (x13 : Vec F S256x1024 .bf16) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 = k0_pay18 (k0_pay6 x5) (k0_pay8 x4) (k0_pay13 (k0_pay9 x1 x2 x6) (k0_pay10 x0 x7 x8) (k0_pay11 x0 x7 x8) x9 x10 x11) (k0_pay15 (k0_pay9 x1 x2 x6) (k0_pay10 x0 x7 x8) (k0_pay11 x0 x7 x8) x9 x10 x13) k0_pay4 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  sl_unfold_words
  rw [View.canon_cons_unit_zero (S := S1x32x1024) hz3, View.readCov_unit_zero (S := S1x32x1024) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread,
    View.ld_unit_zero (S := S1024x42) hz2, View.ld_unit_zero (S := S1024x256) hz2, View.ld_unit_zero (S := S1024x8) hz2, View.ld_unit_zero (S := S1024x32) hz2, View.ld_unit_zero (S := S1024x1) hz2, View.ld_unit_zero (S := S256x256) hz2, View.ld_unit_zero (S := S42x512) hz2, View.ld_unit_zero (S := S512x256) hz2, View.ld_unit_zero (S := S256x1024) hz2, View.ld_unit_zero (S := S512) hz1, View.ld_unit_zero (S := S256) hz1, View.ld_unit_zero (S := S1x8x1024) hz3, View.ld_unit_zero (S := S1x8x1) hz3, View.ld_unit_zero (S := S1x32x1024) hz3, View.ld_unit_zero (S := S1x32x1) hz3]

theorem piece17_B (c : Dev nD) (i : grid0.Coords) (arg2 : Memref sig .tc .vmem S1024x42 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x8 .f32) (harg5 : arg5.IsWhole) (arg6 : Memref sig .tc .vmem S1024x32 .f32) (harg6 : arg6.IsWhole) (arg7 : Memref sig .tc .vmem S1024x1 .f32) (harg7 : arg7.IsWhole) (arg8 : Memref sig .tc .vmem S256x256 .bf16) (harg8 : arg8.IsWhole) (arg9 : Memref sig .tc .vmem S42x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S1x8x1024 .f32) (harg17 : arg17.IsWhole) (arg18 : Memref sig .tc .vmem S1x8x1 .f32) (harg18 : arg18.IsWhole) (arg19 : Memref sig .tc .vmem S1x32x1024 .f32) (harg19 : arg19.IsWhole) (arg20 : Memref sig .tc .vmem S1x32x1 .f32) (harg20 : arg20.IsWhole) (hc0 : ¬cond0_0 i)
    (x0 : Vec F S1024x42 .f32) (x1 : Vec F S1024x256 .f32) (x2 : Vec F S1024x256 .f32) (x3 : Vec F S1024x8 .f32) (x4 : Vec F S1024x32 .f32) (x5 : Vec F S1024x1 .f32) (x6 : Vec F S256x256 .bf16) (x7 : Vec F S42x512 .bf16) (x8 : Vec F S512 .f32) (x9 : Vec F S512x256 .bf16) (x10 : Vec F S256 .f32) (x11 : Vec F S256x1024 .bf16) (x12 : Vec F S256x1024 .bf16) (x13 : Vec F S256x1024 .bf16) (xo15 : Vec F S1x8x1024 .f32) (xo16 : Vec F S1x8x1 .f32) (xo17 : Vec F S1x32x1024 .f32) (xo18 : Vec F S1x32x1 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xo15 xo16 xo17 xo18 = k0_pay18 (k0_pay6 x5) (k0_pay8 x4) (k0_pay13 (k0_pay9 x1 x2 x6) (k0_pay10 x0 x7 x8) (k0_pay11 x0 x7 x8) x9 x10 x11) (k0_pay15 (k0_pay9 x1 x2 x6) (k0_pay10 x0 x7 x8) (k0_pay11 x0 x7 x8) x9 x10 x13) xo17 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xo15 xo16 xo17 xo18)]
  unfold kernelRun0_B
  dsimp only
  sl_unfold_words
  rw [View.canon_unit_zero (S := S1x32x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread,
    View.ld_unit_zero (S := S1024x42) hz2, View.ld_unit_zero (S := S1024x256) hz2, View.ld_unit_zero (S := S1024x8) hz2, View.ld_unit_zero (S := S1024x32) hz2, View.ld_unit_zero (S := S1024x1) hz2, View.ld_unit_zero (S := S256x256) hz2, View.ld_unit_zero (S := S42x512) hz2, View.ld_unit_zero (S := S512x256) hz2, View.ld_unit_zero (S := S256x1024) hz2, View.ld_unit_zero (S := S512) hz1, View.ld_unit_zero (S := S256) hz1, View.ld_unit_zero (S := S1x8x1024) hz3, View.ld_unit_zero (S := S1x8x1) hz3, View.ld_unit_zero (S := S1x32x1024) hz3, View.ld_unit_zero (S := S1x32x1) hz3]

theorem piece18_A (c : Dev nD) (i : grid0.Coords) (arg2 : Memref sig .tc .vmem S1024x42 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x8 .f32) (harg5 : arg5.IsWhole) (arg6 : Memref sig .tc .vmem S1024x32 .f32) (harg6 : arg6.IsWhole) (arg7 : Memref sig .tc .vmem S1024x1 .f32) (harg7 : arg7.IsWhole) (arg8 : Memref sig .tc .vmem S256x256 .bf16) (harg8 : arg8.IsWhole) (arg9 : Memref sig .tc .vmem S42x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S1x8x1024 .f32) (harg17 : arg17.IsWhole) (arg18 : Memref sig .tc .vmem S1x8x1 .f32) (harg18 : arg18.IsWhole) (arg19 : Memref sig .tc .vmem S1x32x1024 .f32) (harg19 : arg19.IsWhole) (arg20 : Memref sig .tc .vmem S1x32x1 .f32) (harg20 : arg20.IsWhole) (hc0 : cond0_0 i)
    (x0 : Vec F S1024x42 .f32) (x1 : Vec F S1024x256 .f32) (x2 : Vec F S1024x256 .f32) (x3 : Vec F S1024x8 .f32) (x4 : Vec F S1024x32 .f32) (x5 : Vec F S1024x1 .f32) (x6 : Vec F S256x256 .bf16) (x7 : Vec F S42x512 .bf16) (x8 : Vec F S512 .f32) (x9 : Vec F S512x256 .bf16) (x10 : Vec F S256 .f32) (x11 : Vec F S256x1024 .bf16) (x12 : Vec F S256x1024 .bf16) (x13 : Vec F S256x1024 .bf16) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 = k0_pay1 (k0_pay6 x5) (k0_pay8 x4) k0_pay5 := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13)]
  unfold kernelRun0_A
  dsimp only
  sl_unfold_words
  rw [View.canon_cons_unit_zero (S := S1x32x1) hz3, View.readCov_unit_zero (S := S1x32x1) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread,
    View.ld_unit_zero (S := S1024x42) hz2, View.ld_unit_zero (S := S1024x256) hz2, View.ld_unit_zero (S := S1024x8) hz2, View.ld_unit_zero (S := S1024x32) hz2, View.ld_unit_zero (S := S1024x1) hz2, View.ld_unit_zero (S := S256x256) hz2, View.ld_unit_zero (S := S42x512) hz2, View.ld_unit_zero (S := S512x256) hz2, View.ld_unit_zero (S := S256x1024) hz2, View.ld_unit_zero (S := S512) hz1, View.ld_unit_zero (S := S256) hz1, View.ld_unit_zero (S := S1x8x1024) hz3, View.ld_unit_zero (S := S1x8x1) hz3, View.ld_unit_zero (S := S1x32x1024) hz3, View.ld_unit_zero (S := S1x32x1) hz3]

theorem piece18_B (c : Dev nD) (i : grid0.Coords) (arg2 : Memref sig .tc .vmem S1024x42 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x8 .f32) (harg5 : arg5.IsWhole) (arg6 : Memref sig .tc .vmem S1024x32 .f32) (harg6 : arg6.IsWhole) (arg7 : Memref sig .tc .vmem S1024x1 .f32) (harg7 : arg7.IsWhole) (arg8 : Memref sig .tc .vmem S256x256 .bf16) (harg8 : arg8.IsWhole) (arg9 : Memref sig .tc .vmem S42x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S256 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S1024x256 .bf16) (harg16 : arg16.IsWhole) (arg17 : Memref sig .tc .vmem S1x8x1024 .f32) (harg17 : arg17.IsWhole) (arg18 : Memref sig .tc .vmem S1x8x1 .f32) (harg18 : arg18.IsWhole) (arg19 : Memref sig .tc .vmem S1x32x1024 .f32) (harg19 : arg19.IsWhole) (arg20 : Memref sig .tc .vmem S1x32x1 .f32) (harg20 : arg20.IsWhole) (hc0 : ¬cond0_0 i)
    (x0 : Vec F S1024x42 .f32) (x1 : Vec F S1024x256 .f32) (x2 : Vec F S1024x256 .f32) (x3 : Vec F S1024x8 .f32) (x4 : Vec F S1024x32 .f32) (x5 : Vec F S1024x1 .f32) (x6 : Vec F S256x256 .bf16) (x7 : Vec F S42x512 .bf16) (x8 : Vec F S512 .f32) (x9 : Vec F S512x256 .bf16) (x10 : Vec F S256 .f32) (x11 : Vec F S256x1024 .bf16) (x12 : Vec F S256x1024 .bf16) (x13 : Vec F S256x1024 .bf16) (xo15 : Vec F S1x8x1024 .f32) (xo16 : Vec F S1x8x1 .f32) (xo17 : Vec F S1x32x1024 .f32) (xo18 : Vec F S1x32x1 .f32) :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xo15 xo16 xo17 xo18 = k0_pay1 (k0_pay6 x5) (k0_pay8 x4) xo18 := by
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xo15 xo16 xo17 xo18)]
  unfold kernelRun0_B
  dsimp only
  sl_unfold_words
  rw [View.canon_unit_zero (S := S1x32x1) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread,
    View.ld_unit_zero (S := S1024x42) hz2, View.ld_unit_zero (S := S1024x256) hz2, View.ld_unit_zero (S := S1024x8) hz2, View.ld_unit_zero (S := S1024x32) hz2, View.ld_unit_zero (S := S1024x1) hz2, View.ld_unit_zero (S := S256x256) hz2, View.ld_unit_zero (S := S42x512) hz2, View.ld_unit_zero (S := S512x256) hz2, View.ld_unit_zero (S := S256x1024) hz2, View.ld_unit_zero (S := S512) hz1, View.ld_unit_zero (S := S256) hz1, View.ld_unit_zero (S := S1x8x1024) hz3, View.ld_unit_zero (S := S1x8x1) hz3, View.ld_unit_zero (S := S1x32x1024) hz3, View.ld_unit_zero (S := S1x32x1) hz3]

end Pieces

/-! ## The body's matrix products at an index

Each product starts from a zero accumulator, so at (p, q) it is the sum over the contracted axis of the operands'
products: Σ_k l[k,p]·r[k,q] where axis 0 of both operands is contracted, Σ_k l[p,k]·r[k,q] for the projections. -/

theorem lhs_b1_c (i : S8x1.Idx) (q : dot_S1024x8_S1024x1_S8x1_0_0_1_1_n_n.contr.Idx) :
    (dot_S1024x8_S1024x1_S8x1_0_0_1_1_n_n.lhsIdx i q 0).val = (q ⟨0, by decide⟩).val :=
  dot_S1024x8_S1024x1_S8x1_0_0_1_1_n_n.lhsIdx_val_of_single rfl i q
theorem lhs_b1_n (i : S8x1.Idx) (q : dot_S1024x8_S1024x1_S8x1_0_0_1_1_n_n.contr.Idx) :
    (dot_S1024x8_S1024x1_S8x1_0_0_1_1_n_n.lhsIdx i q 1).val = (i 0).val := by
  unfold DotDims.lhsIdx
  rw [dif_neg (show ¬(1 : Fin S1024x8.rank) ∈ dot_S1024x8_S1024x1_S8x1_0_0_1_1_n_n.lhsBatch by decide), dif_pos (show (1 : Fin S1024x8.rank) ∈ dot_S1024x8_S1024x1_S8x1_0_0_1_1_n_n.lhsNonContracting by decide)]
  rfl
theorem rhs_b1_c (i : S8x1.Idx) (q : dot_S1024x8_S1024x1_S8x1_0_0_1_1_n_n.contr.Idx) :
    (dot_S1024x8_S1024x1_S8x1_0_0_1_1_n_n.rhsIdx i q 0).val = (q ⟨0, by decide⟩).val :=
  dot_S1024x8_S1024x1_S8x1_0_0_1_1_n_n.rhsIdx_val_of_single rfl i q
theorem rhs_b1_n (i : S8x1.Idx) (q : dot_S1024x8_S1024x1_S8x1_0_0_1_1_n_n.contr.Idx) :
    (dot_S1024x8_S1024x1_S8x1_0_0_1_1_n_n.rhsIdx i q 1).val = (i 1).val := by
  unfold DotDims.rhsIdx
  rw [dif_neg (show ¬(1 : Fin S1024x1.rank) ∈ dot_S1024x8_S1024x1_S8x1_0_0_1_1_n_n.rhsBatch by decide), dif_pos (show (1 : Fin S1024x1.rank) ∈ dot_S1024x8_S1024x1_S8x1_0_0_1_1_n_n.rhsNonContracting by decide)]
  rfl
/-- The product into a zero accumulator, read at (p, q): the sum over the contracted axis. -/
theorem mm_b1_apply {φ₁ φ₂ : FTy} (l : FVec Ideal S1024x8 φ₁) (r : FVec Ideal S1024x1 φ₂) (p : Fin 8) (q : Fin 1) :
    (matmul dot_S1024x8_S1024x1_S8x1_0_0_1_1_n_n none l r (constant S8x1 .f32 0x00000000#32) : S8x1.Idx → EReal) (ix2 p q)
      = ∑ k : Fin 1024, (l : S1024x8.Idx → EReal) (ix2 k p) * (r : S1024x1.Idx → EReal) (ix2 k q) := by
  simp only [matmul]
  rw [Ideal.matmul_constant_zero_apply, ← Equiv.sum_comp (contrEquiv1 dot_S1024x8_S1024x1_S8x1_0_0_1_1_n_n 1024 rfl rfl).symm]
  refine Finset.sum_congr rfl fun k _ => ?_
  have hk := contrEquiv1_symm_val dot_S1024x8_S1024x1_S8x1_0_0_1_1_n_n 1024 rfl rfl k
  have el : dot_S1024x8_S1024x1_S8x1_0_0_1_1_n_n.lhsIdx (ix2 p q) ((contrEquiv1 dot_S1024x8_S1024x1_S8x1_0_0_1_1_n_n 1024 rfl rfl).symm k) = ix2 k p := funext fun a => Fin.ext (by
    match a with
    | ⟨0, _⟩ => exact (lhs_b1_c _ _).trans hk
    | ⟨1, _⟩ => exact lhs_b1_n _ _)
  have er : dot_S1024x8_S1024x1_S8x1_0_0_1_1_n_n.rhsIdx (ix2 p q) ((contrEquiv1 dot_S1024x8_S1024x1_S8x1_0_0_1_1_n_n 1024 rfl rfl).symm k) = ix2 k q := funext fun a => Fin.ext (by
    match a with
    | ⟨0, _⟩ => exact (rhs_b1_c _ _).trans hk
    | ⟨1, _⟩ => exact rhs_b1_n _ _)
  rw [el, er]

theorem lhs_c1_c (i : S32x1.Idx) (q : dot_S1024x32_S1024x1_S32x1_0_0_1_1_n_n.contr.Idx) :
    (dot_S1024x32_S1024x1_S32x1_0_0_1_1_n_n.lhsIdx i q 0).val = (q ⟨0, by decide⟩).val :=
  dot_S1024x32_S1024x1_S32x1_0_0_1_1_n_n.lhsIdx_val_of_single rfl i q
theorem lhs_c1_n (i : S32x1.Idx) (q : dot_S1024x32_S1024x1_S32x1_0_0_1_1_n_n.contr.Idx) :
    (dot_S1024x32_S1024x1_S32x1_0_0_1_1_n_n.lhsIdx i q 1).val = (i 0).val := by
  unfold DotDims.lhsIdx
  rw [dif_neg (show ¬(1 : Fin S1024x32.rank) ∈ dot_S1024x32_S1024x1_S32x1_0_0_1_1_n_n.lhsBatch by decide), dif_pos (show (1 : Fin S1024x32.rank) ∈ dot_S1024x32_S1024x1_S32x1_0_0_1_1_n_n.lhsNonContracting by decide)]
  rfl
theorem rhs_c1_c (i : S32x1.Idx) (q : dot_S1024x32_S1024x1_S32x1_0_0_1_1_n_n.contr.Idx) :
    (dot_S1024x32_S1024x1_S32x1_0_0_1_1_n_n.rhsIdx i q 0).val = (q ⟨0, by decide⟩).val :=
  dot_S1024x32_S1024x1_S32x1_0_0_1_1_n_n.rhsIdx_val_of_single rfl i q
theorem rhs_c1_n (i : S32x1.Idx) (q : dot_S1024x32_S1024x1_S32x1_0_0_1_1_n_n.contr.Idx) :
    (dot_S1024x32_S1024x1_S32x1_0_0_1_1_n_n.rhsIdx i q 1).val = (i 1).val := by
  unfold DotDims.rhsIdx
  rw [dif_neg (show ¬(1 : Fin S1024x1.rank) ∈ dot_S1024x32_S1024x1_S32x1_0_0_1_1_n_n.rhsBatch by decide), dif_pos (show (1 : Fin S1024x1.rank) ∈ dot_S1024x32_S1024x1_S32x1_0_0_1_1_n_n.rhsNonContracting by decide)]
  rfl
/-- The product into a zero accumulator, read at (p, q): the sum over the contracted axis. -/
theorem mm_c1_apply {φ₁ φ₂ : FTy} (l : FVec Ideal S1024x32 φ₁) (r : FVec Ideal S1024x1 φ₂) (p : Fin 32) (q : Fin 1) :
    (matmul dot_S1024x32_S1024x1_S32x1_0_0_1_1_n_n none l r (constant S32x1 .f32 0x00000000#32) : S32x1.Idx → EReal) (ix2 p q)
      = ∑ k : Fin 1024, (l : S1024x32.Idx → EReal) (ix2 k p) * (r : S1024x1.Idx → EReal) (ix2 k q) := by
  simp only [matmul]
  rw [Ideal.matmul_constant_zero_apply, ← Equiv.sum_comp (contrEquiv1 dot_S1024x32_S1024x1_S32x1_0_0_1_1_n_n 1024 rfl rfl).symm]
  refine Finset.sum_congr rfl fun k _ => ?_
  have hk := contrEquiv1_symm_val dot_S1024x32_S1024x1_S32x1_0_0_1_1_n_n 1024 rfl rfl k
  have el : dot_S1024x32_S1024x1_S32x1_0_0_1_1_n_n.lhsIdx (ix2 p q) ((contrEquiv1 dot_S1024x32_S1024x1_S32x1_0_0_1_1_n_n 1024 rfl rfl).symm k) = ix2 k p := funext fun a => Fin.ext (by
    match a with
    | ⟨0, _⟩ => exact (lhs_c1_c _ _).trans hk
    | ⟨1, _⟩ => exact lhs_c1_n _ _)
  have er : dot_S1024x32_S1024x1_S32x1_0_0_1_1_n_n.rhsIdx (ix2 p q) ((contrEquiv1 dot_S1024x32_S1024x1_S32x1_0_0_1_1_n_n 1024 rfl rfl).symm k) = ix2 k q := funext fun a => Fin.ext (by
    match a with
    | ⟨0, _⟩ => exact (rhs_c1_c _ _).trans hk
    | ⟨1, _⟩ => exact rhs_c1_n _ _)
  rw [el, er]

theorem lhs_bf_c (i : S8x1024.Idx) (q : dot_S1024x8_S1024x1024_S8x1024_0_0_1_1_n_n.contr.Idx) :
    (dot_S1024x8_S1024x1024_S8x1024_0_0_1_1_n_n.lhsIdx i q 0).val = (q ⟨0, by decide⟩).val :=
  dot_S1024x8_S1024x1024_S8x1024_0_0_1_1_n_n.lhsIdx_val_of_single rfl i q
theorem lhs_bf_n (i : S8x1024.Idx) (q : dot_S1024x8_S1024x1024_S8x1024_0_0_1_1_n_n.contr.Idx) :
    (dot_S1024x8_S1024x1024_S8x1024_0_0_1_1_n_n.lhsIdx i q 1).val = (i 0).val := by
  unfold DotDims.lhsIdx
  rw [dif_neg (show ¬(1 : Fin S1024x8.rank) ∈ dot_S1024x8_S1024x1024_S8x1024_0_0_1_1_n_n.lhsBatch by decide), dif_pos (show (1 : Fin S1024x8.rank) ∈ dot_S1024x8_S1024x1024_S8x1024_0_0_1_1_n_n.lhsNonContracting by decide)]
  rfl
theorem rhs_bf_c (i : S8x1024.Idx) (q : dot_S1024x8_S1024x1024_S8x1024_0_0_1_1_n_n.contr.Idx) :
    (dot_S1024x8_S1024x1024_S8x1024_0_0_1_1_n_n.rhsIdx i q 0).val = (q ⟨0, by decide⟩).val :=
  dot_S1024x8_S1024x1024_S8x1024_0_0_1_1_n_n.rhsIdx_val_of_single rfl i q
theorem rhs_bf_n (i : S8x1024.Idx) (q : dot_S1024x8_S1024x1024_S8x1024_0_0_1_1_n_n.contr.Idx) :
    (dot_S1024x8_S1024x1024_S8x1024_0_0_1_1_n_n.rhsIdx i q 1).val = (i 1).val := by
  unfold DotDims.rhsIdx
  rw [dif_neg (show ¬(1 : Fin S1024x1024.rank) ∈ dot_S1024x8_S1024x1024_S8x1024_0_0_1_1_n_n.rhsBatch by decide), dif_pos (show (1 : Fin S1024x1024.rank) ∈ dot_S1024x8_S1024x1024_S8x1024_0_0_1_1_n_n.rhsNonContracting by decide)]
  rfl
/-- The product into a zero accumulator, read at (p, q): the sum over the contracted axis. -/
theorem mm_bf_apply {φ₁ φ₂ : FTy} (l : FVec Ideal S1024x8 φ₁) (r : FVec Ideal S1024x1024 φ₂) (p : Fin 8) (q : Fin 1024) :
    (matmul dot_S1024x8_S1024x1024_S8x1024_0_0_1_1_n_n none l r (constant S8x1024 .f32 0x00000000#32) : S8x1024.Idx → EReal) (ix2 p q)
      = ∑ k : Fin 1024, (l : S1024x8.Idx → EReal) (ix2 k p) * (r : S1024x1024.Idx → EReal) (ix2 k q) := by
  simp only [matmul]
  rw [Ideal.matmul_constant_zero_apply, ← Equiv.sum_comp (contrEquiv1 dot_S1024x8_S1024x1024_S8x1024_0_0_1_1_n_n 1024 rfl rfl).symm]
  refine Finset.sum_congr rfl fun k _ => ?_
  have hk := contrEquiv1_symm_val dot_S1024x8_S1024x1024_S8x1024_0_0_1_1_n_n 1024 rfl rfl k
  have el : dot_S1024x8_S1024x1024_S8x1024_0_0_1_1_n_n.lhsIdx (ix2 p q) ((contrEquiv1 dot_S1024x8_S1024x1024_S8x1024_0_0_1_1_n_n 1024 rfl rfl).symm k) = ix2 k p := funext fun a => Fin.ext (by
    match a with
    | ⟨0, _⟩ => exact (lhs_bf_c _ _).trans hk
    | ⟨1, _⟩ => exact lhs_bf_n _ _)
  have er : dot_S1024x8_S1024x1024_S8x1024_0_0_1_1_n_n.rhsIdx (ix2 p q) ((contrEquiv1 dot_S1024x8_S1024x1024_S8x1024_0_0_1_1_n_n 1024 rfl rfl).symm k) = ix2 k q := funext fun a => Fin.ext (by
    match a with
    | ⟨0, _⟩ => exact (rhs_bf_c _ _).trans hk
    | ⟨1, _⟩ => exact rhs_bf_n _ _)
  rw [el, er]

theorem lhs_cf_c (i : S32x1024.Idx) (q : dot_S1024x32_S1024x1024_S32x1024_0_0_1_1_n_n.contr.Idx) :
    (dot_S1024x32_S1024x1024_S32x1024_0_0_1_1_n_n.lhsIdx i q 0).val = (q ⟨0, by decide⟩).val :=
  dot_S1024x32_S1024x1024_S32x1024_0_0_1_1_n_n.lhsIdx_val_of_single rfl i q
theorem lhs_cf_n (i : S32x1024.Idx) (q : dot_S1024x32_S1024x1024_S32x1024_0_0_1_1_n_n.contr.Idx) :
    (dot_S1024x32_S1024x1024_S32x1024_0_0_1_1_n_n.lhsIdx i q 1).val = (i 0).val := by
  unfold DotDims.lhsIdx
  rw [dif_neg (show ¬(1 : Fin S1024x32.rank) ∈ dot_S1024x32_S1024x1024_S32x1024_0_0_1_1_n_n.lhsBatch by decide), dif_pos (show (1 : Fin S1024x32.rank) ∈ dot_S1024x32_S1024x1024_S32x1024_0_0_1_1_n_n.lhsNonContracting by decide)]
  rfl
theorem rhs_cf_c (i : S32x1024.Idx) (q : dot_S1024x32_S1024x1024_S32x1024_0_0_1_1_n_n.contr.Idx) :
    (dot_S1024x32_S1024x1024_S32x1024_0_0_1_1_n_n.rhsIdx i q 0).val = (q ⟨0, by decide⟩).val :=
  dot_S1024x32_S1024x1024_S32x1024_0_0_1_1_n_n.rhsIdx_val_of_single rfl i q
theorem rhs_cf_n (i : S32x1024.Idx) (q : dot_S1024x32_S1024x1024_S32x1024_0_0_1_1_n_n.contr.Idx) :
    (dot_S1024x32_S1024x1024_S32x1024_0_0_1_1_n_n.rhsIdx i q 1).val = (i 1).val := by
  unfold DotDims.rhsIdx
  rw [dif_neg (show ¬(1 : Fin S1024x1024.rank) ∈ dot_S1024x32_S1024x1024_S32x1024_0_0_1_1_n_n.rhsBatch by decide), dif_pos (show (1 : Fin S1024x1024.rank) ∈ dot_S1024x32_S1024x1024_S32x1024_0_0_1_1_n_n.rhsNonContracting by decide)]
  rfl
/-- The product into a zero accumulator, read at (p, q): the sum over the contracted axis. -/
theorem mm_cf_apply {φ₁ φ₂ : FTy} (l : FVec Ideal S1024x32 φ₁) (r : FVec Ideal S1024x1024 φ₂) (p : Fin 32) (q : Fin 1024) :
    (matmul dot_S1024x32_S1024x1024_S32x1024_0_0_1_1_n_n none l r (constant S32x1024 .f32 0x00000000#32) : S32x1024.Idx → EReal) (ix2 p q)
      = ∑ k : Fin 1024, (l : S1024x32.Idx → EReal) (ix2 k p) * (r : S1024x1024.Idx → EReal) (ix2 k q) := by
  simp only [matmul]
  rw [Ideal.matmul_constant_zero_apply, ← Equiv.sum_comp (contrEquiv1 dot_S1024x32_S1024x1024_S32x1024_0_0_1_1_n_n 1024 rfl rfl).symm]
  refine Finset.sum_congr rfl fun k _ => ?_
  have hk := contrEquiv1_symm_val dot_S1024x32_S1024x1024_S32x1024_0_0_1_1_n_n 1024 rfl rfl k
  have el : dot_S1024x32_S1024x1024_S32x1024_0_0_1_1_n_n.lhsIdx (ix2 p q) ((contrEquiv1 dot_S1024x32_S1024x1024_S32x1024_0_0_1_1_n_n 1024 rfl rfl).symm k) = ix2 k p := funext fun a => Fin.ext (by
    match a with
    | ⟨0, _⟩ => exact (lhs_cf_c _ _).trans hk
    | ⟨1, _⟩ => exact lhs_cf_n _ _)
  have er : dot_S1024x32_S1024x1024_S32x1024_0_0_1_1_n_n.rhsIdx (ix2 p q) ((contrEquiv1 dot_S1024x32_S1024x1024_S32x1024_0_0_1_1_n_n 1024 rfl rfl).symm k) = ix2 k q := funext fun a => Fin.ext (by
    match a with
    | ⟨0, _⟩ => exact (rhs_cf_c _ _).trans hk
    | ⟨1, _⟩ => exact rhs_cf_n _ _)
  rw [el, er]

theorem lhs_pr_c (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem lhs_pr_n (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem rhs_pr_c (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_pr_n (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl
/-- The product into a zero accumulator, read at (p, q): the sum over the contracted axis. -/
theorem mm_pr_apply {φ₁ φ₂ : FTy} (l : FVec Ideal S1024x256 φ₁) (r : FVec Ideal S256x1024 φ₂) (p : Fin 1024) (q : Fin 1024) :
    (matmul dot_S1024x256_S256x1024_S1024x1024_1_0_0_1_n_n none l r (constant S1024x1024 .f32 0x00000000#32) : S1024x1024.Idx → EReal) (ix2 p q)
      = ∑ k : Fin 256, (l : S1024x256.Idx → EReal) (ix2 p k) * (r : S256x1024.Idx → EReal) (ix2 k q) := by
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k := funext fun a => Fin.ext (by
    match a with
    | ⟨0, _⟩ => exact lhs_pr_n _ _
    | ⟨1, _⟩ => exact (lhs_pr_c _ _).trans hk)
  have er : dot_S1024x256_S256x1024_S1024x1024_1_0_0_1_n_n.rhsIdx (ix2 p q) ((contrEquiv1 dot_S1024x256_S256x1024_S1024x1024_1_0_0_1_n_n 256 rfl rfl).symm k) = ix2 k q := funext fun a => Fin.ext (by
    match a with
    | ⟨0, _⟩ => exact (rhs_pr_c _ _).trans hk
    | ⟨1, _⟩ => exact rhs_pr_n _ _)
  rw [el, er]

/-! ## The payloads at an index -/

/-- A column [a, 1] broadcast along the second axis reads, at (p, q), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The batch count block after a tile: what it held plus Σ_r oh[r,s]·mask[r]. -/
theorem pay17_apply (v8 : FVec Ideal S1024x1 .f32) (v10 : FVec Ideal S1024x8 .f32) (v97 : Vec Ideal S1x8x1 .f32) (s : Fin 8) :
    (k0_pay17 (F := Ideal) v8 v10 v97 : S1x8x1.Idx → EReal) (ix3 (0 : Fin 1) s (0 : Fin 1))
      = (v97 : S1x8x1.Idx → EReal) (ix3 (0 : Fin 1) s (0 : Fin 1))
        + ∑ r : Fin 1024, (v10 : S1024x8.Idx → EReal) (ix2 r s) * (v8 : S1024x1.Idx → EReal) (ix2 r (0 : Fin 1)) := by
  unfold k0_pay17
  refine (addf_apply _ _ _).trans ?_
  rw [shapeCast_self]
  refine congrArg (_ + ·) ?_
  refine (shapeCast_ab_1ab_apply _ _ (0 : Fin 1) s (0 : Fin 1)).trans ?_
  exact mm_b1_apply v10 v8 s (0 : Fin 1)

/-- The chain count block after a tile: what it held plus Σ_r oh[r,s]·mask[r]. -/
theorem pay1_apply (v8 : FVec Ideal S1024x1 .f32) (v12 : FVec Ideal S1024x32 .f32) (v109 : Vec Ideal S1x32x1 .f32) (s : Fin 32) :
    (k0_pay1 (F := Ideal) v8 v12 v109 : S1x32x1.Idx → EReal) (ix3 (0 : Fin 1) s (0 : Fin 1))
      = (v109 : S1x32x1.Idx → EReal) (ix3 (0 : Fin 1) s (0 : Fin 1))
        + ∑ r : Fin 1024, (v12 : S1024x32.Idx → EReal) (ix2 r s) * (v8 : S1024x1.Idx → EReal) (ix2 r (0 : Fin 1)) := by
  unfold k0_pay1
  refine (addf_apply _ _ _).trans ?_
  rw [shapeCast_self]
  refine congrArg (_ + ·) ?_
  refine (shapeCast_ab_1ab_apply _ _ (0 : Fin 1) s (0 : Fin 1)).trans ?_
  exact mm_c1_apply v12 v8 s (0 : Fin 1)

/-- The batch sum block after a tile: what it held plus Σ_r oh[r,s]·((bg[r,f]·u[r,f])·mask[r]). -/
theorem pay16_apply (v8 : FVec Ideal S1024x1 .f32) (v10 : FVec Ideal S1024x8 .f32) (v52 v68 : FVec Ideal S1024x1024 .f32)
    (v91 : Vec Ideal S1x8x1024 .f32) (s : Fin 8) (f : Fin 1024) :
    (k0_pay16 (F := Ideal) v8 v10 v52 v68 v91 : S1x8x1024.Idx → EReal) (ix3 (0 : Fin 1) s f)
      = (v91 : S1x8x1024.Idx → EReal) (ix3 (0 : Fin 1) s f)
        + ∑ r : Fin 1024, (v10 : S1024x8.Idx → EReal) (ix2 r s)
            * (((v68 : S1024x1024.Idx → EReal) (ix2 r f) * (v52 : S1024x1024.Idx → EReal) (ix2 r f))
                * (v8 : S1024x1.Idx → EReal) (ix2 r (0 : Fin 1))) := by
  unfold k0_pay16
  refine (addf_apply _ _ _).trans ?_
  rw [shapeCast_self]
  refine congrArg (_ + ·) ?_
  refine (shapeCast_ab_1ab_apply _ _ (0 : Fin 1) s f).trans ?_
  refine (mm_bf_apply v10 _ s f).trans ?_
  refine Finset.sum_congr rfl fun r _ => ?_
  refine congrArg (_ * ·) ?_
  refine (mulf_apply _ _ _).trans ?_
  exact congrArg₂ (· * ·) (mulf_apply _ _ _) (broadcastTo_a1_ab_apply v8 _ r f)

/-- The chain sum block after a tile: what it held plus Σ_r oh[r,s]·((gelu(cg[r,f])·u[r,f])·mask[r]). -/
theorem pay18_apply (v8 : FVec Ideal S1024x1 .f32) (v12 : FVec Ideal S1024x32 .f32) (v52 v71 : FVec Ideal S1024x1024 .f32)
    (v103 : Vec Ideal S1x32x1024 .f32) (s : Fin 32) (f : Fin 1024) :
    (k0_pay18 (F := Ideal) v8 v12 v52 v71 v103 : S1x32x1024.Idx → EReal) (ix3 (0 : Fin 1) s f)
      = (v103 : S1x32x1024.Idx → EReal) (ix3 (0 : Fin 1) s f)
        + ∑ r : Fin 1024, (v12 : S1024x32.Idx → EReal) (ix2 r s)
            * ((Cert.Spec.gelu ((v71 : S1024x1024.Idx → EReal) (ix2 r f)) * (v52 : S1024x1024.Idx → EReal) (ix2 r f))
                * (v8 : S1024x1.Idx → EReal) (ix2 r (0 : Fin 1))) := by
  unfold k0_pay18
  refine (addf_apply _ _ _).trans ?_
  rw [shapeCast_self]
  refine congrArg (_ + ·) ?_
  refine (shapeCast_ab_1ab_apply _ _ (0 : Fin 1) s f).trans ?_
  refine (mm_cf_apply v12 _ s f).trans ?_
  refine Finset.sum_congr rfl fun r _ => ?_
  refine congrArg (_ * ·) ?_
  refine (mulf_apply _ _ _).trans ?_
  refine congrArg₂ (· * ·) ((mulf_apply _ _ _).trans ?_) (broadcastTo_a1_ab_apply v8 _ r f)
  rfl

/-- The projection u of the tile's feature rows: Σ_d L[r,d]·Wu[d,f]. -/
theorem pay13_apply (v17 : FVec Ideal S1024x256 .f32) (v25 v33 : FVec Ideal S1024x512 .f32) (v40 : Vec Ideal S512x256 .bf16)
    (v44 : Vec Ideal S256 .f32) (v50 : Vec Ideal S256x1024 .bf16) (r : Fin 1024) (f : Fin 1024) :
    (k0_pay13 (F := Ideal) v17 v25 v33 v40 v44 v50 : S1024x1024.Idx → EReal) (ix2 r f)
      = ∑ d : Fin 256, (k0_pay12 (F := Ideal) v17 v25 v33 v40 v44 : S1024x256.Idx → EReal) (ix2 r d)
          * (v50 : S256x1024.Idx → EReal) (ix2 d f) := by
  unfold k0_pay13
  rw [shapeCast_self]
  exact mm_pr_apply (k0_pay12 (F := Ideal) v17 v25 v33 v40 v44) v50 r f

/-- The chain gate before its gelu: Σ_d L[r,d]·Wcg[d,f]. -/
theorem pay15_apply (v17 : FVec Ideal S1024x256 .f32) (v25 v33 : FVec Ideal S1024x512 .f32) (v40 : Vec Ideal S512x256 .bf16)
    (v44 : Vec Ideal S256 .f32) (v69 : Vec Ideal S256x1024 .bf16) (r : Fin 1024) (f : Fin 1024) :
    (k0_pay15 (F := Ideal) v17 v25 v33 v40 v44 v69 : S1024x1024.Idx → EReal) (ix2 r f)
      = ∑ d : Fin 256, (k0_pay12 (F := Ideal) v17 v25 v33 v40 v44 : S1024x256.Idx → EReal) (ix2 r d)
          * (v69 : S256x1024.Idx → EReal) (ix2 d f) := by
  unfold k0_pay15
  rw [shapeCast_self]
  exact mm_pr_apply (k0_pay12 (F := Ideal) v17 v25 v33 v40 v44) v69 r f

/-- The batch gate: gelu(Σ_d L[r,d]·Wbg[d,f]). -/
theorem pay14_apply (v17 : FVec Ideal S1024x256 .f32) (v25 v33 : FVec Ideal S1024x512 .f32) (v40 : Vec Ideal S512x256 .bf16)
    (v44 : Vec Ideal S256 .f32) (v53 : Vec Ideal S256x1024 .bf16) (r : Fin 1024) (f : Fin 1024) :
    (k0_pay14 (F := Ideal) v17 v25 v33 v40 v44 v53 : S1024x1024.Idx → EReal) (ix2 r f)
      = Cert.Spec.gelu (∑ d : Fin 256, (k0_pay12 (F := Ideal) v17 v25 v33 v40 v44 : S1024x256.Idx → EReal) (ix2 r d)
          * (v53 : S256x1024.Idx → EReal) (ix2 d f)) := by
  unfold k0_pay14
  rw [shapeCast_self]
  exact congrArg Cert.Spec.gelu (mm_pr_apply (k0_pay12 (F := Ideal) v17 v25 v33 v40 v44) v53 r f)

/-- The windows' index maps at grid point t: a row window's block is tile t (rows 1024·t …), a weight window's block
    is its whole array, and an accumulator window's block is slab t / 16. -/
theorem idx_facts : ∀ t : Fin cfg0.N,
    (win0_0.index t (0 : Fin 2) = t.val ∧ win0_0.index t (1 : Fin 2) = 0 ∧ win0_1.index t (0 : Fin 2) = t.val ∧ win0_1.index t (1 : Fin 2) = 0 ∧ win0_2.index t (0 : Fin 2) = t.val ∧ win0_2.index t (1 : Fin 2) = 0 ∧ win0_3.index t (0 : Fin 2) = t.val ∧ win0_3.index t (1 : Fin 2) = 0 ∧ win0_4.index t (0 : Fin 2) = t.val ∧ win0_4.index t (1 : Fin 2) = 0 ∧ win0_5.index t (0 : Fin 2) = t.val ∧ win0_5.index t (1 : Fin 2) = 0)
    ∧ (win0_6.index t (0 : Fin 2) = 0 ∧ win0_6.index t (1 : Fin 2) = 0 ∧ win0_7.index t (0 : Fin 2) = 0 ∧ win0_7.index t (1 : Fin 2) = 0 ∧ win0_8.index t (0 : Fin 1) = 0 ∧ win0_9.index t (0 : Fin 2) = 0 ∧ win0_9.index t (1 : Fin 2) = 0 ∧ win0_10.index t (0 : Fin 1) = 0 ∧ win0_11.index t (0 : Fin 2) = 0 ∧ win0_11.index t (1 : Fin 2) = 0 ∧ win0_12.index t (0 : Fin 2) = 0 ∧ win0_12.index t (1 : Fin 2) = 0 ∧ win0_13.index t (0 : Fin 2) = 0 ∧ win0_13.index t (1 : Fin 2) = 0)
    ∧ (win0_15.index t (0 : Fin 3) = t.val / 16 ∧ win0_15.index t (1 : Fin 3) = 0 ∧ win0_15.index t (2 : Fin 3) = 0 ∧ win0_16.index t (0 : Fin 3) = t.val / 16 ∧ win0_16.index t (1 : Fin 3) = 0 ∧ win0_16.index t (2 : Fin 3) = 0 ∧ win0_17.index t (0 : Fin 3) = t.val / 16 ∧ win0_17.index t (1 : Fin 3) = 0 ∧ win0_17.index t (2 : Fin 3) = 0 ∧ win0_18.index t (0 : Fin 3) = t.val / 16 ∧ win0_18.index t (1 : Fin 3) = 0 ∧ win0_18.index t (2 : Fin 3) = 0) :=
  (by decide +kernel : ∀ t : Fin grid0.N, _)

/-- Row number of row r of the tile of grid point t: 1024·t + r. -/
def rowAt (t : Fin cfg0.N) (r : Fin 1024) : Fin 32768 :=
  ⟨t.val * 1024 + r.val, by have := t.isLt; have hN : cfg0.N = 32 := N_0; have := r.isLt; omega⟩

/-! ## One tile in the specification's terms

The blocks the body loads at grid point t are rows 1024·t … of the per-residue arrays and the whole weight arrays, so
the tile's feature rows are L at those rows, its projections are U, BG and the chain gate's argument there, and each
accumulator block after the point is what it held plus the tile's one-hot weighted sum. -/

section Tile

variable (m : (ℓ : Loc nD τ sig) → Buf (Elt Ideal) ℓ) (ρ : Dev nD → PrngReg) (c : Dev nD)

theorem blk0_apply (t : Fin cfg0.N) (r : Fin 1024) (q : Fin 42) :
    (iblk0 (V1 m ρ) c 0 t : Vec Ideal S1024x42 .f32) (ix2 r q) = (V1 m ρ c main_v3 : S32768x42.Idx → EReal) (ix2 (rowAt t r) q) := by
  obtain ⟨⟨e0a, e0b, e1a, e1b, e2a, e2b, e3a, e3b, e4a, e4b, e5a, e5b⟩, -, -⟩ := idx_facts t
  unfold iblk0
  rw [View.read_apply]
  show V1 m ρ c main_v3 _ = V1 m ρ c main_v3 _
  congr 1
  funext a
  apply Fin.ext
  match a with
  | ⟨0, _⟩ => show win0_0.index t (0 : Fin 2) * 1024 + 1 * r.val = t.val * 1024 + r.val; rw [e0a]; omega
  | ⟨1, _⟩ => show win0_0.index t (1 : Fin 2) * 42 + 1 * q.val = q.val; rw [e0b]; omega

theorem blk1_apply (t : Fin cfg0.N) (r : Fin 1024) (q : Fin 256) :
    (iblk0 (V1 m ρ) c 1 t : Vec Ideal S1024x256 .f32) (ix2 r q) = (V1 m ρ c main_arg2 : S32768x256.Idx → EReal) (ix2 (rowAt t r) q) := by
  obtain ⟨⟨e0a, e0b, e1a, e1b, e2a, e2b, e3a, e3b, e4a, e4b, e5a, e5b⟩, -, -⟩ := idx_facts t
  unfold iblk0
  rw [View.read_apply]
  show V1 m ρ c main_arg2 _ = V1 m ρ c main_arg2 _
  congr 1
  funext a
  apply Fin.ext
  match a with
  | ⟨0, _⟩ => show win0_1.index t (0 : Fin 2) * 1024 + 1 * r.val = t.val * 1024 + r.val; rw [e1a]; omega
  | ⟨1, _⟩ => show win0_1.index t (1 : Fin 2) * 256 + 1 * q.val = q.val; rw [e1b]; omega

theorem blk2_apply (t : Fin cfg0.N) (r : Fin 1024) (q : Fin 256) :
    (iblk0 (V1 m ρ) c 2 t : Vec Ideal S1024x256 .f32) (ix2 r q) = (V1 m ρ c main_arg0 : S32768x256.Idx → EReal) (ix2 (rowAt t r) q) := by
  obtain ⟨⟨e0a, e0b, e1a, e1b, e2a, e2b, e3a, e3b, e4a, e4b, e5a, e5b⟩, -, -⟩ := idx_facts t
  unfold iblk0
  rw [View.read_apply]
  show V1 m ρ c main_arg0 _ = V1 m ρ c main_arg0 _
  congr 1
  funext a
  apply Fin.ext
  match a with
  | ⟨0, _⟩ => show win0_2.index t (0 : Fin 2) * 1024 + 1 * r.val = t.val * 1024 + r.val; rw [e2a]; omega
  | ⟨1, _⟩ => show win0_2.index t (1 : Fin 2) * 256 + 1 * q.val = q.val; rw [e2b]; omega

theorem blk3_apply (t : Fin cfg0.N) (r : Fin 1024) (q : Fin 8) :
    (iblk0 (V1 m ρ) c 3 t : Vec Ideal S1024x8 .f32) (ix2 r q) = (V1 m ρ c main_v10 : S32768x8.Idx → EReal) (ix2 (rowAt t r) q) := by
  obtain ⟨⟨e0a, e0b, e1a, e1b, e2a, e2b, e3a, e3b, e4a, e4b, e5a, e5b⟩, -, -⟩ := idx_facts t
  unfold iblk0
  rw [View.read_apply]
  show V1 m ρ c main_v10 _ = V1 m ρ c main_v10 _
  congr 1
  funext a
  apply Fin.ext
  match a with
  | ⟨0, _⟩ => show win0_3.index t (0 : Fin 2) * 1024 + 1 * r.val = t.val * 1024 + r.val; rw [e3a]; omega
  | ⟨1, _⟩ => show win0_3.index t (1 : Fin 2) * 8 + 1 * q.val = q.val; rw [e3b]; omega

theorem blk4_apply (t : Fin cfg0.N) (r : Fin 1024) (q : Fin 32) :
    (iblk0 (V1 m ρ) c 4 t : Vec Ideal S1024x32 .f32) (ix2 r q) = (V1 m ρ c main_v15 : S32768x32.Idx → EReal) (ix2 (rowAt t r) q) := by
  obtain ⟨⟨e0a, e0b, e1a, e1b, e2a, e2b, e3a, e3b, e4a, e4b, e5a, e5b⟩, -, -⟩ := idx_facts t
  unfold iblk0
  rw [View.read_apply]
  show V1 m ρ c main_v15 _ = V1 m ρ c main_v15 _
  congr 1
  funext a
  apply Fin.ext
  match a with
  | ⟨0, _⟩ => show win0_4.index t (0 : Fin 2) * 1024 + 1 * r.val = t.val * 1024 + r.val; rw [e4a]; omega
  | ⟨1, _⟩ => show win0_4.index t (1 : Fin 2) * 32 + 1 * q.val = q.val; rw [e4b]; omega

theorem blk5_apply (t : Fin cfg0.N) (r : Fin 1024) (q : Fin 1) :
    (iblk0 (V1 m ρ) c 5 t : Vec Ideal S1024x1 .f32) (ix2 r q) = (V1 m ρ c main_v5 : S32768x1.Idx → EReal) (ix2 (rowAt t r) q) := by
  obtain ⟨⟨e0a, e0b, e1a, e1b, e2a, e2b, e3a, e3b, e4a, e4b, e5a, e5b⟩, -, -⟩ := idx_facts t
  unfold iblk0
  rw [View.read_apply]
  show V1 m ρ c main_v5 _ = V1 m ρ c main_v5 _
  congr 1
  funext a
  apply Fin.ext
  match a with
  | ⟨0, _⟩ => show win0_5.index t (0 : Fin 2) * 1024 + 1 * r.val = t.val * 1024 + r.val; rw [e5a]; omega
  | ⟨1, _⟩ => show win0_5.index t (1 : Fin 2) * 1 + 1 * q.val = q.val; rw [e5b]; omega

theorem blk6_eq (t : Fin cfg0.N) :
    (iblk0 (V1 m ρ) c 6 t : Vec Ideal S256x256 .bf16) = (V1 m ρ c main_v16 : S256x256.Idx → EReal) := by
  obtain ⟨-, ⟨z6_0, z6_1, z7_0, z7_1, z8_0, z9_0, z9_1, z10_0, z11_0, z11_1, z12_0, z12_1, z13_0, z13_1⟩, -⟩ := idx_facts t
  funext y
  unfold iblk0
  rw [View.read_apply]
  show V1 m ρ c main_v16 _ = V1 m ρ c main_v16 _
  congr 1
  funext a
  apply Fin.ext
  match a with
  | ⟨0, _⟩ => show win0_6.index t (0 : Fin 2) * 256 + 1 * (y 0).val = (y 0).val; rw [z6_0]; omega
  | ⟨1, _⟩ => show win0_6.index t (1 : Fin 2) * 256 + 1 * (y 1).val = (y 1).val; rw [z6_1]; omega

theorem blk7_eq (t : Fin cfg0.N) :
    (iblk0 (V1 m ρ) c 7 t : Vec Ideal S42x512 .bf16) = (V1 m ρ c main_v17 : S42x512.Idx → EReal) := by
  obtain ⟨-, ⟨z6_0, z6_1, z7_0, z7_1, z8_0, z9_0, z9_1, z10_0, z11_0, z11_1, z12_0, z12_1, z13_0, z13_1⟩, -⟩ := idx_facts t
  funext y
  unfold iblk0
  rw [View.read_apply]
  show V1 m ρ c main_v17 _ = V1 m ρ c main_v17 _
  congr 1
  funext a
  apply Fin.ext
  match a with
  | ⟨0, _⟩ => show win0_7.index t (0 : Fin 2) * 42 + 1 * (y 0).val = (y 0).val; rw [z7_0]; omega
  | ⟨1, _⟩ => show win0_7.index t (1 : Fin 2) * 512 + 1 * (y 1).val = (y 1).val; rw [z7_1]; omega

theorem blk8_eq (t : Fin cfg0.N) :
    (iblk0 (V1 m ρ) c 8 t : Vec Ideal S512 .f32) = (V1 m ρ c main_arg8 : S512.Idx → EReal) := by
  obtain ⟨-, ⟨z6_0, z6_1, z7_0, z7_1, z8_0, z9_0, z9_1, z10_0, z11_0, z11_1, z12_0, z12_1, z13_0, z13_1⟩, -⟩ := idx_facts t
  funext y
  unfold iblk0
  rw [View.read_apply]
  show V1 m ρ c main_arg8 _ = V1 m ρ c main_arg8 _
  congr 1
  funext a
  apply Fin.ext
  match a with
  | ⟨0, _⟩ => show win0_8.index t (0 : Fin 1) * 512 + 1 * (y 0).val = (y 0).val; rw [z8_0]; omega

theorem blk9_eq (t : Fin cfg0.N) :
    (iblk0 (V1 m ρ) c 9 t : Vec Ideal S512x256 .bf16) = (V1 m ρ c main_v18 : S512x256.Idx → EReal) := by
  obtain ⟨-, ⟨z6_0, z6_1, z7_0, z7_1, z8_0, z9_0, z9_1, z10_0, z11_0, z11_1, z12_0, z12_1, z13_0, z13_1⟩, -⟩ := idx_facts t
  funext y
  unfold iblk0
  rw [View.read_apply]
  show V1 m ρ c main_v18 _ = V1 m ρ c main_v18 _
  congr 1
  funext a
  apply Fin.ext
  match a with
  | ⟨0, _⟩ => show win0_9.index t (0 : Fin 2) * 512 + 1 * (y 0).val = (y 0).val; rw [z9_0]; omega
  | ⟨1, _⟩ => show win0_9.index t (1 : Fin 2) * 256 + 1 * (y 1).val = (y 1).val; rw [z9_1]; omega

theorem blk10_eq (t : Fin cfg0.N) :
    (iblk0 (V1 m ρ) c 10 t : Vec Ideal S256 .f32) = (V1 m ρ c main_arg10 : S256.Idx → EReal) := by
  obtain ⟨-, ⟨z6_0, z6_1, z7_0, z7_1, z8_0, z9_0, z9_1, z10_0, z11_0, z11_1, z12_0, z12_1, z13_0, z13_1⟩, -⟩ := idx_facts t
  funext y
  unfold iblk0
  rw [View.read_apply]
  show V1 m ρ c main_arg10 _ = V1 m ρ c main_arg10 _
  congr 1
  funext a
  apply Fin.ext
  match a with
  | ⟨0, _⟩ => show win0_10.index t (0 : Fin 1) * 256 + 1 * (y 0).val = (y 0).val; rw [z10_0]; omega

theorem blk11_eq (t : Fin cfg0.N) :
    (iblk0 (V1 m ρ) c 11 t : Vec Ideal S256x1024 .bf16) = (V1 m ρ c main_v19 : S256x1024.Idx → EReal) := by
  obtain ⟨-, ⟨z6_0, z6_1, z7_0, z7_1, z8_0, z9_0, z9_1, z10_0, z11_0, z11_1, z12_0, z12_1, z13_0, z13_1⟩, -⟩ := idx_facts t
  funext y
  unfold iblk0
  rw [View.read_apply]
  show V1 m ρ c main_v19 _ = V1 m ρ c main_v19 _
  congr 1
  funext a
  apply Fin.ext
  match a with
  | ⟨0, _⟩ => show win0_11.index t (0 : Fin 2) * 256 + 1 * (y 0).val = (y 0).val; rw [z11_0]; omega
  | ⟨1, _⟩ => show win0_11.index t (1 : Fin 2) * 1024 + 1 * (y 1).val = (y 1).val; rw [z11_1]; omega

theorem blk12_eq (t : Fin cfg0.N) :
    (iblk0 (V1 m ρ) c 12 t : Vec Ideal S256x1024 .bf16) = (V1 m ρ c main_v22 : S256x1024.Idx → EReal) := by
  obtain ⟨-, ⟨z6_0, z6_1, z7_0, z7_1, z8_0, z9_0, z9_1, z10_0, z11_0, z11_1, z12_0, z12_1, z13_0, z13_1⟩, -⟩ := idx_facts t
  funext y
  unfold iblk0
  rw [View.read_apply]
  show V1 m ρ c main_v22 _ = V1 m ρ c main_v22 _
  congr 1
  funext a
  apply Fin.ext
  match a with
  | ⟨0, _⟩ => show win0_12.index t (0 : Fin 2) * 256 + 1 * (y 0).val = (y 0).val; rw [z12_0]; omega
  | ⟨1, _⟩ => show win0_12.index t (1 : Fin 2) * 1024 + 1 * (y 1).val = (y 1).val; rw [z12_1]; omega

theorem blk13_eq (t : Fin cfg0.N) :
    (iblk0 (V1 m ρ) c 13 t : Vec Ideal S256x1024 .bf16) = (V1 m ρ c main_v21 : S256x1024.Idx → EReal) := by
  obtain ⟨-, ⟨z6_0, z6_1, z7_0, z7_1, z8_0, z9_0, z9_1, z10_0, z11_0, z11_1, z12_0, z12_1, z13_0, z13_1⟩, -⟩ := idx_facts t
  funext y
  unfold iblk0
  rw [View.read_apply]
  show V1 m ρ c main_v21 _ = V1 m ρ c main_v21 _
  congr 1
  funext a
  apply Fin.ext
  match a with
  | ⟨0, _⟩ => show win0_13.index t (0 : Fin 2) * 256 + 1 * (y 0).val = (y 0).val; rw [z13_0]; omega
  | ⟨1, _⟩ => show win0_13.index t (1 : Fin 2) * 1024 + 1 * (y 1).val = (y 1).val; rw [z13_1]; omega

abbrev B0 (t : Fin cfg0.N) : Vec Ideal S1024x42 .f32 := iblk0 (V1 m ρ) c 0 t
abbrev B1 (t : Fin cfg0.N) : Vec Ideal S1024x256 .f32 := iblk0 (V1 m ρ) c 1 t
abbrev B2 (t : Fin cfg0.N) : Vec Ideal S1024x256 .f32 := iblk0 (V1 m ρ) c 2 t
abbrev B3 (t : Fin cfg0.N) : Vec Ideal S1024x8 .f32 := iblk0 (V1 m ρ) c 3 t
abbrev B4 (t : Fin cfg0.N) : Vec Ideal S1024x32 .f32 := iblk0 (V1 m ρ) c 4 t
abbrev B5 (t : Fin cfg0.N) : Vec Ideal S1024x1 .f32 := iblk0 (V1 m ρ) c 5 t
abbrev B6 (t : Fin cfg0.N) : Vec Ideal S256x256 .bf16 := iblk0 (V1 m ρ) c 6 t
abbrev B7 (t : Fin cfg0.N) : Vec Ideal S42x512 .bf16 := iblk0 (V1 m ρ) c 7 t
abbrev B8 (t : Fin cfg0.N) : Vec Ideal S512 .f32 := iblk0 (V1 m ρ) c 8 t
abbrev B9 (t : Fin cfg0.N) : Vec Ideal S512x256 .bf16 := iblk0 (V1 m ρ) c 9 t
abbrev B10 (t : Fin cfg0.N) : Vec Ideal S256 .f32 := iblk0 (V1 m ρ) c 10 t
abbrev B11 (t : Fin cfg0.N) : Vec Ideal S256x1024 .bf16 := iblk0 (V1 m ρ) c 11 t
abbrev B12 (t : Fin cfg0.N) : Vec Ideal S256x1024 .bf16 := iblk0 (V1 m ρ) c 12 t
abbrev B13 (t : Fin cfg0.N) : Vec Ideal S256x1024 .bf16 := iblk0 (V1 m ρ) c 13 t

theorem B6_eq (t : Fin cfg0.N) : (B6 m ρ c t : S256x256.Idx → EReal) = (argsK m c).Wc :=
  (blk6_eq m ρ c t).trans (V1_Wc m ρ c)
theorem B7_eq (t : Fin cfg0.N) : (B7 m ρ c t : S42x512.Idx → EReal) = (argsK m c).W1 :=
  (blk7_eq m ρ c t).trans (V1_W1 m ρ c)
theorem B8_eq (t : Fin cfg0.N) : (B8 m ρ c t : S512.Idx → EReal) = (argsK m c).b1 :=
  (blk8_eq m ρ c t).trans (V1_b1 m ρ c)
theorem B9_eq (t : Fin cfg0.N) : (B9 m ρ c t : S512x256.Idx → EReal) = (argsK m c).W2 :=
  (blk9_eq m ρ c t).trans (V1_W2 m ρ c)
theorem B10_eq (t : Fin cfg0.N) : (B10 m ρ c t : S256.Idx → EReal) = (argsK m c).b2 :=
  (blk10_eq m ρ c t).trans (V1_b2 m ρ c)
theorem B11_eq (t : Fin cfg0.N) : (B11 m ρ c t : S256x1024.Idx → EReal) = (argsK m c).Wu :=
  (blk11_eq m ρ c t).trans (V1_Wu m ρ c)
theorem B12_eq (t : Fin cfg0.N) : (B12 m ρ c t : S256x1024.Idx → EReal) = (argsK m c).Wbg :=
  (blk12_eq m ρ c t).trans (V1_Wbg m ρ c)
theorem B13_eq (t : Fin cfg0.N) : (B13 m ρ c t : S256x1024.Idx → EReal) = (argsK m c).Wcg :=
  (blk13_eq m ρ c t).trans (V1_Wcg m ρ c)

theorem B0_apply (t : Fin cfg0.N) (r : Fin 1024) (j : Fin 42) :
    (B0 m ρ c t : S1024x42.Idx → EReal) (ix2 r j) = Cert.Spec.lp (argsK m c) (rowAt t r) j :=
  (blk0_apply m ρ c t r j).trans (V1_lpos m ρ c (rowAt t r) j)
theorem B1_apply (t : Fin cfg0.N) (r : Fin 1024) (k : Fin 256) :
    (B1 m ρ c t : S1024x256.Idx → EReal) (ix2 r k) = (argsK m c).cond (ix2 (rowAt t r) k) :=
  (blk1_apply m ρ c t r k).trans (congrFun (V1_cond m ρ c) _)
theorem B2_apply (t : Fin cfg0.N) (r : Fin 1024) (d : Fin 256) :
    (B2 m ρ c t : S1024x256.Idx → EReal) (ix2 r d) = (argsK m c).loc (ix2 (rowAt t r) d) :=
  (blk2_apply m ρ c t r d).trans (congrFun (V1_loc m ρ c) _)
theorem B3_apply (t : Fin cfg0.N) (r : Fin 1024) (s : Fin 8) :
    (B3 m ρ c t : S1024x8.Idx → EReal) (ix2 r s) = Cert.Spec.oh ((argsK m c).batch (ix1 (rowAt t r))) s.val :=
  (blk3_apply m ρ c t r s).trans (V1_ohb m ρ c (rowAt t r) s)
theorem B4_apply (t : Fin cfg0.N) (r : Fin 1024) (s : Fin 32) :
    (B4 m ρ c t : S1024x32.Idx → EReal) (ix2 r s) = Cert.Spec.oh ((argsK m c).chain (ix1 (rowAt t r))) s.val :=
  (blk4_apply m ρ c t r s).trans (V1_ohc m ρ c (rowAt t r) s)
theorem B5_apply (t : Fin cfg0.N) (r : Fin 1024) :
    (B5 m ρ c t : S1024x1.Idx → EReal) (ix2 r (0 : Fin 1)) = Cert.Spec.mf (argsK m c) (rowAt t r) :=
  (blk5_apply m ρ c t r (0 : Fin 1)).trans (V1_mf m ρ c (rowAt t r))

/-- The mask, one-hot and coordinate loads are re-cast to their own shape: the identity. -/
theorem pay6_eq (v : Vec Ideal S1024x1 .f32) : k0_pay6 (F := Ideal) v = v := by unfold k0_pay6; exact shapeCast_self v _
theorem pay7_eq (v : Vec Ideal S1024x8 .f32) : k0_pay7 (F := Ideal) v = v := by unfold k0_pay7; exact shapeCast_self v _
theorem pay8_eq (v : Vec Ideal S1024x32 .f32) : k0_pay8 (F := Ideal) v = v := by unfold k0_pay8; exact shapeCast_self v _

/-- The tile's feature rows: L at the tile's rows. -/
theorem Lblk_apply (t : Fin cfg0.N) (r : Fin 1024) (d : Fin 256) :
    (k0_pay12 (F := Ideal) (k0_pay9 (B1 m ρ c t) (B2 m ρ c t) (B6 m ρ c t)) (k0_pay10 (B0 m ρ c t) (B7 m ρ c t) (B8 m ρ c t)) (k0_pay11 (B0 m ρ c t) (B7 m ρ c t) (B8 m ρ c t)) (B9 m ρ c t) (B10 m ρ c t) : S1024x256.Idx → EReal) (ix2 r d) = Cert.Spec.L (argsK m c) (rowAt t r) d := by
  refine (pay_local (B0 m ρ c t) (B1 m ρ c t) (B2 m ρ c t) (B6 m ρ c t) (B7 m ρ c t) (B8 m ρ c t) (B9 m ρ c t) (B10 m ρ c t) r d).trans ?_
  rw [B6_eq m ρ c t, B7_eq m ρ c t, B8_eq m ρ c t, B9_eq m ρ c t, B10_eq m ρ c t]
  simp only [B0_apply m ρ c t, B1_apply m ρ c t, B2_apply m ρ c t]
  rfl

/-- The tile's projection u: U at the tile's rows. -/
theorem Ublk_apply (t : Fin cfg0.N) (r : Fin 1024) (f : Fin 1024) :
    (k0_pay13 (F := Ideal) (k0_pay9 (B1 m ρ c t) (B2 m ρ c t) (B6 m ρ c t)) (k0_pay10 (B0 m ρ c t) (B7 m ρ c t) (B8 m ρ c t)) (k0_pay11 (B0 m ρ c t) (B7 m ρ c t) (B8 m ρ c t)) (B9 m ρ c t) (B10 m ρ c t) (B11 m ρ c t) : S1024x1024.Idx → EReal) (ix2 r f) = Cert.Spec.U (argsK m c) (rowAt t r) f := by
  refine (pay13_apply _ _ _ _ _ (B11 m ρ c t) r f).trans ?_
  exact Finset.sum_congr rfl fun d _ => congrArg₂ (· * ·) (Lblk_apply m ρ c t r d) (congrFun (B11_eq m ρ c t) _)

/-- The tile's batch gate: BG at the tile's rows. -/
theorem BGblk_apply (t : Fin cfg0.N) (r : Fin 1024) (f : Fin 1024) :
    (k0_pay14 (F := Ideal) (k0_pay9 (B1 m ρ c t) (B2 m ρ c t) (B6 m ρ c t)) (k0_pay10 (B0 m ρ c t) (B7 m ρ c t) (B8 m ρ c t)) (k0_pay11 (B0 m ρ c t) (B7 m ρ c t) (B8 m ρ c t)) (B9 m ρ c t) (B10 m ρ c t) (B12 m ρ c t) : S1024x1024.Idx → EReal) (ix2 r f) = Cert.Spec.BG (argsK m c) (rowAt t r) f := by
  refine (pay14_apply _ _ _ _ _ (B12 m ρ c t) r f).trans ?_
  exact congrArg Cert.Spec.gelu (Finset.sum_congr rfl fun d _ => congrArg₂ (· * ·) (Lblk_apply m ρ c t r d) (congrFun (B12_eq m ρ c t) _))

/-- The tile's chain gate: its gelu is CG at the tile's rows. -/
theorem CGblk_apply (t : Fin cfg0.N) (r : Fin 1024) (f : Fin 1024) :
    Cert.Spec.gelu ((k0_pay15 (F := Ideal) (k0_pay9 (B1 m ρ c t) (B2 m ρ c t) (B6 m ρ c t)) (k0_pay10 (B0 m ρ c t) (B7 m ρ c t) (B8 m ρ c t)) (k0_pay11 (B0 m ρ c t) (B7 m ρ c t) (B8 m ρ c t)) (B9 m ρ c t) (B10 m ρ c t) (B13 m ρ c t) : S1024x1024.Idx → EReal) (ix2 r f)) = Cert.Spec.CG (argsK m c) (rowAt t r) f := by
  refine congrArg Cert.Spec.gelu ((pay15_apply _ _ _ _ _ (B13 m ρ c t) r f).trans ?_)
  exact Finset.sum_congr rfl fun d _ => congrArg₂ (· * ·) (Lblk_apply m ρ c t r d) (congrFun (B13_eq m ρ c t) _)

/-- What a point's body leaves in each accumulator block, as a function of what the block held. -/
def step15 (t : Fin cfg0.N) (p : S1x8x1024.Idx → EReal) : S1x8x1024.Idx → EReal :=
  k0_pay16 (k0_pay6 (B5 m ρ c t)) (k0_pay7 (B3 m ρ c t)) (k0_pay13 (k0_pay9 (B1 m ρ c t) (B2 m ρ c t) (B6 m ρ c t)) (k0_pay10 (B0 m ρ c t) (B7 m ρ c t) (B8 m ρ c t)) (k0_pay11 (B0 m ρ c t) (B7 m ρ c t) (B8 m ρ c t)) (B9 m ρ c t) (B10 m ρ c t) (B11 m ρ c t)) (k0_pay14 (k0_pay9 (B1 m ρ c t) (B2 m ρ c t) (B6 m ρ c t)) (k0_pay10 (B0 m ρ c t) (B7 m ρ c t) (B8 m ρ c t)) (k0_pay11 (B0 m ρ c t) (B7 m ρ c t) (B8 m ρ c t)) (B9 m ρ c t) (B10 m ρ c t) (B12 m ρ c t)) p
def step16 (t : Fin cfg0.N) (p : S1x8x1.Idx → EReal) : S1x8x1.Idx → EReal :=
  k0_pay17 (k0_pay6 (B5 m ρ c t)) (k0_pay7 (B3 m ρ c t)) p
def step17 (t : Fin cfg0.N) (p : S1x32x1024.Idx → EReal) : S1x32x1024.Idx → EReal :=
  k0_pay18 (k0_pay6 (B5 m ρ c t)) (k0_pay8 (B4 m ρ c t)) (k0_pay13 (k0_pay9 (B1 m ρ c t) (B2 m ρ c t) (B6 m ρ c t)) (k0_pay10 (B0 m ρ c t) (B7 m ρ c t) (B8 m ρ c t)) (k0_pay11 (B0 m ρ c t) (B7 m ρ c t) (B8 m ρ c t)) (B9 m ρ c t) (B10 m ρ c t) (B11 m ρ c t)) (k0_pay15 (k0_pay9 (B1 m ρ c t) (B2 m ρ c t) (B6 m ρ c t)) (k0_pay10 (B0 m ρ c t) (B7 m ρ c t) (B8 m ρ c t)) (k0_pay11 (B0 m ρ c t) (B7 m ρ c t) (B8 m ρ c t)) (B9 m ρ c t) (B10 m ρ c t) (B13 m ρ c t)) p
def step18 (t : Fin cfg0.N) (p : S1x32x1.Idx → EReal) : S1x32x1.Idx → EReal :=
  k0_pay1 (k0_pay6 (B5 m ρ c t)) (k0_pay8 (B4 m ρ c t)) p

/-- The tile's addends: the one-hot weighted sums over the tile's 1024 rows. -/
def add15 (t : Fin cfg0.N) (i : S1x8x1024.Idx) : EReal :=
  ∑ r : Fin 1024, Cert.Spec.oh ((argsK m c).batch (ix1 (rowAt t r))) (i 1).val * Cert.Spec.Xb (argsK m c) (rowAt t r) (i 2)
def add16 (t : Fin cfg0.N) (i : S1x8x1.Idx) : EReal :=
  ∑ r : Fin 1024, Cert.Spec.oh ((argsK m c).batch (ix1 (rowAt t r))) (i 1).val * Cert.Spec.mf (argsK m c) (rowAt t r)
def add17 (t : Fin cfg0.N) (i : S1x32x1024.Idx) : EReal :=
  ∑ r : Fin 1024, Cert.Spec.oh ((argsK m c).chain (ix1 (rowAt t r))) (i 1).val * Cert.Spec.Xc (argsK m c) (rowAt t r) (i 2)
def add18 (t : Fin cfg0.N) (i : S1x32x1.Idx) : EReal :=
  ∑ r : Fin 1024, Cert.Spec.oh ((argsK m c).chain (ix1 (rowAt t r))) (i 1).val * Cert.Spec.mf (argsK m c) (rowAt t r)

theorem step15_apply (t : Fin cfg0.N) (p : S1x8x1024.Idx → EReal) (i : S1x8x1024.Idx) :
    step15 m ρ c t p i = p i + add15 m c t i := by
  obtain ⟨u, s, f, rfl⟩ : ∃ (u : Fin 1) (s : Fin 8) (f : Fin 1024), i = ix3 u s f := ⟨i 0, i 1, i 2, eq_ix3 i⟩
  obtain rfl : u = 0 := Subsingleton.elim _ _
  unfold step15 add15
  rw [pay6_eq, pay7_eq]
  refine (pay16_apply _ _ _ _ p s f).trans (congrArg (_ + ·) ?_)
  exact Finset.sum_congr rfl fun r _ => congrArg₂ (· * ·) (B3_apply m ρ c t r s)
    (congrArg₂ (· * ·) (congrArg₂ (· * ·) (BGblk_apply m ρ c t r f) (Ublk_apply m ρ c t r f)) (B5_apply m ρ c t r))

theorem step16_apply (t : Fin cfg0.N) (p : S1x8x1.Idx → EReal) (i : S1x8x1.Idx) :
    step16 m ρ c t p i = p i + add16 m c t i := by
  obtain ⟨u, s, z, rfl⟩ : ∃ (u : Fin 1) (s : Fin 8) (z : Fin 1), i = ix3 u s z := ⟨i 0, i 1, i 2, eq_ix3 i⟩
  obtain rfl : u = 0 := Subsingleton.elim _ _
  obtain rfl : z = 0 := Subsingleton.elim _ _
  unfold step16 add16
  rw [pay6_eq, pay7_eq]
  refine (pay17_apply _ _ p s).trans (congrArg (_ + ·) ?_)
  exact Finset.sum_congr rfl fun r _ => congrArg₂ (· * ·) (B3_apply m ρ c t r s) (B5_apply m ρ c t r)

theorem step17_apply (t : Fin cfg0.N) (p : S1x32x1024.Idx → EReal) (i : S1x32x1024.Idx) :
    step17 m ρ c t p i = p i + add17 m c t i := by
  obtain ⟨u, s, f, rfl⟩ : ∃ (u : Fin 1) (s : Fin 32) (f : Fin 1024), i = ix3 u s f := ⟨i 0, i 1, i 2, eq_ix3 i⟩
  obtain rfl : u = 0 := Subsingleton.elim _ _
  unfold step17 add17
  rw [pay6_eq, pay8_eq]
  refine (pay18_apply _ _ _ _ p s f).trans (congrArg (_ + ·) ?_)
  exact Finset.sum_congr rfl fun r _ => congrArg₂ (· * ·) (B4_apply m ρ c t r s)
    (congrArg₂ (· * ·) (congrArg₂ (· * ·) (CGblk_apply m ρ c t r f) (Ublk_apply m ρ c t r f)) (B5_apply m ρ c t r))

theorem step18_apply (t : Fin cfg0.N) (p : S1x32x1.Idx → EReal) (i : S1x32x1.Idx) :
    step18 m ρ c t p i = p i + add18 m c t i := by
  obtain ⟨u, s, z, rfl⟩ : ∃ (u : Fin 1) (s : Fin 32) (z : Fin 1), i = ix3 u s z := ⟨i 0, i 1, i 2, eq_ix3 i⟩
  obtain rfl : u = 0 := Subsingleton.elim _ _
  obtain rfl : z = 0 := Subsingleton.elim _ _
  unfold step18 add18
  rw [pay6_eq, pay8_eq]
  refine (pay1_apply _ _ p s).trans (congrArg (_ + ·) ?_)
  exact Finset.sum_congr rfl fun r _ => congrArg₂ (· * ·) (B4_apply m ρ c t r s) (B5_apply m ρ c t r)

end Tile

/-! ## The accumulation over a half, and the arrays after the run

What a block holds after a point resets at the first tile of each half and adds the tile's sum at every other tile, so
after the last tile of half k it holds the sum over the half's 16 tiles: half k's share. Only that point writes the
block back, to slab k of the array; the two slabs cover the array. -/

section Fold

variable (m : (ℓ : Loc nD τ sig) → Buf (Elt Ideal) ℓ) (ρ : Dev nD → PrngReg) (c : Dev nD)

/-! ### Window 15: the batch segments' masked sums -/

/-- What the block holds after grid point t. -/
abbrev acc15 (t : Fin cfg0.N) : S1x8x1024.Idx → EReal := (outsAt0 (V1 m ρ) c t.val t.isLt).2.1

/-- At the first tile of a half the block is zeroed and the tile's sum added. -/
theorem acc15_first (t : Fin cfg0.N) (h0 : t.val % 16 = 0) : acc15 m ρ c t = step15 m ρ c t (k0_pay2 (F := Ideal)) := by
  show (outsAt0 (V1 m ρ) c t.val t.isLt).2.1 = _
  rw [outsAt0_A (V1 m ρ) c t h0]
  dsimp only
  exact piece15_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (B0 m ρ c t) (B1 m ρ c t) (B2 m ρ c t) (B3 m ρ c t) (B4 m ρ c t) (B5 m ρ c t) (B6 m ρ c t) (B7 m ρ c t) (B8 m ρ c t) (B9 m ρ c t) (B10 m ρ c t) (B11 m ρ c t) (B12 m ρ c t) (B13 m ρ c t)

/-- At every other tile the tile's sum is added to what the point before left. -/
theorem acc15_next (t : Fin cfg0.N) (h0 : ¬t.val % 16 = 0) :
    acc15 m ρ c t = step15 m ρ c t (outsAt0 (V1 m ρ) c (t.val - 1) (Nat.lt_of_le_of_lt (Nat.sub_le _ _) t.isLt)).2.1 := by
  show (outsAt0 (V1 m ρ) c t.val t.isLt).2.1 = _
  rw [outsAt0_B (V1 m ρ) c t h0]
  dsimp only
  exact piece15_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (B0 m ρ c t) (B1 m ρ c t) (B2 m ρ c t) (B3 m ρ c t) (B4 m ρ c t) (B5 m ρ c t) (B6 m ρ c t) (B7 m ρ c t) (B8 m ρ c t) (B9 m ρ c t) (B10 m ρ c t) (B11 m ρ c t) (B12 m ρ c t) (B13 m ρ c t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 (outsAt0 (V1 m ρ) c (t.val - 1) (Nat.lt_of_le_of_lt (Nat.sub_le _ _) t.isLt)).2.2.2.1 (outsAt0 (V1 m ρ) c (t.val - 1) (Nat.lt_of_le_of_lt (Nat.sub_le _ _) t.isLt)).2.2.2.2

/-- The tile's addend as a function of the point's number. -/
def addN15 (n : ℕ) (i : S1x8x1024.Idx) : EReal := if h : n < cfg0.N then add15 m c ⟨n, h⟩ i else 0

theorem zero15 (i : S1x8x1024.Idx) : (k0_pay2 (F := Ideal) : S1x8x1024.Idx → EReal) i = 0 := by
  unfold k0_pay2
  exact Ideal.ofBits_zero_f32

/-- After point t the block holds the sum of the addends of the points of t's half up to t. -/
theorem acc15_fold (t : Fin cfg0.N) (i : S1x8x1024.Idx) :
    acc15 m ρ c t i = 0 + ∑ s ∈ Finset.range (t.val % 16 + 1), addN15 m c (16 * (t.val / 16) + s) i := by
  have h' : 16 * (t.val / 16) + t.val % 16 < cfg0.N := by rw [Nat.div_add_mod]; exact t.isLt
  have e := Pipeline.eq_accAt_of_mod (α := S1x8x1024.Idx → EReal) (fun n h => (outsAt0 (V1 m ρ) c n h).2.1) 16
    (fun n h => step15 m ρ c ⟨n, h⟩ (k0_pay2 (F := Ideal))) (fun n h p => step15 m ρ c ⟨n, h⟩ p)
    (fun n h hn => acc15_first m ρ c ⟨n, h⟩ hn) (fun n h hn => acc15_next m ρ c ⟨n + 1, h⟩ hn) (by decide) t.val t.isLt h'
  refine (congrFun e i).trans ?_
  refine Pipeline.accAt_add_apply (ι := S1x8x1024.Idx) (β := EReal) _ _ (fun _ => 0) (addN15 m c) (16 * (t.val / 16)) 15 ?_ ?_ (t.val % 16) (by omega) h' i
  · intro h j
    show step15 m ρ c ⟨_, h⟩ (k0_pay2 (F := Ideal)) j = 0 + addN15 m c _ j
    rw [step15_apply, zero15]
    unfold addN15
    rw [dif_pos h]
  · intro n h acc j _ _
    show step15 m ρ c ⟨n, h⟩ acc j = acc j + addN15 m c n j
    rw [step15_apply]
    unfold addN15
    rw [dif_pos h]

/-- After the last tile of half k the block holds half k's share. -/
theorem slab15 (t : Fin cfg0.N) (hf : t.val % 16 = 15) (k : Fin 2) (hk : k.val = t.val / 16) (i : S1x8x1024.Idx) :
    acc15 m ρ c t i = Cert.Spec.SbPart (argsK m c) k (i 1) (i 2) := by
  have hN : cfg0.N = 32 := N_0
  have e16 : t.val % 16 + 1 = 16 := by omega
  rw [acc15_fold, e16, zero_add, Finset.sum_range]
  unfold Cert.Spec.SbPart
  refine Finset.sum_congr rfl fun j _ => ?_
  have hlt : 16 * (t.val / 16) + j.val < cfg0.N := by have := t.isLt; have := j.isLt; omega
  unfold addN15
  rw [dif_pos hlt]
  unfold add15
  refine Finset.sum_congr rfl fun r _ => ?_
  have er : rowAt ⟨16 * (t.val / 16) + j.val, hlt⟩ r = Cert.Spec.rowOf k j r :=
    Fin.ext (by show (16 * (t.val / 16) + j.val) * 1024 + r.val = (k.val * 16 + j.val) * 1024 + r.val; rw [hk]; omega)
  rw [er]

/-- The array the four write-backs leave: slab k is half k's share. -/
def G15 : S2x8x1024.Idx → EReal := fun j => Cert.Spec.SbPart (argsK m c) (j 0) (j 1) (j 2)

/-- What a flushing point writes back is its block of that array. -/
theorem flushed15 (t : Fin cfg0.N) (hf : (cfg0.win 15).flush t = true) :
    (dat0 (V1 m ρ) c).flushed 15 t = ((cfg0.win 15).blk t).view.read (Elt Ideal) (G15 m c) := by
  have hN : cfg0.N = 32 := N_0
  have h15 : t.val % 16 = 15 := (flush0_15 t).mp hf
  obtain ⟨-, -, ⟨e0, e1, e2, -, -, -, -, -, -, -, -, -⟩⟩ := idx_facts t
  show (cfg0.win 15).cut (grid0.coords t) ((dat0 (V1 m ρ) c).after 15 t) = _
  rw [after0_15]
  funext y
  rw [View.read_apply]
  have hy0 : (y 0).val < 1 := (y 0).isLt
  have k0 : (((cfg0.win 15).blk t).view.emb y 0).val = t.val / 16 := by
    show win0_15.index t (0 : Fin 3) * 1 + 1 * (y 0).val = t.val / 16; rw [e0]; omega
  have k1 : ((cfg0.win 15).blk t).view.emb y 1 = y 1 := Fin.ext (by
    show win0_15.index t (1 : Fin 3) * 8 + 1 * (y 1).val = (y 1).val; rw [e1]; omega)
  have k2 : ((cfg0.win 15).blk t).view.emb y 2 = y 2 := Fin.ext (by
    show win0_15.index t (2 : Fin 3) * 1024 + 1 * (y 2).val = (y 2).val; rw [e2]; omega)
  show acc15 m ρ c t y = G15 m c (((cfg0.win 15).blk t).view.emb y)
  unfold G15
  rw [k1, k2]
  exact slab15 m ρ c t h15 _ k0 y

/-- Slab k is covered by the last point of half k. -/
theorem cover15 (i : S2x8x1024.Idx) :
    ∃ t : Fin cfg0.N, (cfg0.win 15).flush t = true ∧ i ∈ ((cfg0.win 15).blk t).view.set := by
  have hN : cfg0.N = 32 := N_0
  have h0 : (i 0).val < 2 := (i 0).isLt
  have h1 : (i 1).val < 8 := (i 1).isLt
  have h2 : (i 2).val < 1024 := (i 2).isLt
  obtain ⟨t, ht⟩ : ∃ t : Fin cfg0.N, t.val = 16 * (i 0).val + 15 := ⟨⟨16 * (i 0).val + 15, by omega⟩, rfl⟩
  obtain ⟨-, -, ⟨e0, e1, e2, -, -, -, -, -, -, -, -, -⟩⟩ := idx_facts t
  refine ⟨t, (flush0_15 t).mpr (by omega), ?_⟩
  show i ∈ ((View.whole main_v24_1).slice (win0_15.rect t)).set
  rw [View.set_slice_whole, Rect.mem_set_unit]
  intro a
  match a with
  | ⟨0, _⟩ =>
    show win0_15.index t (0 : Fin 3) * 1 ≤ (i 0).val ∧ (i 0).val < win0_15.index t (0 : Fin 3) * 1 + 1
    rw [e0]; omega
  | ⟨1, _⟩ =>
    show win0_15.index t (1 : Fin 3) * 8 ≤ (i 1).val ∧ (i 1).val < win0_15.index t (1 : Fin 3) * 8 + 8
    rw [e1]; omega
  | ⟨2, _⟩ =>
    show win0_15.index t (2 : Fin 3) * 1024 ≤ (i 2).val ∧ (i 2).val < win0_15.index t (2 : Fin 3) * 1024 + 1024
    rw [e2]; omega

/-- The array after the run. -/
theorem final15 : (dat0 (V1 m ρ) c).arrAt 15 cfg0.N = G15 m c :=
  (dat0 (V1 m ρ) c).arrAt_eq_of_cover 15 (G15 m c) (flushed15 m ρ c) (cover15)

/-! ### Window 16: the batch segments' masked counts -/

/-- What the block holds after grid point t. -/
abbrev acc16 (t : Fin cfg0.N) : S1x8x1.Idx → EReal := (outsAt0 (V1 m ρ) c t.val t.isLt).2.2.1

/-- At the first tile of a half the block is zeroed and the tile's sum added. -/
theorem acc16_first (t : Fin cfg0.N) (h0 : t.val % 16 = 0) : acc16 m ρ c t = step16 m ρ c t (k0_pay3 (F := Ideal)) := by
  show (outsAt0 (V1 m ρ) c t.val t.isLt).2.2.1 = _
  rw [outsAt0_A (V1 m ρ) c t h0]
  dsimp only
  exact piece16_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (B0 m ρ c t) (B1 m ρ c t) (B2 m ρ c t) (B3 m ρ c t) (B4 m ρ c t) (B5 m ρ c t) (B6 m ρ c t) (B7 m ρ c t) (B8 m ρ c t) (B9 m ρ c t) (B10 m ρ c t) (B11 m ρ c t) (B12 m ρ c t) (B13 m ρ c t)

/-- At every other tile the tile's sum is added to what the point before left. -/
theorem acc16_next (t : Fin cfg0.N) (h0 : ¬t.val % 16 = 0) :
    acc16 m ρ c t = step16 m ρ c t (outsAt0 (V1 m ρ) c (t.val - 1) (Nat.lt_of_le_of_lt (Nat.sub_le _ _) t.isLt)).2.2.1 := by
  show (outsAt0 (V1 m ρ) c t.val t.isLt).2.2.1 = _
  rw [outsAt0_B (V1 m ρ) c t h0]
  dsimp only
  exact piece16_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (B0 m ρ c t) (B1 m ρ c t) (B2 m ρ c t) (B3 m ρ c t) (B4 m ρ c t) (B5 m ρ c t) (B6 m ρ c t) (B7 m ρ c t) (B8 m ρ c t) (B9 m ρ c t) (B10 m ρ c t) (B11 m ρ c t) (B12 m ρ c t) (B13 m ρ c t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 (outsAt0 (V1 m ρ) c (t.val - 1) (Nat.lt_of_le_of_lt (Nat.sub_le _ _) t.isLt)).2.2.2.1 (outsAt0 (V1 m ρ) c (t.val - 1) (Nat.lt_of_le_of_lt (Nat.sub_le _ _) t.isLt)).2.2.2.2

/-- The tile's addend as a function of the point's number. -/
def addN16 (n : ℕ) (i : S1x8x1.Idx) : EReal := if h : n < cfg0.N then add16 m c ⟨n, h⟩ i else 0

theorem zero16 (i : S1x8x1.Idx) : (k0_pay3 (F := Ideal) : S1x8x1.Idx → EReal) i = 0 := by
  unfold k0_pay3
  exact Ideal.ofBits_zero_f32

/-- After point t the block holds the sum of the addends of the points of t's half up to t. -/
theorem acc16_fold (t : Fin cfg0.N) (i : S1x8x1.Idx) :
    acc16 m ρ c t i = 0 + ∑ s ∈ Finset.range (t.val % 16 + 1), addN16 m c (16 * (t.val / 16) + s) i := by
  have h' : 16 * (t.val / 16) + t.val % 16 < cfg0.N := by rw [Nat.div_add_mod]; exact t.isLt
  have e := Pipeline.eq_accAt_of_mod (α := S1x8x1.Idx → EReal) (fun n h => (outsAt0 (V1 m ρ) c n h).2.2.1) 16
    (fun n h => step16 m ρ c ⟨n, h⟩ (k0_pay3 (F := Ideal))) (fun n h p => step16 m ρ c ⟨n, h⟩ p)
    (fun n h hn => acc16_first m ρ c ⟨n, h⟩ hn) (fun n h hn => acc16_next m ρ c ⟨n + 1, h⟩ hn) (by decide) t.val t.isLt h'
  refine (congrFun e i).trans ?_
  refine Pipeline.accAt_add_apply (ι := S1x8x1.Idx) (β := EReal) _ _ (fun _ => 0) (addN16 m c) (16 * (t.val / 16)) 15 ?_ ?_ (t.val % 16) (by omega) h' i
  · intro h j
    show step16 m ρ c ⟨_, h⟩ (k0_pay3 (F := Ideal)) j = 0 + addN16 m c _ j
    rw [step16_apply, zero16]
    unfold addN16
    rw [dif_pos h]
  · intro n h acc j _ _
    show step16 m ρ c ⟨n, h⟩ acc j = acc j + addN16 m c n j
    rw [step16_apply]
    unfold addN16
    rw [dif_pos h]

/-- After the last tile of half k the block holds half k's share. -/
theorem slab16 (t : Fin cfg0.N) (hf : t.val % 16 = 15) (k : Fin 2) (hk : k.val = t.val / 16) (i : S1x8x1.Idx) :
    acc16 m ρ c t i = Cert.Spec.NbPart (argsK m c) k (i 1) := by
  have hN : cfg0.N = 32 := N_0
  have e16 : t.val % 16 + 1 = 16 := by omega
  rw [acc16_fold, e16, zero_add, Finset.sum_range]
  unfold Cert.Spec.NbPart
  refine Finset.sum_congr rfl fun j _ => ?_
  have hlt : 16 * (t.val / 16) + j.val < cfg0.N := by have := t.isLt; have := j.isLt; omega
  unfold addN16
  rw [dif_pos hlt]
  unfold add16
  refine Finset.sum_congr rfl fun r _ => ?_
  have er : rowAt ⟨16 * (t.val / 16) + j.val, hlt⟩ r = Cert.Spec.rowOf k j r :=
    Fin.ext (by show (16 * (t.val / 16) + j.val) * 1024 + r.val = (k.val * 16 + j.val) * 1024 + r.val; rw [hk]; omega)
  rw [er]

/-- The array the four write-backs leave: slab k is half k's share. -/
def G16 : S2x8x1.Idx → EReal := fun j => Cert.Spec.NbPart (argsK m c) (j 0) (j 1)

/-- What a flushing point writes back is its block of that array. -/
theorem flushed16 (t : Fin cfg0.N) (hf : (cfg0.win 16).flush t = true) :
    (dat0 (V1 m ρ) c).flushed 16 t = ((cfg0.win 16).blk t).view.read (Elt Ideal) (G16 m c) := by
  have hN : cfg0.N = 32 := N_0
  have h15 : t.val % 16 = 15 := (flush0_16 t).mp hf
  obtain ⟨-, -, ⟨-, -, -, e0, e1, e2, -, -, -, -, -, -⟩⟩ := idx_facts t
  show (cfg0.win 16).cut (grid0.coords t) ((dat0 (V1 m ρ) c).after 16 t) = _
  rw [after0_16]
  funext y
  rw [View.read_apply]
  have hy0 : (y 0).val < 1 := (y 0).isLt
  have k0 : (((cfg0.win 16).blk t).view.emb y 0).val = t.val / 16 := by
    show win0_16.index t (0 : Fin 3) * 1 + 1 * (y 0).val = t.val / 16; rw [e0]; omega
  have k1 : ((cfg0.win 16).blk t).view.emb y 1 = y 1 := Fin.ext (by
    show win0_16.index t (1 : Fin 3) * 8 + 1 * (y 1).val = (y 1).val; rw [e1]; omega)
  have k2 : ((cfg0.win 16).blk t).view.emb y 2 = y 2 := Fin.ext (by
    show win0_16.index t (2 : Fin 3) * 1 + 1 * (y 2).val = (y 2).val; rw [e2]; omega)
  show acc16 m ρ c t y = G16 m c (((cfg0.win 16).blk t).view.emb y)
  unfold G16
  rw [k1]
  exact slab16 m ρ c t h15 _ k0 y

/-- Slab k is covered by the last point of half k. -/
theorem cover16 (i : S2x8x1.Idx) :
    ∃ t : Fin cfg0.N, (cfg0.win 16).flush t = true ∧ i ∈ ((cfg0.win 16).blk t).view.set := by
  have hN : cfg0.N = 32 := N_0
  have h0 : (i 0).val < 2 := (i 0).isLt
  have h1 : (i 1).val < 8 := (i 1).isLt
  have h2 : (i 2).val < 1 := (i 2).isLt
  obtain ⟨t, ht⟩ : ∃ t : Fin cfg0.N, t.val = 16 * (i 0).val + 15 := ⟨⟨16 * (i 0).val + 15, by omega⟩, rfl⟩
  obtain ⟨-, -, ⟨-, -, -, e0, e1, e2, -, -, -, -, -, -⟩⟩ := idx_facts t
  refine ⟨t, (flush0_16 t).mpr (by omega), ?_⟩
  show i ∈ ((View.whole main_v24_2).slice (win0_16.rect t)).set
  rw [View.set_slice_whole, Rect.mem_set_unit]
  intro a
  match a with
  | ⟨0, _⟩ =>
    show win0_16.index t (0 : Fin 3) * 1 ≤ (i 0).val ∧ (i 0).val < win0_16.index t (0 : Fin 3) * 1 + 1
    rw [e0]; omega
  | ⟨1, _⟩ =>
    show win0_16.index t (1 : Fin 3) * 8 ≤ (i 1).val ∧ (i 1).val < win0_16.index t (1 : Fin 3) * 8 + 8
    rw [e1]; omega
  | ⟨2, _⟩ =>
    show win0_16.index t (2 : Fin 3) * 1 ≤ (i 2).val ∧ (i 2).val < win0_16.index t (2 : Fin 3) * 1 + 1
    rw [e2]; omega

/-- The array after the run. -/
theorem final16 : (dat0 (V1 m ρ) c).arrAt 16 cfg0.N = G16 m c :=
  (dat0 (V1 m ρ) c).arrAt_eq_of_cover 16 (G16 m c) (flushed16 m ρ c) (cover16)

/-! ### Window 17: the chain segments' masked sums -/

/-- What the block holds after grid point t. -/
abbrev acc17 (t : Fin cfg0.N) : S1x32x1024.Idx → EReal := (outsAt0 (V1 m ρ) c t.val t.isLt).2.2.2.1

/-- At the first tile of a half the block is zeroed and the tile's sum added. -/
theorem acc17_first (t : Fin cfg0.N) (h0 : t.val % 16 = 0) : acc17 m ρ c t = step17 m ρ c t (k0_pay4 (F := Ideal)) := by
  show (outsAt0 (V1 m ρ) c t.val t.isLt).2.2.2.1 = _
  rw [outsAt0_A (V1 m ρ) c t h0]
  dsimp only
  exact piece17_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (B0 m ρ c t) (B1 m ρ c t) (B2 m ρ c t) (B3 m ρ c t) (B4 m ρ c t) (B5 m ρ c t) (B6 m ρ c t) (B7 m ρ c t) (B8 m ρ c t) (B9 m ρ c t) (B10 m ρ c t) (B11 m ρ c t) (B12 m ρ c t) (B13 m ρ c t)

/-- At every other tile the tile's sum is added to what the point before left. -/
theorem acc17_next (t : Fin cfg0.N) (h0 : ¬t.val % 16 = 0) :
    acc17 m ρ c t = step17 m ρ c t (outsAt0 (V1 m ρ) c (t.val - 1) (Nat.lt_of_le_of_lt (Nat.sub_le _ _) t.isLt)).2.2.2.1 := by
  show (outsAt0 (V1 m ρ) c t.val t.isLt).2.2.2.1 = _
  rw [outsAt0_B (V1 m ρ) c t h0]
  dsimp only
  exact piece17_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (B0 m ρ c t) (B1 m ρ c t) (B2 m ρ c t) (B3 m ρ c t) (B4 m ρ c t) (B5 m ρ c t) (B6 m ρ c t) (B7 m ρ c t) (B8 m ρ c t) (B9 m ρ c t) (B10 m ρ c t) (B11 m ρ c t) (B12 m ρ c t) (B13 m ρ c t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 (outsAt0 (V1 m ρ) c (t.val - 1) (Nat.lt_of_le_of_lt (Nat.sub_le _ _) t.isLt)).2.2.2.1 (outsAt0 (V1 m ρ) c (t.val - 1) (Nat.lt_of_le_of_lt (Nat.sub_le _ _) t.isLt)).2.2.2.2

/-- The tile's addend as a function of the point's number. -/
def addN17 (n : ℕ) (i : S1x32x1024.Idx) : EReal := if h : n < cfg0.N then add17 m c ⟨n, h⟩ i else 0

theorem zero17 (i : S1x32x1024.Idx) : (k0_pay4 (F := Ideal) : S1x32x1024.Idx → EReal) i = 0 := by
  unfold k0_pay4
  exact Ideal.ofBits_zero_f32

/-- After point t the block holds the sum of the addends of the points of t's half up to t. -/
theorem acc17_fold (t : Fin cfg0.N) (i : S1x32x1024.Idx) :
    acc17 m ρ c t i = 0 + ∑ s ∈ Finset.range (t.val % 16 + 1), addN17 m c (16 * (t.val / 16) + s) i := by
  have h' : 16 * (t.val / 16) + t.val % 16 < cfg0.N := by rw [Nat.div_add_mod]; exact t.isLt
  have e := Pipeline.eq_accAt_of_mod (α := S1x32x1024.Idx → EReal) (fun n h => (outsAt0 (V1 m ρ) c n h).2.2.2.1) 16
    (fun n h => step17 m ρ c ⟨n, h⟩ (k0_pay4 (F := Ideal))) (fun n h p => step17 m ρ c ⟨n, h⟩ p)
    (fun n h hn => acc17_first m ρ c ⟨n, h⟩ hn) (fun n h hn => acc17_next m ρ c ⟨n + 1, h⟩ hn) (by decide) t.val t.isLt h'
  refine (congrFun e i).trans ?_
  refine Pipeline.accAt_add_apply (ι := S1x32x1024.Idx) (β := EReal) _ _ (fun _ => 0) (addN17 m c) (16 * (t.val / 16)) 15 ?_ ?_ (t.val % 16) (by omega) h' i
  · intro h j
    show step17 m ρ c ⟨_, h⟩ (k0_pay4 (F := Ideal)) j = 0 + addN17 m c _ j
    rw [step17_apply, zero17]
    unfold addN17
    rw [dif_pos h]
  · intro n h acc j _ _
    show step17 m ρ c ⟨n, h⟩ acc j = acc j + addN17 m c n j
    rw [step17_apply]
    unfold addN17
    rw [dif_pos h]

/-- After the last tile of half k the block holds half k's share. -/
theorem slab17 (t : Fin cfg0.N) (hf : t.val % 16 = 15) (k : Fin 2) (hk : k.val = t.val / 16) (i : S1x32x1024.Idx) :
    acc17 m ρ c t i = Cert.Spec.ScPart (argsK m c) k (i 1) (i 2) := by
  have hN : cfg0.N = 32 := N_0
  have e16 : t.val % 16 + 1 = 16 := by omega
  rw [acc17_fold, e16, zero_add, Finset.sum_range]
  unfold Cert.Spec.ScPart
  refine Finset.sum_congr rfl fun j _ => ?_
  have hlt : 16 * (t.val / 16) + j.val < cfg0.N := by have := t.isLt; have := j.isLt; omega
  unfold addN17
  rw [dif_pos hlt]
  unfold add17
  refine Finset.sum_congr rfl fun r _ => ?_
  have er : rowAt ⟨16 * (t.val / 16) + j.val, hlt⟩ r = Cert.Spec.rowOf k j r :=
    Fin.ext (by show (16 * (t.val / 16) + j.val) * 1024 + r.val = (k.val * 16 + j.val) * 1024 + r.val; rw [hk]; omega)
  rw [er]

/-- The array the four write-backs leave: slab k is half k's share. -/
def G17 : S2x32x1024.Idx → EReal := fun j => Cert.Spec.ScPart (argsK m c) (j 0) (j 1) (j 2)

/-- What a flushing point writes back is its block of that array. -/
theorem flushed17 (t : Fin cfg0.N) (hf : (cfg0.win 17).flush t = true) :
    (dat0 (V1 m ρ) c).flushed 17 t = ((cfg0.win 17).blk t).view.read (Elt Ideal) (G17 m c) := by
  have hN : cfg0.N = 32 := N_0
  have h15 : t.val % 16 = 15 := (flush0_17 t).mp hf
  obtain ⟨-, -, ⟨-, -, -, -, -, -, e0, e1, e2, -, -, -⟩⟩ := idx_facts t
  show (cfg0.win 17).cut (grid0.coords t) ((dat0 (V1 m ρ) c).after 17 t) = _
  rw [after0_17]
  funext y
  rw [View.read_apply]
  have hy0 : (y 0).val < 1 := (y 0).isLt
  have k0 : (((cfg0.win 17).blk t).view.emb y 0).val = t.val / 16 := by
    show win0_17.index t (0 : Fin 3) * 1 + 1 * (y 0).val = t.val / 16; rw [e0]; omega
  have k1 : ((cfg0.win 17).blk t).view.emb y 1 = y 1 := Fin.ext (by
    show win0_17.index t (1 : Fin 3) * 32 + 1 * (y 1).val = (y 1).val; rw [e1]; omega)
  have k2 : ((cfg0.win 17).blk t).view.emb y 2 = y 2 := Fin.ext (by
    show win0_17.index t (2 : Fin 3) * 1024 + 1 * (y 2).val = (y 2).val; rw [e2]; omega)
  show acc17 m ρ c t y = G17 m c (((cfg0.win 17).blk t).view.emb y)
  unfold G17
  rw [k1, k2]
  exact slab17 m ρ c t h15 _ k0 y

/-- Slab k is covered by the last point of half k. -/
theorem cover17 (i : S2x32x1024.Idx) :
    ∃ t : Fin cfg0.N, (cfg0.win 17).flush t = true ∧ i ∈ ((cfg0.win 17).blk t).view.set := by
  have hN : cfg0.N = 32 := N_0
  have h0 : (i 0).val < 2 := (i 0).isLt
  have h1 : (i 1).val < 32 := (i 1).isLt
  have h2 : (i 2).val < 1024 := (i 2).isLt
  obtain ⟨t, ht⟩ : ∃ t : Fin cfg0.N, t.val = 16 * (i 0).val + 15 := ⟨⟨16 * (i 0).val + 15, by omega⟩, rfl⟩
  obtain ⟨-, -, ⟨-, -, -, -, -, -, e0, e1, e2, -, -, -⟩⟩ := idx_facts t
  refine ⟨t, (flush0_17 t).mpr (by omega), ?_⟩
  show i ∈ ((View.whole main_v24_3).slice (win0_17.rect t)).set
  rw [View.set_slice_whole, Rect.mem_set_unit]
  intro a
  match a with
  | ⟨0, _⟩ =>
    show win0_17.index t (0 : Fin 3) * 1 ≤ (i 0).val ∧ (i 0).val < win0_17.index t (0 : Fin 3) * 1 + 1
    rw [e0]; omega
  | ⟨1, _⟩ =>
    show win0_17.index t (1 : Fin 3) * 32 ≤ (i 1).val ∧ (i 1).val < win0_17.index t (1 : Fin 3) * 32 + 32
    rw [e1]; omega
  | ⟨2, _⟩ =>
    show win0_17.index t (2 : Fin 3) * 1024 ≤ (i 2).val ∧ (i 2).val < win0_17.index t (2 : Fin 3) * 1024 + 1024
    rw [e2]; omega

/-- The array after the run. -/
theorem final17 : (dat0 (V1 m ρ) c).arrAt 17 cfg0.N = G17 m c :=
  (dat0 (V1 m ρ) c).arrAt_eq_of_cover 17 (G17 m c) (flushed17 m ρ c) (cover17)

/-! ### Window 18: the chain segments' masked counts -/

/-- What the block holds after grid point t. -/
abbrev acc18 (t : Fin cfg0.N) : S1x32x1.Idx → EReal := (outsAt0 (V1 m ρ) c t.val t.isLt).2.2.2.2

/-- At the first tile of a half the block is zeroed and the tile's sum added. -/
theorem acc18_first (t : Fin cfg0.N) (h0 : t.val % 16 = 0) : acc18 m ρ c t = step18 m ρ c t (k0_pay5 (F := Ideal)) := by
  show (outsAt0 (V1 m ρ) c t.val t.isLt).2.2.2.2 = _
  rw [outsAt0_A (V1 m ρ) c t h0]
  dsimp only
  exact piece18_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (B0 m ρ c t) (B1 m ρ c t) (B2 m ρ c t) (B3 m ρ c t) (B4 m ρ c t) (B5 m ρ c t) (B6 m ρ c t) (B7 m ρ c t) (B8 m ρ c t) (B9 m ρ c t) (B10 m ρ c t) (B11 m ρ c t) (B12 m ρ c t) (B13 m ρ c t)

/-- At every other tile the tile's sum is added to what the point before left. -/
theorem acc18_next (t : Fin cfg0.N) (h0 : ¬t.val % 16 = 0) :
    acc18 m ρ c t = step18 m ρ c t (outsAt0 (V1 m ρ) c (t.val - 1) (Nat.lt_of_le_of_lt (Nat.sub_le _ _) t.isLt)).2.2.2.2 := by
  show (outsAt0 (V1 m ρ) c t.val t.isLt).2.2.2.2 = _
  rw [outsAt0_B (V1 m ρ) c t h0]
  dsimp only
  exact piece18_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) (B0 m ρ c t) (B1 m ρ c t) (B2 m ρ c t) (B3 m ρ c t) (B4 m ρ c t) (B5 m ρ c t) (B6 m ρ c t) (B7 m ρ c t) (B8 m ρ c t) (B9 m ρ c t) (B10 m ρ c t) (B11 m ρ c t) (B12 m ρ c t) (B13 m ρ c t) (outsAt0 (V1 m ρ) c (t.val - 1) (Nat.lt_of_le_of_lt (Nat.sub_le _ _) t.isLt)).2.1 (outsAt0 (V1 m ρ) c (t.val - 1) (Nat.lt_of_le_of_lt (Nat.sub_le _ _) t.isLt)).2.2.1 (outsAt0 (V1 m ρ) c (t.val - 1) (Nat.lt_of_le_of_lt (Nat.sub_le _ _) t.isLt)).2.2.2.1 (outsAt0 (V1 m ρ) c (t.val - 1) (Nat.lt_of_le_of_lt (Nat.sub_le _ _) t.isLt)).2.2.2.2

/-- The tile's addend as a function of the point's number. -/
def addN18 (n : ℕ) (i : S1x32x1.Idx) : EReal := if h : n < cfg0.N then add18 m c ⟨n, h⟩ i else 0

theorem zero18 (i : S1x32x1.Idx) : (k0_pay5 (F := Ideal) : S1x32x1.Idx → EReal) i = 0 := by
  unfold k0_pay5
  exact Ideal.ofBits_zero_f32

/-- After point t the block holds the sum of the addends of the points of t's half up to t. -/
theorem acc18_fold (t : Fin cfg0.N) (i : S1x32x1.Idx) :
    acc18 m ρ c t i = 0 + ∑ s ∈ Finset.range (t.val % 16 + 1), addN18 m c (16 * (t.val / 16) + s) i := by
  have h' : 16 * (t.val / 16) + t.val % 16 < cfg0.N := by rw [Nat.div_add_mod]; exact t.isLt
  have e := Pipeline.eq_accAt_of_mod (α := S1x32x1.Idx → EReal) (fun n h => (outsAt0 (V1 m ρ) c n h).2.2.2.2) 16
    (fun n h => step18 m ρ c ⟨n, h⟩ (k0_pay5 (F := Ideal))) (fun n h p => step18 m ρ c ⟨n, h⟩ p)
    (fun n h hn => acc18_first m ρ c ⟨n, h⟩ hn) (fun n h hn => acc18_next m ρ c ⟨n + 1, h⟩ hn) (by decide) t.val t.isLt h'
  refine (congrFun e i).trans ?_
  refine Pipeline.accAt_add_apply (ι := S1x32x1.Idx) (β := EReal) _ _ (fun _ => 0) (addN18 m c) (16 * (t.val / 16)) 15 ?_ ?_ (t.val % 16) (by omega) h' i
  · intro h j
    show step18 m ρ c ⟨_, h⟩ (k0_pay5 (F := Ideal)) j = 0 + addN18 m c _ j
    rw [step18_apply, zero18]
    unfold addN18
    rw [dif_pos h]
  · intro n h acc j _ _
    show step18 m ρ c ⟨n, h⟩ acc j = acc j + addN18 m c n j
    rw [step18_apply]
    unfold addN18
    rw [dif_pos h]

/-- After the last tile of half k the block holds half k's share. -/
theorem slab18 (t : Fin cfg0.N) (hf : t.val % 16 = 15) (k : Fin 2) (hk : k.val = t.val / 16) (i : S1x32x1.Idx) :
    acc18 m ρ c t i = Cert.Spec.NcPart (argsK m c) k (i 1) := by
  have hN : cfg0.N = 32 := N_0
  have e16 : t.val % 16 + 1 = 16 := by omega
  rw [acc18_fold, e16, zero_add, Finset.sum_range]
  unfold Cert.Spec.NcPart
  refine Finset.sum_congr rfl fun j _ => ?_
  have hlt : 16 * (t.val / 16) + j.val < cfg0.N := by have := t.isLt; have := j.isLt; omega
  unfold addN18
  rw [dif_pos hlt]
  unfold add18
  refine Finset.sum_congr rfl fun r _ => ?_
  have er : rowAt ⟨16 * (t.val / 16) + j.val, hlt⟩ r = Cert.Spec.rowOf k j r :=
    Fin.ext (by show (16 * (t.val / 16) + j.val) * 1024 + r.val = (k.val * 16 + j.val) * 1024 + r.val; rw [hk]; omega)
  rw [er]

/-- The array the four write-backs leave: slab k is half k's share. -/
def G18 : S2x32x1.Idx → EReal := fun j => Cert.Spec.NcPart (argsK m c) (j 0) (j 1)

/-- What a flushing point writes back is its block of that array. -/
theorem flushed18 (t : Fin cfg0.N) (hf : (cfg0.win 18).flush t = true) :
    (dat0 (V1 m ρ) c).flushed 18 t = ((cfg0.win 18).blk t).view.read (Elt Ideal) (G18 m c) := by
  have hN : cfg0.N = 32 := N_0
  have h15 : t.val % 16 = 15 := (flush0_18 t).mp hf
  obtain ⟨-, -, ⟨-, -, -, -, -, -, -, -, -, e0, e1, e2⟩⟩ := idx_facts t
  show (cfg0.win 18).cut (grid0.coords t) ((dat0 (V1 m ρ) c).after 18 t) = _
  rw [after0_18]
  funext y
  rw [View.read_apply]
  have hy0 : (y 0).val < 1 := (y 0).isLt
  have k0 : (((cfg0.win 18).blk t).view.emb y 0).val = t.val / 16 := by
    show win0_18.index t (0 : Fin 3) * 1 + 1 * (y 0).val = t.val / 16; rw [e0]; omega
  have k1 : ((cfg0.win 18).blk t).view.emb y 1 = y 1 := Fin.ext (by
    show win0_18.index t (1 : Fin 3) * 32 + 1 * (y 1).val = (y 1).val; rw [e1]; omega)
  have k2 : ((cfg0.win 18).blk t).view.emb y 2 = y 2 := Fin.ext (by
    show win0_18.index t (2 : Fin 3) * 1 + 1 * (y 2).val = (y 2).val; rw [e2]; omega)
  show acc18 m ρ c t y = G18 m c (((cfg0.win 18).blk t).view.emb y)
  unfold G18
  rw [k1]
  exact slab18 m ρ c t h15 _ k0 y

/-- Slab k is covered by the last point of half k. -/
theorem cover18 (i : S2x32x1.Idx) :
    ∃ t : Fin cfg0.N, (cfg0.win 18).flush t = true ∧ i ∈ ((cfg0.win 18).blk t).view.set := by
  have hN : cfg0.N = 32 := N_0
  have h0 : (i 0).val < 2 := (i 0).isLt
  have h1 : (i 1).val < 32 := (i 1).isLt
  have h2 : (i 2).val < 1 := (i 2).isLt
  obtain ⟨t, ht⟩ : ∃ t : Fin cfg0.N, t.val = 16 * (i 0).val + 15 := ⟨⟨16 * (i 0).val + 15, by omega⟩, rfl⟩
  obtain ⟨-, -, ⟨-, -, -, -, -, -, -, -, -, e0, e1, e2⟩⟩ := idx_facts t
  refine ⟨t, (flush0_18 t).mpr (by omega), ?_⟩
  show i ∈ ((View.whole main_v24_4).slice (win0_18.rect t)).set
  rw [View.set_slice_whole, Rect.mem_set_unit]
  intro a
  match a with
  | ⟨0, _⟩ =>
    show win0_18.index t (0 : Fin 3) * 1 ≤ (i 0).val ∧ (i 0).val < win0_18.index t (0 : Fin 3) * 1 + 1
    rw [e0]; omega
  | ⟨1, _⟩ =>
    show win0_18.index t (1 : Fin 3) * 32 ≤ (i 1).val ∧ (i 1).val < win0_18.index t (1 : Fin 3) * 32 + 32
    rw [e1]; omega
  | ⟨2, _⟩ =>
    show win0_18.index t (2 : Fin 3) * 1 ≤ (i 2).val ∧ (i 2).val < win0_18.index t (2 : Fin 3) * 1 + 1
    rw [e2]; omega

/-- The array after the run. -/
theorem final18 : (dat0 (V1 m ρ) c).arrAt 18 cfg0.N = G18 m c :=
  (dat0 (V1 m ρ) c).arrAt_eq_of_cover 18 (G18 m c) (flushed18 m ρ c) (cover18)

end Fold

end Cert.KernelIdeal.KV.Acc

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

theorem arr15 (k : Fin 2) (s : Fin 8) (f : Fin 1024) :
    ((dat0 (V1 m ρ) c).arrAt 15 cfg0.N : S2x8x1024.Idx → EReal) (ix3 k s f) = Cert.Spec.SbPart (argsK m c) k s f :=
  congrFun (Acc.final15 m ρ c) (ix3 k s f)

theorem arr16 (k : Fin 2) (s : Fin 8) :
    ((dat0 (V1 m ρ) c).arrAt 16 cfg0.N : S2x8x1.Idx → EReal) (ix3 k s (0 : Fin 1)) = Cert.Spec.NbPart (argsK m c) k s :=
  congrFun (Acc.final16 m ρ c) (ix3 k s (0 : Fin 1))

theorem arr17 (k : Fin 2) (s : Fin 32) (f : Fin 1024) :
    ((dat0 (V1 m ρ) c).arrAt 17 cfg0.N : S2x32x1024.Idx → EReal) (ix3 k s f) = Cert.Spec.ScPart (argsK m c) k s f :=
  congrFun (Acc.final17 m ρ c) (ix3 k s f)

theorem arr18 (k : Fin 2) (s : Fin 32) :
    ((dat0 (V1 m ρ) c).arrAt 18 cfg0.N : S2x32x1.Idx → EReal) (ix3 k s (0 : Fin 1)) = Cert.Spec.NcPart (argsK m c) k s :=
  congrFun (Acc.final18 m ρ c) (ix3 k s (0 : Fin 1))

end Cert.KernelIdeal.KV

end
-- ==== Proof.SpecSums.lean ====
/-
  Sums of extended reals used on both sides.
  The 32768 rows are 2 halves of 16 tiles of 1024 rows, so the two halves' shares of a segment's sum add up to the
  sum over all rows. A one-hot weighted sum over the segments picks the entry of the id's own segment when the id is
  a segment number; a one-hot weighted sum over the rows is the sum over the rows whose id, read signed, is the segment.
  0 * x = 0 and 1 * x = x hold for every extended real, so none of this needs finiteness.
-/
import proofs.«408712_j4063039062804_2_alg».proof.Proof.Spec
import Mathlib.Algebra.BigOperators.Fin
import Mathlib.Logic.Equiv.Fin.Basic
import Mathlib.Data.Fintype.BigOperators

noncomputable section

open scoped BigOperators

namespace Cert.Spec

open Idealize.ShloMosaic Idealize.ShloMosaic.ValueIdx

/-- A natural below 2 ^ 31, as a 32-bit word, reads signed as itself. -/
private theorem toInt_ofNat_small (g : ℕ) (hg : g < 2 ^ 31) : (BitVec.ofNat 32 g).toInt = (g : ℤ) := by
  have hn : (BitVec.ofNat 32 g).toNat = g := by
    rw [BitVec.toNat_ofNat]; exact Nat.mod_eq_of_lt (by omega)
  rw [BitVec.toInt_eq_toNat_cond, hn]
  rw [if_pos (by omega)]

/-- A word is the word of a natural below 2 ^ 31 exactly when its signed reading is that natural. -/
private theorem eq_ofNat_iff (w : BitVec 32) (g : ℕ) (hg : g < 2 ^ 31) :
    w = BitVec.ofNat 32 g ↔ w.toInt = (g : ℤ) := by
  rw [← BitVec.toInt_inj, toInt_ofNat_small g hg]

/-- The one-hot weight is 1 or 0 according to the signed reading of the word. -/
private theorem oh_eq (w : BitVec 32) (g : ℕ) (hg : g < 2 ^ 31) :
    oh w g = if w.toInt = (g : ℤ) then 1 else 0 := by
  unfold oh
  exact if_congr (eq_ofNat_iff w g hg) rfl rfl

/-- The 32768 rows, taken half by half, tile by tile, row by row, are all the rows once each:
    row (k, t, r) is number (16 k + t) · 1024 + r. -/
private theorem sum_rows {M : Type*} [AddCommMonoid M] (F : Fin 32768 → M) :
    ∑ k : Fin 2, ∑ t : Fin 16, ∑ r : Fin 1024, F (rowOf k t r) = ∑ n : Fin 32768, F n := by
  have e1 : ∑ k : Fin 2, ∑ t : Fin 16, ∑ r : Fin 1024, F (rowOf k t r)
      = ∑ x : (Fin 2 × Fin 16) × Fin 1024, F (rowOf x.1.1 x.1.2 x.2) := by
    rw [Fintype.sum_prod_type, Fintype.sum_prod_type]
  rw [e1]
  refine Fintype.sum_equiv
    ((Equiv.prodCongr finProdFinEquiv (Equiv.refl (Fin 1024))).trans finProdFinEquiv) _ _ ?_
  rintro ⟨⟨k, t⟩, r⟩
  refine congrArg F (Fin.ext ?_)
  simp only [rowOf, Equiv.trans_apply, Equiv.prodCongr_apply, Prod.map_apply, Equiv.refl_apply,
    finProdFinEquiv_apply_val]
  ring

variable (a : Args)

theorem sum_SbPart (s : Fin 8) (f : Fin 1024) : ∑ k : Fin 2, SbPart a k s f = Sb a s f := by
  unfold SbPart Sb
  exact sum_rows fun n => oh (a.batch (ix1 n)) s.val * Xb a n f
theorem sum_NbPart (s : Fin 8) : ∑ k : Fin 2, NbPart a k s = Nb a s := by
  unfold NbPart Nb
  exact sum_rows fun n => oh (a.batch (ix1 n)) s.val * mf a n
theorem sum_ScPart (s : Fin 32) (f : Fin 1024) : ∑ k : Fin 2, ScPart a k s f = Sc a s f := by
  unfold ScPart Sc
  exact sum_rows fun n => oh (a.chain (ix1 n)) s.val * Xc a n f
theorem sum_NcPart (s : Fin 32) : ∑ k : Fin 2, NcPart a k s = Nc a s := by
  unfold NcPart Nc
  exact sum_rows fun n => oh (a.chain (ix1 n)) s.val * mf a n

/-- An id word whose signed reading is a segment number picks that segment's entry. -/
theorem sum_oh_pick (G : ℕ) (hG : G < 2 ^ 31) (w : BitVec 32) (M : Fin G → EReal)
    (h0 : 0 ≤ w.toInt) (h1 : w.toInt < (G : ℤ)) :
    ∑ s : Fin G, oh w s.val * M s = M ⟨w.toInt.toNat, by omega⟩ := by
  have hv : w.toInt = ((w.toInt.toNat : ℕ) : ℤ) := (Int.toNat_of_nonneg h0).symm
  rw [Finset.sum_eq_single (⟨w.toInt.toNat, by omega⟩ : Fin G)]
  · rw [oh_eq w _ (by omega), if_pos hv, one_mul]
  · intro s _ hs
    have hlt : s.val < 2 ^ 31 := by have := s.isLt; omega
    have hne : ¬ w.toInt = (s.val : ℤ) := fun h => hs (Fin.ext (by simp only; omega))
    rw [oh_eq w _ hlt, if_neg hne, zero_mul]
  · intro h
    exact absurd (Finset.mem_univ _) h

/-- A one-hot weighted sum over the rows is the sum over the rows whose id, read signed, is the segment. -/
theorem sum_oh_cond (w : Fin 32768 → BitVec 32) (g : ℕ) (hg : g < 2 ^ 31) (h : Fin 32768 → EReal) :
    ∑ n, oh (w n) g * h n = ∑ n, if (w n).toInt = (g : ℤ) then h n else 0 := by
  refine Finset.sum_congr rfl fun n _ => ?_
  rw [oh_eq (w n) g hg]
  by_cases hc : (w n).toInt = (g : ℤ)
  · rw [if_pos hc, if_pos hc, one_mul]
  · rw [if_neg hc, if_neg hc, zero_mul]

end Cert.Spec

end
-- ==== Proof.KHost1.lean ====
/-
  What the second pallas_call finds in its operand arrays: the first call's feature rows, the one-hot matrices and
  weights unchanged, and the two tables of segment means the host computes from the accumulator slabs
  (the two halves added, divided by the count floored at eps).
-/
import proofs.«408712_j4063039062804_2_alg».proof.Proof.Gen.KernelIdeal.Frame
import proofs.«408712_j4063039062804_2_alg».proof.Proof.KArgs
import proofs.«408712_j4063039062804_2_alg».proof.Proof.KHost0
import proofs.«408712_j4063039062804_2_alg».proof.Proof.KReg0Local
import proofs.«408712_j4063039062804_2_alg».proof.Proof.KReg0Acc
import proofs.«408712_j4063039062804_2_alg».proof.Proof.SpecSums
import Idealize.ShloMosaic.Lib.ValueIdx
import Idealize.ShloMosaic.Lib.IdealHost
import Idealize.ShloMosaic.Lib.Pipeline.Value

set_option maxRecDepth 16384

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## Buffers the host operations between the two calls leave alone

The eighteen operations write only their own results (four sums, the eps columns, the maxima, the broadcast counts, the
two quotients), so every other buffer holds what the first call left: one of its input arrays as it entered, its first
result array, or a buffer the first call never staged. -/

/-- A buffer none of the eighteen host operations between the two calls writes holds what the first call left. -/
local macro "host1_keeps" : tactic =>
  `(tactic| (refine StableHlo.after_of_forall_not_mem _ _ (List.forall_iff_forall_mem.mp ?_)
             simp only [hostOps1, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The feature rows: the first call's first result array, which holds L row by row. -/
theorem V3_lout (n : Fin 32768) (d : Fin 256) :
    (V3 m ρ c main_v24_0 : S32768x256.Idx → EReal) (ix2 n d) = Cert.Spec.L (argsK m c) n d := by
  have e : W3 m ρ c (Proc.devRef .tc main_v24_0) = (dat0 (V1 m ρ) c).arrAt 14 cfg0.N :=
    calc W3 m ρ c (Proc.devRef .tc main_v24_0)
      _ = W2 m ρ c (Proc.devRef .tc main_v24_0) := by host1_keeps
      _ = (dat0 (V1 m ρ) c).arrAt 14 cfg0.N := W2_arr m ρ c 14
  exact (congrFun e (ix2 n d)).trans (arr14 m ρ c n d)

/-- The batch one-hot matrix: an input array of the first call, so as the first call found it. -/
theorem V3_ohb (n : Fin 32768) (s : Fin 8) :
    (V3 m ρ c main_v10 : S32768x8.Idx → EReal) (ix2 n s) = Cert.Spec.oh ((argsK m c).batch (ix1 n)) s.val := by
  have e : W3 m ρ c (Proc.devRef .tc main_v10) = W1 m ρ c (Proc.devRef .tc main_v10) :=
    calc W3 m ρ c (Proc.devRef .tc main_v10)
      _ = W2 m ρ c (Proc.devRef .tc main_v10) := by host1_keeps
      _ = W1 m ρ c (Proc.devRef .tc main_v10) := (W2_arr m ρ c 3).trans (((dat0 (V1 m ρ) c).arrAt_in 3 rfl _).trans (A_eq0 (V1 m ρ) c 3))
  exact (congrFun e (ix2 n s)).trans (V1_ohb m ρ c n s)

/-- The chain one-hot matrix likewise. -/
theorem V3_ohc (n : Fin 32768) (s : Fin 32) :
    (V3 m ρ c main_v15 : S32768x32.Idx → EReal) (ix2 n s) = Cert.Spec.oh ((argsK m c).chain (ix1 n)) s.val := by
  have e : W3 m ρ c (Proc.devRef .tc main_v15) = W1 m ρ c (Proc.devRef .tc main_v15) :=
    calc W3 m ρ c (Proc.devRef .tc main_v15)
      _ = W2 m ρ c (Proc.devRef .tc main_v15) := by host1_keeps
      _ = W1 m ρ c (Proc.devRef .tc main_v15) := (W2_arr m ρ c 4).trans (((dat0 (V1 m ρ) c).arrAt_in 4 rfl _).trans (A_eq0 (V1 m ρ) c 4))
  exact (congrFun e (ix2 n s)).trans (V1_ohc m ρ c n s)

/-- Wu was an input array of the first call; Wg, Wo and bo the first call never staged. -/
theorem V3_Wu : (V3 m ρ c main_v19 : S256x1024.Idx → EReal) = (argsK m c).Wu := by
  have e : W3 m ρ c (Proc.devRef .tc main_v19) = W1 m ρ c (Proc.devRef .tc main_v19) :=
    calc W3 m ρ c (Proc.devRef .tc main_v19)
      _ = W2 m ρ c (Proc.devRef .tc main_v19) := by host1_keeps
      _ = W1 m ρ c (Proc.devRef .tc main_v19) := (W2_arr m ρ c 11).trans (((dat0 (V1 m ρ) c).arrAt_in 11 rfl _).trans (A_eq0 (V1 m ρ) c 11))
  exact e.trans (V1_Wu m ρ c)
theorem V3_Wg : (V3 m ρ c main_v20 : S256x1024.Idx → EReal) = (argsK m c).Wg := by
  have e : W3 m ρ c (Proc.devRef .tc main_v20) = W1 m ρ c (Proc.devRef .tc main_v20) :=
    calc W3 m ρ c (Proc.devRef .tc main_v20)
      _ = W2 m ρ c (Proc.devRef .tc main_v20) := by host1_keeps
      _ = W1 m ρ c (Proc.devRef .tc main_v20) := W2_of_ne m ρ c main_v20 (by decide)
  exact e.trans (V1_Wg m ρ c)
theorem V3_Wo : (V3 m ρ c main_v23 : S1024x256.Idx → EReal) = (argsK m c).Wo := by
  have e : W3 m ρ c (Proc.devRef .tc main_v23) = W1 m ρ c (Proc.devRef .tc main_v23) :=
    calc W3 m ρ c (Proc.devRef .tc main_v23)
      _ = W2 m ρ c (Proc.devRef .tc main_v23) := by host1_keeps
      _ = W1 m ρ c (Proc.devRef .tc main_v23) := W2_of_ne m ρ c main_v23 (by decide)
  exact e.trans (V1_Wo m ρ c)
theorem V3_bo : (V3 m ρ c main_arg16 : S256.Idx → EReal) = (argsK m c).bo := by
  have e : W3 m ρ c (Proc.devRef .tc main_arg16) = W1 m ρ c (Proc.devRef .tc main_arg16) :=
    calc W3 m ρ c (Proc.devRef .tc main_arg16)
      _ = W2 m ρ c (Proc.devRef .tc main_arg16) := by host1_keeps
      _ = W1 m ρ c (Proc.devRef .tc main_arg16) := W2_of_ne m ρ c main_arg16 (by decide)
  exact e.trans (V1_bo m ρ c)

/-! ## The two tables of segment means

Each accumulator array has two slabs, one per half of the rows. The host adds the slabs (a sum over the leading axis from
the initial value 0), floors the added counts at eps, repeats the floored count along the 1024 columns and divides. Slab k
holds half k's share of the segment's sum and count, and the two shares add up to the sum over all rows, which is the
specification's mean: sum / max(count, eps). Only 0 + x = x is used, so nothing here needs finiteness. -/

/-- The sum over the leading axis of a [2, 8, 1024] array at (s, f): the initial value plus the two slabs' entries. -/
private theorem red_8x1024 (x : S2x8x1024.Idx → EReal) (h' : S2x8x1024.ReducesTo [0] S8x1024) (init : EReal)
    (s : Fin 8) (f : Fin 1024) :
    Ideal.hostReduceAdd h' x init (ix2 s f) = init + ∑ k : Fin 2, x (ix3 k s f) := by
  have h : S2x8x1024.Reduces [0] S8x1024 := by decide
  rw [Ideal.hostReduceAdd_single h' h]
  refine congrArg (init + ·) (Finset.sum_congr rfl fun k _ => congrArg x ?_)
  funext a
  apply Fin.ext
  match a with
  | ⟨0, _⟩ => rfl
  | ⟨1, _⟩ => rfl
  | ⟨2, _⟩ => rfl

/-- The same for a [2, 8, 1] array of counts, at (s, 0). -/
private theorem red_8x1 (x : S2x8x1.Idx → EReal) (h' : S2x8x1.ReducesTo [0] S8x1) (init : EReal)
    (s : Fin 8)  :
    Ideal.hostReduceAdd h' x init (ix2 s (0 : Fin 1)) = init + ∑ k : Fin 2, x (ix3 k s (0 : Fin 1)) := by
  have h : S2x8x1.Reduces [0] S8x1 := by decide
  rw [Ideal.hostReduceAdd_single h' h]
  refine congrArg (init + ·) (Finset.sum_congr rfl fun k _ => congrArg x ?_)
  funext a
  apply Fin.ext
  match a with
  | ⟨0, _⟩ => rfl
  | ⟨1, _⟩ => rfl
  | ⟨2, _⟩ => rfl

/-- The batch mean's arithmetic at (s, f): the two slabs' sums added, over the two slabs' counts added and floored at eps. -/
private theorem mean_8 (x : S2x8x1024.Idx → EReal) (y : S2x8x1.Idx → EReal)
    (h1 : S2x8x1024.ReducesTo [0] S8x1024) (h2 : S2x8x1.ReducesTo [0] S8x1) (hS : 0 < S_.numel)
    (hb1 : S_.BroadcastsInDim S8x1 (![] : Fin 0 → Fin S8x1.rank))
    (hb2 : S8x1.BroadcastsInDim S8x1024 (![0, 1] : Fin 2 → Fin S8x1024.rank)) (s : Fin 8) (f : Fin 1024) :
    (Host.divf (F := Ideal) (s := S8x1024) (φ := .f32)
      (Host.reduceAdd (F := Ideal) (φ := .f32) x (constant (F := Ideal) S_ .f32 0x00000000#32) h1 hS)
      (broadcastInDim S8x1024 ![0, 1] hb2
        (maximumf (F := Ideal) (φ := .f32)
          (Host.reduceAdd (F := Ideal) (φ := .f32) y (constant (F := Ideal) S_ .f32 0x00000000#32) h2 hS)
          (broadcastInDim S8x1 ![] hb1 (constant (F := Ideal) S_ .f32 0x358637BD#32))))) (ix2 s f)
      = Ideal.div (∑ k : Fin 2, x (ix3 k s f)) (max (∑ k : Fin 2, y (ix3 k s (0 : Fin 1))) Cert.Spec.cEps) := by
  have hn : Host.reduceAdd (F := Ideal) (φ := .f32) x (constant (F := Ideal) S_ .f32 0x00000000#32) h1 hS (ix2 s f)
      = ∑ k : Fin 2, x (ix3 k s f) := by
    rw [hostReduceAdd_apply, red_8x1024, constant_apply, Ideal.ofBits_zero_f32, zero_add]
  have hd : Host.reduceAdd (F := Ideal) (φ := .f32) y (constant (F := Ideal) S_ .f32 0x00000000#32) h2 hS (ix2 s (0 : Fin 1))
      = ∑ k : Fin 2, y (ix3 k s (0 : Fin 1)) := by
    rw [hostReduceAdd_apply, red_8x1, constant_apply, Ideal.ofBits_zero_f32, zero_add]
  have hc : broadcastInDim S8x1 ![] hb1 (constant (F := Ideal) S_ .f32 0x358637BD#32) (ix2 s (0 : Fin 1)) = Cert.Spec.cEps :=
    broadcastInDim_scalar_apply hb1 _ _
  rw [hostDivf_apply, hn,
    broadcastInDim_apply _ hb2 _ (ix2 s f) (ix2 s (0 : Fin 1))
      (by intro a; match a with | ⟨0, _⟩ => rfl | ⟨1, _⟩ => rfl),
    maximumf_apply, hd, hc]

/-- The sum over the leading axis of a [2, 32, 1024] array at (s, f): the initial value plus the two slabs' entries. -/
private theorem red_32x1024 (x : S2x32x1024.Idx → EReal) (h' : S2x32x1024.ReducesTo [0] S32x1024) (init : EReal)
    (s : Fin 32) (f : Fin 1024) :
    Ideal.hostReduceAdd h' x init (ix2 s f) = init + ∑ k : Fin 2, x (ix3 k s f) := by
  have h : S2x32x1024.Reduces [0] S32x1024 := by decide
  rw [Ideal.hostReduceAdd_single h' h]
  refine congrArg (init + ·) (Finset.sum_congr rfl fun k _ => congrArg x ?_)
  funext a
  apply Fin.ext
  match a with
  | ⟨0, _⟩ => rfl
  | ⟨1, _⟩ => rfl
  | ⟨2, _⟩ => rfl

/-- The same for a [2, 32, 1] array of counts, at (s, 0). -/
private theorem red_32x1 (x : S2x32x1.Idx → EReal) (h' : S2x32x1.ReducesTo [0] S32x1) (init : EReal)
    (s : Fin 32)  :
    Ideal.hostReduceAdd h' x init (ix2 s (0 : Fin 1)) = init + ∑ k : Fin 2, x (ix3 k s (0 : Fin 1)) := by
  have h : S2x32x1.Reduces [0] S32x1 := by decide
  rw [Ideal.hostReduceAdd_single h' h]
  refine congrArg (init + ·) (Finset.sum_congr rfl fun k _ => congrArg x ?_)
  funext a
  apply Fin.ext
  match a with
  | ⟨0, _⟩ => rfl
  | ⟨1, _⟩ => rfl
  | ⟨2, _⟩ => rfl

/-- The chain mean's arithmetic at (s, f): the two slabs' sums added, over the two slabs' counts added and floored at eps. -/
private theorem mean_32 (x : S2x32x1024.Idx → EReal) (y : S2x32x1.Idx → EReal)
    (h1 : S2x32x1024.ReducesTo [0] S32x1024) (h2 : S2x32x1.ReducesTo [0] S32x1) (hS : 0 < S_.numel)
    (hb1 : S_.BroadcastsInDim S32x1 (![] : Fin 0 → Fin S32x1.rank))
    (hb2 : S32x1.BroadcastsInDim S32x1024 (![0, 1] : Fin 2 → Fin S32x1024.rank)) (s : Fin 32) (f : Fin 1024) :
    (Host.divf (F := Ideal) (s := S32x1024) (φ := .f32)
      (Host.reduceAdd (F := Ideal) (φ := .f32) x (constant (F := Ideal) S_ .f32 0x00000000#32) h1 hS)
      (broadcastInDim S32x1024 ![0, 1] hb2
        (maximumf (F := Ideal) (φ := .f32)
          (Host.reduceAdd (F := Ideal) (φ := .f32) y (constant (F := Ideal) S_ .f32 0x00000000#32) h2 hS)
          (broadcastInDim S32x1 ![] hb1 (constant (F := Ideal) S_ .f32 0x358637BD#32))))) (ix2 s f)
      = Ideal.div (∑ k : Fin 2, x (ix3 k s f)) (max (∑ k : Fin 2, y (ix3 k s (0 : Fin 1))) Cert.Spec.cEps) := by
  have hn : Host.reduceAdd (F := Ideal) (φ := .f32) x (constant (F := Ideal) S_ .f32 0x00000000#32) h1 hS (ix2 s f)
      = ∑ k : Fin 2, x (ix3 k s f) := by
    rw [hostReduceAdd_apply, red_32x1024, constant_apply, Ideal.ofBits_zero_f32, zero_add]
  have hd : Host.reduceAdd (F := Ideal) (φ := .f32) y (constant (F := Ideal) S_ .f32 0x00000000#32) h2 hS (ix2 s (0 : Fin 1))
      = ∑ k : Fin 2, y (ix3 k s (0 : Fin 1)) := by
    rw [hostReduceAdd_apply, red_32x1, constant_apply, Ideal.ofBits_zero_f32, zero_add]
  have hc : broadcastInDim S32x1 ![] hb1 (constant (F := Ideal) S_ .f32 0x358637BD#32) (ix2 s (0 : Fin 1)) = Cert.Spec.cEps :=
    broadcastInDim_scalar_apply hb1 _ _
  rw [hostDivf_apply, hn,
    broadcastInDim_apply _ hb2 _ (ix2 s f) (ix2 s (0 : Fin 1))
      (by intro a; match a with | ⟨0, _⟩ => rfl | ⟨1, _⟩ => rfl),
    maximumf_apply, hd, hc]

theorem V3_bmean (s : Fin 8) (f : Fin 1024) :
    (V3 m ρ c main_v32 : S8x1024.Idx → EReal) (ix2 s f) = Cert.Spec.Mb (argsK m c) s f := by
  have eS : (W2 m ρ c (Proc.devRef .tc main_v24_1) : S2x8x1024.Idx → EReal) = (dat0 (V1 m ρ) c).arrAt 15 cfg0.N :=
    W2_arr m ρ c 15
  have eN : (W2 m ρ c (Proc.devRef .tc main_v24_2) : S2x8x1.Idx → EReal) = (dat0 (V1 m ρ) c).arrAt 16 cfg0.N :=
    W2_arr m ρ c 16
  have e : (V3 m ρ c main_v32 : S8x1024.Idx → EReal) (ix2 s f)
      = Ideal.div (∑ k : Fin 2, (W2 m ρ c (Proc.devRef .tc main_v24_1) : S2x8x1024.Idx → EReal) (ix3 k s f))
          (max (∑ k : Fin 2, (W2 m ρ c (Proc.devRef .tc main_v24_2) : S2x8x1.Idx → EReal) (ix3 k s (0 : Fin 1)))
            Cert.Spec.cEps) := by
    show StableHlo.after hostOps1 (W2 m ρ c) (Proc.devRef .tc main_v32) (ix2 s f) = _
    after_results
    exact mean_8 _ _ _ _ _ _ _ s f
  rw [e, eS, eN]
  simp only [arr15, arr16]
  rw [Cert.Spec.sum_SbPart, Cert.Spec.sum_NbPart]
  rfl

theorem V3_cmean (s : Fin 32) (f : Fin 1024) :
    (V3 m ρ c main_v36 : S32x1024.Idx → EReal) (ix2 s f) = Cert.Spec.Mc (argsK m c) s f := by
  have eS : (W2 m ρ c (Proc.devRef .tc main_v24_3) : S2x32x1024.Idx → EReal) = (dat0 (V1 m ρ) c).arrAt 17 cfg0.N :=
    W2_arr m ρ c 17
  have eN : (W2 m ρ c (Proc.devRef .tc main_v24_4) : S2x32x1.Idx → EReal) = (dat0 (V1 m ρ) c).arrAt 18 cfg0.N :=
    W2_arr m ρ c 18
  have e : (V3 m ρ c main_v36 : S32x1024.Idx → EReal) (ix2 s f)
      = Ideal.div (∑ k : Fin 2, (W2 m ρ c (Proc.devRef .tc main_v24_3) : S2x32x1024.Idx → EReal) (ix3 k s f))
          (max (∑ k : Fin 2, (W2 m ρ c (Proc.devRef .tc main_v24_4) : S2x32x1.Idx → EReal) (ix3 k s (0 : Fin 1)))
            Cert.Spec.cEps) := by
    show StableHlo.after hostOps1 (W2 m ρ c) (Proc.devRef .tc main_v36) (ix2 s f) = _
    after_results
    exact mean_32 _ _ _ _ _ _ _ s f
  rw [e, eS, eN]
  simp only [arr17, arr18]
  rw [Cert.Spec.sum_ScPart, Cert.Spec.sum_NcPart]
  rfl

end Cert.KernelIdeal.KV

end
-- ==== Proof.KReg1.lean ====
/-
  The second pallas_call's result array: row n of tile t is the hidden row of residue n times Wo plus bo, the hidden
  row rebuilt from the stored feature row, the two one-hot rows and the two tables of segment means; the 32 tiles
  cover the 32768 rows.

  The body stores one payload per point. Read at (p, d) it is five products into zero accumulators, each a finite sum
  over its one contracted axis: the feature row against Wu and against Wg, the two one-hot rows against the two tables of
  means, and the hidden row against Wo; between them the tanh form of gelu in the specification's own order, and the
  bias row laid over the 1024 rows. At point t the three row-tiled blocks are rows 1024 t … 1024 t + 1023 of their
  arrays and the six others are whole arrays, so row p of the blocks is residue 1024 t + p and the payload's sums are
  the specification's term by term. Row n of the result lies in tile n / 1024, and every point writes its tile back.
-/
import proofs.«408712_j4063039062804_2_alg».proof.Proof.Gen.KernelIdeal.Frame
import proofs.«408712_j4063039062804_2_alg».proof.Proof.KArgs
import proofs.«408712_j4063039062804_2_alg».proof.Proof.KHost1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

namespace Pass2

/-! ## The four products at an index -/

/-- Axis 0 of the left operand's index is the result's row. -/
private theorem lhsP_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- Axis 1 of the left operand's index is the contracted coordinate. -/
private theorem lhsP_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- Axis 0 of the right operand's index is the contracted coordinate. -/
private theorem rhsP_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- Axis 1 of the right operand's index is the result's column. -/
private theorem rhsP_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl
/-- The [1024, 256] by [256, 1024] product into a zero accumulator, at row p and column f, is the sum over k of
    left (p, k) times right (k, f). -/
private theorem mmP_apply (l : FVec Ideal S1024x256 .bf16) (r : FVec Ideal S256x1024 .bf16) (p : Fin 1024) (f : Fin 1024) :
    matmul dot_S1024x256_S256x1024_S1024x1024_1_0_0_1_n_n none l r (constant S1024x1024 .f32 0x00000000#32) (ix2 p f)
      = ∑ k : Fin 256, l (ix2 p k) * r (ix2 k f) := by
  refine (Ideal.matmul_constant_zero_apply dot_S1024x256_S256x1024_S1024x1024_1_0_0_1_n_n none l r (ix2 p f)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p f) ((contrEquiv1 dot_S1024x256_S256x1024_S1024x1024_1_0_0_1_n_n 256 rfl rfl).symm k) = ix2 p k := funext fun a => Fin.ext (by
    match a with
    | ⟨0, _⟩ => exact lhsP_0 _ _
    | ⟨1, _⟩ => exact (lhsP_1 _ _).trans hk)
  have er : dot_S1024x256_S256x1024_S1024x1024_1_0_0_1_n_n.rhsIdx (ix2 p f) ((contrEquiv1 dot_S1024x256_S256x1024_S1024x1024_1_0_0_1_n_n 256 rfl rfl).symm k) = ix2 k f := funext fun a => Fin.ext (by
    match a with
    | ⟨0, _⟩ => exact (rhsP_0 _ _).trans hk
    | ⟨1, _⟩ => exact rhsP_1 _ _)
  rw [el, er]

/-- Axis 0 of the left operand's index is the result's row. -/
private theorem lhsB_0 (i : S1024x1024.Idx) (q : dot_S1024x8_S8x1024_S1024x1024_1_0_0_1_n_n.contr.Idx) :
    (dot_S1024x8_S8x1024_S1024x1024_1_0_0_1_n_n.lhsIdx i q 0).val = (i 0).val := by
  unfold DotDims.lhsIdx
  rw [dif_neg (show ¬(0 : Fin S1024x8.rank) ∈ dot_S1024x8_S8x1024_S1024x1024_1_0_0_1_n_n.lhsBatch by decide), dif_pos (show (0 : Fin S1024x8.rank) ∈ dot_S1024x8_S8x1024_S1024x1024_1_0_0_1_n_n.lhsNonContracting by decide)]
  rfl
/-- Axis 1 of the left operand's index is the contracted coordinate. -/
private theorem lhsB_1 (i : S1024x1024.Idx) (q : dot_S1024x8_S8x1024_S1024x1024_1_0_0_1_n_n.contr.Idx) :
    (dot_S1024x8_S8x1024_S1024x1024_1_0_0_1_n_n.lhsIdx i q 1).val = (q ⟨0, by decide⟩).val :=
  dot_S1024x8_S8x1024_S1024x1024_1_0_0_1_n_n.lhsIdx_val_of_single rfl i q
/-- Axis 0 of the right operand's index is the contracted coordinate. -/
private theorem rhsB_0 (i : S1024x1024.Idx) (q : dot_S1024x8_S8x1024_S1024x1024_1_0_0_1_n_n.contr.Idx) :
    (dot_S1024x8_S8x1024_S1024x1024_1_0_0_1_n_n.rhsIdx i q 0).val = (q ⟨0, by decide⟩).val :=
  dot_S1024x8_S8x1024_S1024x1024_1_0_0_1_n_n.rhsIdx_val_of_single rfl i q
/-- Axis 1 of the right operand's index is the result's column. -/
private theorem rhsB_1 (i : S1024x1024.Idx) (q : dot_S1024x8_S8x1024_S1024x1024_1_0_0_1_n_n.contr.Idx) :
    (dot_S1024x8_S8x1024_S1024x1024_1_0_0_1_n_n.rhsIdx i q 1).val = (i 1).val := by
  unfold DotDims.rhsIdx
  rw [dif_neg (show ¬(1 : Fin S8x1024.rank) ∈ dot_S1024x8_S8x1024_S1024x1024_1_0_0_1_n_n.rhsBatch by decide), dif_pos (show (1 : Fin S8x1024.rank) ∈ dot_S1024x8_S8x1024_S1024x1024_1_0_0_1_n_n.rhsNonContracting by decide)]
  rfl
/-- The [1024, 8] by [8, 1024] product into a zero accumulator, at row p and column f, is the sum over k of
    left (p, k) times right (k, f). -/
private theorem mmB_apply (l : FVec Ideal S1024x8 .f32) (r : FVec Ideal S8x1024 .f32) (p : Fin 1024) (f : Fin 1024) :
    matmul dot_S1024x8_S8x1024_S1024x1024_1_0_0_1_n_n none l r (constant S1024x1024 .f32 0x00000000#32) (ix2 p f)
      = ∑ k : Fin 8, l (ix2 p k) * r (ix2 k f) := by
  refine (Ideal.matmul_constant_zero_apply dot_S1024x8_S8x1024_S1024x1024_1_0_0_1_n_n none l r (ix2 p f)).trans ?_
  rw [← Equiv.sum_comp (contrEquiv1 dot_S1024x8_S8x1024_S1024x1024_1_0_0_1_n_n 8 rfl rfl).symm]
  refine Finset.sum_congr rfl fun k _ => ?_
  have hk := contrEquiv1_symm_val dot_S1024x8_S8x1024_S1024x1024_1_0_0_1_n_n 8 rfl rfl k
  have el : dot_S1024x8_S8x1024_S1024x1024_1_0_0_1_n_n.lhsIdx (ix2 p f) ((contrEquiv1 dot_S1024x8_S8x1024_S1024x1024_1_0_0_1_n_n 8 rfl rfl).symm k) = ix2 p k := funext fun a => Fin.ext (by
    match a with
    | ⟨0, _⟩ => exact lhsB_0 _ _
    | ⟨1, _⟩ => exact (lhsB_1 _ _).trans hk)
  have er : dot_S1024x8_S8x1024_S1024x1024_1_0_0_1_n_n.rhsIdx (ix2 p f) ((contrEquiv1 dot_S1024x8_S8x1024_S1024x1024_1_0_0_1_n_n 8 rfl rfl).symm k) = ix2 k f := funext fun a => Fin.ext (by
    match a with
    | ⟨0, _⟩ => exact (rhsB_0 _ _).trans hk
    | ⟨1, _⟩ => exact rhsB_1 _ _)
  rw [el, er]

/-- Axis 0 of the left operand's index is the result's row. -/
private theorem lhsC_0 (i : S1024x1024.Idx) (q : dot_S1024x32_S32x1024_S1024x1024_1_0_0_1_n_n.contr.Idx) :
    (dot_S1024x32_S32x1024_S1024x1024_1_0_0_1_n_n.lhsIdx i q 0).val = (i 0).val := by
  unfold DotDims.lhsIdx
  rw [dif_neg (show ¬(0 : Fin S1024x32.rank) ∈ dot_S1024x32_S32x1024_S1024x1024_1_0_0_1_n_n.lhsBatch by decide), dif_pos (show (0 : Fin S1024x32.rank) ∈ dot_S1024x32_S32x1024_S1024x1024_1_0_0_1_n_n.lhsNonContracting by decide)]
  rfl
/-- Axis 1 of the left operand's index is the contracted coordinate. -/
private theorem lhsC_1 (i : S1024x1024.Idx) (q : dot_S1024x32_S32x1024_S1024x1024_1_0_0_1_n_n.contr.Idx) :
    (dot_S1024x32_S32x1024_S1024x1024_1_0_0_1_n_n.lhsIdx i q 1).val = (q ⟨0, by decide⟩).val :=
  dot_S1024x32_S32x1024_S1024x1024_1_0_0_1_n_n.lhsIdx_val_of_single rfl i q
/-- Axis 0 of the right operand's index is the contracted coordinate. -/
private theorem rhsC_0 (i : S1024x1024.Idx) (q : dot_S1024x32_S32x1024_S1024x1024_1_0_0_1_n_n.contr.Idx) :
    (dot_S1024x32_S32x1024_S1024x1024_1_0_0_1_n_n.rhsIdx i q 0).val = (q ⟨0, by decide⟩).val :=
  dot_S1024x32_S32x1024_S1024x1024_1_0_0_1_n_n.rhsIdx_val_of_single rfl i q
/-- Axis 1 of the right operand's index is the result's column. -/
private theorem rhsC_1 (i : S1024x1024.Idx) (q : dot_S1024x32_S32x1024_S1024x1024_1_0_0_1_n_n.contr.Idx) :
    (dot_S1024x32_S32x1024_S1024x1024_1_0_0_1_n_n.rhsIdx i q 1).val = (i 1).val := by
  unfold DotDims.rhsIdx
  rw [dif_neg (show ¬(1 : Fin S32x1024.rank) ∈ dot_S1024x32_S32x1024_S1024x1024_1_0_0_1_n_n.rhsBatch by decide), dif_pos (show (1 : Fin S32x1024.rank) ∈ dot_S1024x32_S32x1024_S1024x1024_1_0_0_1_n_n.rhsNonContracting by decide)]
  rfl
/-- The [1024, 32] by [32, 1024] product into a zero accumulator, at row p and column f, is the sum over k of
    left (p, k) times right (k, f). -/
private theorem mmC_apply (l : FVec Ideal S1024x32 .f32) (r : FVec Ideal S32x1024 .f32) (p : Fin 1024) (f : Fin 1024) :
    matmul dot_S1024x32_S32x1024_S1024x1024_1_0_0_1_n_n none l r (constant S1024x1024 .f32 0x00000000#32) (ix2 p f)
      = ∑ k : Fin 32, l (ix2 p k) * r (ix2 k f) := by
  refine (Ideal.matmul_constant_zero_apply dot_S1024x32_S32x1024_S1024x1024_1_0_0_1_n_n none l r (ix2 p f)).trans ?_
  rw [← Equiv.sum_comp (contrEquiv1 dot_S1024x32_S32x1024_S1024x1024_1_0_0_1_n_n 32 rfl rfl).symm]
  refine Finset.sum_congr rfl fun k _ => ?_
  have hk := contrEquiv1_symm_val dot_S1024x32_S32x1024_S1024x1024_1_0_0_1_n_n 32 rfl rfl k
  have el : dot_S1024x32_S32x1024_S1024x1024_1_0_0_1_n_n.lhsIdx (ix2 p f) ((contrEquiv1 dot_S1024x32_S32x1024_S1024x1024_1_0_0_1_n_n 32 rfl rfl).symm k) = ix2 p k := funext fun a => Fin.ext (by
    match a with
    | ⟨0, _⟩ => exact lhsC_0 _ _
    | ⟨1, _⟩ => exact (lhsC_1 _ _).trans hk)
  have er : dot_S1024x32_S32x1024_S1024x1024_1_0_0_1_n_n.rhsIdx (ix2 p f) ((contrEquiv1 dot_S1024x32_S32x1024_S1024x1024_1_0_0_1_n_n 32 rfl rfl).symm k) = ix2 k f := funext fun a => Fin.ext (by
    match a with
    | ⟨0, _⟩ => exact (rhsC_0 _ _).trans hk
    | ⟨1, _⟩ => exact rhsC_1 _ _)
  rw [el, er]

/-- Axis 0 of the left operand's index is the result's row. -/
private theorem lhsO_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
/-- Axis 1 of the left operand's index is the contracted coordinate. -/
private theorem lhsO_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
/-- Axis 0 of the right operand's index is the contracted coordinate. -/
private theorem rhsO_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
/-- Axis 1 of the right operand's index is the result's column. -/
private theorem rhsO_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
/-- The [1024, 1024] by [1024, 256] product into a zero accumulator, at row p and column f, is the sum over k of
    left (p, k) times right (k, f). -/
private theorem mmO_apply (l : FVec Ideal S1024x1024 .bf16) (r : FVec Ideal S1024x256 .bf16) (p : Fin 1024) (f : Fin 256) :
    matmul dot_S1024x1024_S1024x256_S1024x256_1_0_0_1_n_n none l r (constant S1024x256 .f32 0x00000000#32) (ix2 p f)
      = ∑ k : Fin 1024, l (ix2 p k) * r (ix2 k f) := by
  refine (Ideal.matmul_constant_zero_apply dot_S1024x1024_S1024x256_S1024x256_1_0_0_1_n_n none l r (ix2 p f)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p f) ((contrEquiv1 dot_S1024x1024_S1024x256_S1024x256_1_0_0_1_n_n 1024 rfl rfl).symm k) = ix2 p k := funext fun a => Fin.ext (by
    match a with
    | ⟨0, _⟩ => exact lhsO_0 _ _
    | ⟨1, _⟩ => exact (lhsO_1 _ _).trans hk)
  have er : dot_S1024x1024_S1024x256_S1024x256_1_0_0_1_n_n.rhsIdx (ix2 p f) ((contrEquiv1 dot_S1024x1024_S1024x256_S1024x256_1_0_0_1_n_n 1024 rfl rfl).symm k) = ix2 k f := funext fun a => Fin.ext (by
    match a with
    | ⟨0, _⟩ => exact (rhsO_0 _ _).trans hk
    | ⟨1, _⟩ => exact rhsO_1 _ _)
  rw [el, er]

/-! ## The payloads at an index -/

/-- The vector tanh reads through at an index. -/
private theorem tanh_at {s : Shape} (a : FVec Ideal s .f32) (i : s.Idx) : tanh a i = Ideal.tanh (a i) := rfl

/-- The hidden row's payload at row p and column f: gelu of the gate projection times the up projection, plus the two
    one-hot rows against the two tables of means. -/
private theorem pay2_apply (x0 : FVec Ideal S1024x256 .bf16) (x1 : FVec Ideal S1024x8 .f32) (x2 : FVec Ideal S1024x32 .f32)
    (x3 x4 : FVec Ideal S256x1024 .bf16) (x5 : FVec Ideal S8x1024 .f32) (x6 : FVec Ideal S32x1024 .f32)
    (p : Fin 1024) (f : Fin 1024) :
    k1_pay2 (F := Ideal) x0 x1 x2 x3 x4 x5 x6 (ix2 p f)
      = (Cert.Spec.gelu (∑ k : Fin 256, x0 (ix2 p k) * x4 (ix2 k f)) * (∑ k : Fin 256, x0 (ix2 p k) * x3 (ix2 k f))
          + ∑ s : Fin 8, x1 (ix2 p s) * x5 (ix2 s f))
        + ∑ s : Fin 32, x2 (ix2 p s) * x6 (ix2 s f) := by
  unfold k1_pay2
  simp only [shapeCast_self, truncf_apply, addf_apply, mulf_apply, tanh_at, broadcast_apply]
  rw [mmP_apply, mmP_apply, mmB_apply, mmC_apply]
  rfl

/-- The result's payload at row p and column d: the hidden row against Wo, plus bo. -/
private theorem pay1_apply (h : FVec Ideal S1024x1024 .bf16) (x7 : FVec Ideal S1024x256 .bf16) (x8 : FVec Ideal S256 .f32)
    (p : Fin 1024) (d : Fin 256) :
    k1_pay1 (F := Ideal) h x7 x8 (ix2 p d) = (∑ f : Fin 1024, h (ix2 p f) * x7 (ix2 f d)) + x8 (ix1 d) := by
  unfold k1_pay1
  simp only [shapeCast_self, addf_apply]
  rw [mmO_apply, broadcastTo_1b_ab_apply, shapeCast_a_1a_apply]

/-! ## One entry of the result, the blocks, and what a point writes back -/

/-- One entry of the result from row p of the three row-tiled blocks and the six whole blocks, when row p holds
    residue n's feature row and one-hot rows and the whole blocks hold the weights and the two tables of means:
    the payload's sums are the specification's, term by term. -/
private theorem point_eq (a : Cert.Spec.Args) (n : Fin 32768)
    (x0 : FVec Ideal S1024x256 .bf16) (x1 : FVec Ideal S1024x8 .f32) (x2 : FVec Ideal S1024x32 .f32)
    (x3 x4 : FVec Ideal S256x1024 .bf16) (x5 : FVec Ideal S8x1024 .f32) (x6 : FVec Ideal S32x1024 .f32)
    (x7 : FVec Ideal S1024x256 .bf16) (x8 : FVec Ideal S256 .f32) (p : Fin 1024) (d : Fin 256)
    (h0 : ∀ e : Fin 256, x0 (ix2 p e) = Cert.Spec.L a n e)
    (h1 : ∀ s : Fin 8, x1 (ix2 p s) = Cert.Spec.oh (a.batch (ix1 n)) s.val)
    (h2 : ∀ s : Fin 32, x2 (ix2 p s) = Cert.Spec.oh (a.chain (ix1 n)) s.val)
    (h3 : x3 = a.Wu) (h4 : x4 = a.Wg)
    (h5 : ∀ (s : Fin 8) (f : Fin 1024), x5 (ix2 s f) = Cert.Spec.Mb a s f)
    (h6 : ∀ (s : Fin 32) (f : Fin 1024), x6 (ix2 s f) = Cert.Spec.Mc a s f)
    (h7 : x7 = a.Wo) (h8 : x8 = a.bo) :
    k1_pay1 (F := Ideal) (k1_pay2 (F := Ideal) x0 x1 x2 x3 x4 x5 x6) x7 x8 (ix2 p d) = Cert.Spec.out a n d := by
  subst h3 h4 h7 h8
  rw [pay1_apply]
  unfold Cert.Spec.out
  refine congrArg (· + a.bo (ix1 d)) (Finset.sum_congr rfl fun f _ => ?_)
  rw [pay2_apply]
  unfold Cert.Spec.hidden Cert.Spec.G Cert.Spec.U Cert.Spec.proj
  simp only [h0, h1, h2, h5, h6]

private theorem hz2 : (![0, 0] : Fin 2 → Nat) = fun _ => 0 := funext fun a => match a with | ⟨0, _⟩ => rfl | ⟨1, _⟩ => rfl
private theorem hz1 : (![0] : Fin 1 → Nat) = fun _ => 0 := funext fun a => match a with | ⟨0, _⟩ => rfl

/-- Where the ten windows' blocks sit at point t, decided over the 32 points: the three row-tiled inputs and the
    output at row block t, the six whole-array inputs at block 0. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

/-- Row p of tile t is row 1024 t + p of the 32768. -/
private def rowAt (t : Fin cfg1.N) (p : Fin 1024) : Fin 32768 :=
  ⟨t.val * 1024 + p.val, by have h1 := t.isLt; have h : cfg1.N = 32 := N_1; have h2 := p.isLt; omega⟩

section Blocks

variable (V : (c : Dev nD) → (b : Ref sig .tc) → Buf (Elt Ideal) ((c : Thread nD τ).loc b)) (c : Dev nD)

/-- The feature-row block at point t is rows 1024 t … 1024 t + 1023 of the feature array. -/
private theorem blk0_apply (t : Fin cfg1.N) (p : Fin 1024) (e : Fin 256) :
    (iblk1 V c 0 t : FVec Ideal S1024x256 .bf16) (ix2 p e) = (V c main_v24_0 : S32768x256.Idx → EReal) (ix2 (rowAt t p) e) := by
  obtain ⟨e0, e1, -⟩ := idx_facts t
  unfold iblk1
  show V c main_v24_0 _ = V c main_v24_0 _
  refine congrArg _ (funext fun a => Fin.ext ?_)
  match a with
  | ⟨0, _⟩ => show win1_0.index t (0 : Fin 2) * 1024 + 1 * p.val = t.val * 1024 + p.val; rw [e0]; omega
  | ⟨1, _⟩ => show win1_0.index t (1 : Fin 2) * 256 + 1 * e.val = e.val; rw [e1]; omega

/-- The batch one-hot block at point t is the same rows of the batch one-hot array. -/
private theorem blk1_apply (t : Fin cfg1.N) (p : Fin 1024) (s : Fin 8) :
    (iblk1 V c 1 t : FVec Ideal S1024x8 .f32) (ix2 p s) = (V c main_v10 : S32768x8.Idx → EReal) (ix2 (rowAt t p) s) := by
  obtain ⟨-, -, e0, e1, -⟩ := idx_facts t
  unfold iblk1
  show V c main_v10 _ = V c main_v10 _
  refine congrArg _ (funext fun a => Fin.ext ?_)
  match a with
  | ⟨0, _⟩ => show win1_1.index t (0 : Fin 2) * 1024 + 1 * p.val = t.val * 1024 + p.val; rw [e0]; omega
  | ⟨1, _⟩ => show win1_1.index t (1 : Fin 2) * 8 + 1 * s.val = s.val; rw [e1]; omega

/-- The chain one-hot block at point t is the same rows of the chain one-hot array. -/
private theorem blk2_apply (t : Fin cfg1.N) (p : Fin 1024) (s : Fin 32) :
    (iblk1 V c 2 t : FVec Ideal S1024x32 .f32) (ix2 p s) = (V c main_v15 : S32768x32.Idx → EReal) (ix2 (rowAt t p) s) := by
  obtain ⟨-, -, -, -, e0, e1, -⟩ := idx_facts t
  unfold iblk1
  show V c main_v15 _ = V c main_v15 _
  refine congrArg _ (funext fun a => Fin.ext ?_)
  match a with
  | ⟨0, _⟩ => show win1_2.index t (0 : Fin 2) * 1024 + 1 * p.val = t.val * 1024 + p.val; rw [e0]; omega
  | ⟨1, _⟩ => show win1_2.index t (1 : Fin 2) * 32 + 1 * s.val = s.val; rw [e1]; omega

/-- The six whole-array windows: at every point the block is the array. -/
private theorem blk3_eq (t : Fin cfg1.N) : (iblk1 V c 3 t : FVec Ideal S256x1024 .bf16) = (V c main_v19 : S256x1024.Idx → EReal) := by
  obtain ⟨-, -, -, -, -, -, e0, e1, -⟩ := idx_facts t
  funext y
  unfold iblk1
  show V c main_v19 _ = V c main_v19 _
  refine congrArg _ (funext fun a => Fin.ext ?_)
  match a with
  | ⟨0, _⟩ => show win1_3.index t (0 : Fin 2) * 256 + 1 * (y 0).val = (y 0).val; rw [e0]; omega
  | ⟨1, _⟩ => show win1_3.index t (1 : Fin 2) * 1024 + 1 * (y 1).val = (y 1).val; rw [e1]; omega

private theorem blk4_eq (t : Fin cfg1.N) : (iblk1 V c 4 t : FVec Ideal S256x1024 .bf16) = (V c main_v20 : S256x1024.Idx → EReal) := by
  obtain ⟨-, -, -, -, -, -, -, -, e0, e1, -⟩ := idx_facts t
  funext y
  unfold iblk1
  show V c main_v20 _ = V c main_v20 _
  refine congrArg _ (funext fun a => Fin.ext ?_)
  match a with
  | ⟨0, _⟩ => show win1_4.index t (0 : Fin 2) * 256 + 1 * (y 0).val = (y 0).val; rw [e0]; omega
  | ⟨1, _⟩ => show win1_4.index t (1 : Fin 2) * 1024 + 1 * (y 1).val = (y 1).val; rw [e1]; omega

private theorem blk5_eq (t : Fin cfg1.N) : (iblk1 V c 5 t : FVec Ideal S8x1024 .f32) = (V c main_v32 : S8x1024.Idx → EReal) := by
  obtain ⟨-, -, -, -, -, -, -, -, -, -, e0, e1, -⟩ := idx_facts t
  funext y
  unfold iblk1
  show V c main_v32 _ = V c main_v32 _
  refine congrArg _ (funext fun a => Fin.ext ?_)
  match a with
  | ⟨0, _⟩ => show win1_5.index t (0 : Fin 2) * 8 + 1 * (y 0).val = (y 0).val; rw [e0]; omega
  | ⟨1, _⟩ => show win1_5.index t (1 : Fin 2) * 1024 + 1 * (y 1).val = (y 1).val; rw [e1]; omega

private theorem blk6_eq (t : Fin cfg1.N) : (iblk1 V c 6 t : FVec Ideal S32x1024 .f32) = (V c main_v36 : S32x1024.Idx → EReal) := by
  obtain ⟨-, -, -, -, -, -, -, -, -, -, -, -, e0, e1, -⟩ := idx_facts t
  funext y
  unfold iblk1
  show V c main_v36 _ = V c main_v36 _
  refine congrArg _ (funext fun a => Fin.ext ?_)
  match a with
  | ⟨0, _⟩ => show win1_6.index t (0 : Fin 2) * 32 + 1 * (y 0).val = (y 0).val; rw [e0]; omega
  | ⟨1, _⟩ => show win1_6.index t (1 : Fin 2) * 1024 + 1 * (y 1).val = (y 1).val; rw [e1]; omega

private theorem blk7_eq (t : Fin cfg1.N) : (iblk1 V c 7 t : FVec Ideal S1024x256 .bf16) = (V c main_v23 : S1024x256.Idx → EReal) := by
  obtain ⟨-, -, -, -, -, -, -, -, -, -, -, -, -, -, e0, e1, -⟩ := idx_facts t
  funext y
  unfold iblk1
  show V c main_v23 _ = V c main_v23 _
  refine congrArg _ (funext fun a => Fin.ext ?_)
  match a with
  | ⟨0, _⟩ => show win1_7.index t (0 : Fin 2) * 1024 + 1 * (y 0).val = (y 0).val; rw [e0]; omega
  | ⟨1, _⟩ => show win1_7.index t (1 : Fin 2) * 256 + 1 * (y 1).val = (y 1).val; rw [e1]; omega

private theorem blk8_eq (t : Fin cfg1.N) : (iblk1 V c 8 t : FVec Ideal S256 .f32) = (V c main_arg16 : S256.Idx → EReal) := by
  obtain ⟨-, -, -, -, -, -, -, -, -, -, -, -, -, -, -, -, e0, -⟩ := idx_facts t
  funext y
  unfold iblk1
  show V c main_arg16 _ = V c main_arg16 _
  refine congrArg _ (funext fun a => Fin.ext ?_)
  match a with
  | ⟨0, _⟩ => show win1_8.index t (0 : Fin 1) * 256 + 1 * (y 0).val = (y 0).val; rw [e0]; omega

end Blocks

/-- Entry (p, d) of the output block at point t sits at row 1024 t + p, column d of the result array. -/
private theorem emb9 (t : Fin cfg1.N) (p : Fin 1024) (d : Fin 256) :
    (((cfg1.win 9).blk t).view.emb (ix2 p d) : S32768x256.Idx) = ix2 (rowAt t p) d := by
  obtain ⟨-, -, -, -, -, -, -, -, -, -, -, -, -, -, -, -, -, e0, e1⟩ := idx_facts t
  refine funext fun a => Fin.ext ?_
  match a with
  | ⟨0, _⟩ => show win1_9.index t (0 : Fin 2) * 1024 + 1 * p.val = t.val * 1024 + p.val; rw [e0]; omega
  | ⟨1, _⟩ => show win1_9.index t (1 : Fin 2) * 256 + 1 * d.val = d.val; rw [e1]; omega

variable (m : (ℓ : Loc nD τ sig) → Buf (Elt Ideal) ℓ) (ρ : Dev nD → PrngReg) (c : Dev nD)

/-- What point t writes back is tile t of the specification's result array: the one store's payload, read at
    (p, d), is the per-point lemma at the blocks, and the blocks are the operand arrays' rows 1024 t + p. -/
private theorem flushed9_eq (t : Fin cfg1.N) :
    (dat1 (V3 m ρ) c).flushed 9 t = ((cfg1.win 9).blk t).view.read (Elt Ideal) (Cert.Spec.outArr (argsK m c)) := by
  show (cfg1.win 9).cut (grid1.coords t) ((dat1 (V3 m ρ) c).after 9 t) = _
  rw [after1_9]
  unfold out1_9
  rw [View.canon_unit_zero hz2]
  simp only [View.ld_unit_zero (S := S1024x256) hz2, View.ld_unit_zero (S := S1024x8) hz2, View.ld_unit_zero (S := S1024x32) hz2,
    View.ld_unit_zero (S := S256x1024) hz2, View.ld_unit_zero (S := S8x1024) hz2, View.ld_unit_zero (S := S32x1024) hz2,
    View.ld_unit_zero (S := S256) hz1]
  funext y
  obtain ⟨p, d, rfl⟩ : ∃ (p : Fin 1024) (d : Fin 256), y = ix2 p d := ⟨y 0, y 1, eq_ix2 y⟩
  show k1_pay1 (F := Ideal) (k1_pay2 (F := Ideal) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t)) (iblk1 (V3 m ρ) c 7 t) (iblk1 (V3 m ρ) c 8 t) (ix2 p d)
    = Cert.Spec.outArr (argsK m c) (((cfg1.win 9).blk t).view.emb (ix2 p d))
  rw [emb9 t p d, Cert.Spec.outArr_ix2]
  exact point_eq (argsK m c) (rowAt t p) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) p d
    (fun e => (blk0_apply (V3 m ρ) c t p e).trans (V3_lout m ρ c (rowAt t p) e))
    (fun s => (blk1_apply (V3 m ρ) c t p s).trans (V3_ohb m ρ c (rowAt t p) s))
    (fun s => (blk2_apply (V3 m ρ) c t p s).trans (V3_ohc m ρ c (rowAt t p) s))
    ((blk3_eq (V3 m ρ) c t).trans (V3_Wu m ρ c))
    ((blk4_eq (V3 m ρ) c t).trans (V3_Wg m ρ c))
    (fun s f => (congrFun (blk5_eq (V3 m ρ) c t) (ix2 s f)).trans (V3_bmean m ρ c s f))
    (fun s f => (congrFun (blk6_eq (V3 m ρ) c t) (ix2 s f)).trans (V3_cmean m ρ c s f))
    ((blk7_eq (V3 m ρ) c t).trans (V3_Wo m ρ c))
    ((blk8_eq (V3 m ρ) c t).trans (V3_bo m ρ c))

/-- Row n of the result array lies in tile n / 1024, and every point writes its tile back. -/
private theorem cover9 (i : S32768x256.Idx) :
    ∃ t : Fin cfg1.N, (cfg1.win 9).flush t = true ∧ i ∈ ((cfg1.win 9).blk t).view.set := by
  have hi0 : (i 0).val < 32768 := (i 0).isLt
  have hi1 : (i 1).val < 256 := (i 1).isLt
  have hN : cfg1.N = 32 := N_1
  have ht : (i 0).val / 1024 < cfg1.N := by rw [hN]; omega
  obtain ⟨-, -, -, -, -, -, -, -, -, -, -, -, -, -, -, -, -, e0, e1⟩ := idx_facts ⟨(i 0).val / 1024, ht⟩
  refine ⟨⟨(i 0).val / 1024, ht⟩, flush1_9 _, ?_⟩
  show i ∈ ((View.whole main_v37).slice (win1_9.rect ⟨(i 0).val / 1024, ht⟩)).set
  rw [View.set_slice_whole, Rect.mem_set_unit]
  intro a
  match a with
  | ⟨0, _⟩ =>
    show win1_9.index ⟨(i 0).val / 1024, ht⟩ (0 : Fin 2) * 1024 ≤ (i 0).val ∧ (i 0).val < win1_9.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win1_9.index ⟨(i 0).val / 1024, ht⟩ (1 : Fin 2) * 256 ≤ (i 1).val ∧ (i 1).val < win1_9.index ⟨(i 0).val / 1024, ht⟩ (1 : Fin 2) * 256 + 256
    rw [e1]
    omega

end Pass2

variable (m : (ℓ : Loc nD τ sig) → Buf (Elt Ideal) ℓ) (ρ : Dev nD → PrngReg) (c : Dev nD)

theorem arr9 (n : Fin 32768) (d : Fin 256) :
    ((dat1 (V3 m ρ) c).arrAt 9 cfg1.N : S32768x256.Idx → EReal) (ix2 n d) = Cert.Spec.out (argsK m c) n d := by
  have h := (dat1 (V3 m ρ) c).arrAt_eq_of_cover 9 (Cert.Spec.outArr (argsK m c)) (fun t _ => Pass2.flushed9_eq m ρ c t) Pass2.cover9
  exact (congrFun h (ix2 n d)).trans (Cert.Spec.outArr_ix2 (argsK m c) n d)

end Cert.KernelIdeal.KV

end
-- ==== Proof.KValue.lean ====
/-
  The kernel's program ends with its result buffer at the specification's result array of the launch memory's
  arguments: the buffer is the second pallas_call's result array as the last boundary leaves it.
-/
import proofs.«408712_j4063039062804_2_alg».proof.Proof.Gen.KernelIdeal.Frame
import proofs.«408712_j4063039062804_2_alg».proof.Proof.KArgs
import proofs.«408712_j4063039062804_2_alg».proof.Proof.KRun
import proofs.«408712_j4063039062804_2_alg».proof.Proof.KReg1
import Idealize.ShloMosaic.Lib.ValueIdx

set_option maxRecDepth 16384

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

theorem W4_result : (W4 m ρ c (Proc.devRef .tc main_v37) : S32768x256.Idx → EReal) = Cert.Spec.outArr (argsK m c) := by
  refine Cert.Spec.eq_outArr _ _ fun n d => ?_
  have e : W4 m ρ c (Proc.devRef .tc main_v37) = (dat1 (V3 m ρ) c).arrAt 9 cfg1.N := W4_arr m ρ c 9
  rw [e]
  exact arr9 m ρ c n d

end Cert.KernelIdeal.KV

end
-- ==== Proof.RFront.lean ====
/-
  The reference's first stretch read at an index: the mask column, and the mixed feature row
  L n = (loc n + cond n · Wc) + gelu(lp n · W1 + b1) · W2 + b2, each matrix product a sum over the contracted axis.
-/
import proofs.«408712_j4063039062804_2_alg».proof.Proof.Gen.ReferenceIdeal.Read
import proofs.«408712_j4063039062804_2_alg».proof.Proof.Spec
import Idealize.ShloMosaic.Lib.ValueIdx

set_option maxRecDepth 16384

noncomputable section

open scoped BigOperators

namespace Cert.ReferenceIdeal.RV

open Idealize.ShloMosaic Idealize.ShloMosaic.ValueIdx
open Cert.ReferenceIdeal Cert.ReferenceIdeal.Read

variable (a : Cert.Spec.Args)

/-! ### Index equations: the composed index functions of the layout operations, at an index given by coordinates -/

/-- The mask column at (n, 0) reads the mask at n. -/
private theorem i_v1 (n : Fin 32768) : idx_main_v1 (ix2 n (0 : Fin 1)) = ix1 n :=
  funext fun a => Fin.ext (by match a with | ⟨0, _⟩ => rfl)

/-- Row-major flattening of [14, 3] to [42]: column j is atom j / 3, axis j % 3. -/
private theorem i_v7 (n : Fin 32768) (j : Fin 42) :
    idx_main_v7 (ix2 n j)
      = ix3 n (⟨j.val / 3, by have := j.isLt; omega⟩ : Fin 14) (⟨j.val % 3, by omega⟩ : Fin 3) :=
  funext fun a => Fin.ext (by
    have hj := j.isLt
    match a with
    | ⟨0, _⟩ => show (n.val * 42 + j.val) / 42 = n.val; omega
    | ⟨1, _⟩ => show (n.val * 42 + j.val) / 3 % 14 = j.val / 3; omega
    | ⟨2, _⟩ => show (n.val * 42 + j.val) % 3 = j.val % 3; omega)

/-- Slice atom 1, drop the unit axis, put it back, repeat it over the 14 atoms: at (n, b, c) that is pos[n, 1, c]. -/
private theorem i_v5 (n : Fin 32768) (b : Fin 14) (c : Fin 3) :
    idx_main_v2 (idx_main_v3 (idx_main_v4 (idx_main_v5 (ix3 n b c)))) = ix3 n (1 : Fin 14) c :=
  funext fun a => Fin.ext (by
    have hc := c.isLt
    match a with
    | ⟨0, _⟩ => show (n.val * 3 + c.val) / 3 = n.val; omega
    | ⟨1, _⟩ => rfl
    | ⟨2, _⟩ => show (n.val * 3 + c.val) % 3 = c.val; omega)

/-- A bias row repeated over the 32768 rows reads the bias at the column. -/
private theorem i_v12 (n : Fin 32768) (h : Fin 512) : idx_main_v11 (idx_main_v12 (ix2 n h)) = ix1 h :=
  funext fun a => Fin.ext (by match a with | ⟨0, _⟩ => rfl)

private theorem i_v30 (n : Fin 32768) (d : Fin 256) : idx_main_v29 (idx_main_v30 (ix2 n d)) = ix1 d :=
  funext fun a => Fin.ext (by match a with | ⟨0, _⟩ => rfl)

/-- The three matrix products: term k of entry (n, d) is left (n, k) times right (k, d). -/
private theorem l_v8 (n : Fin 32768) (d k : Fin 256) : lidx_main_v8 (ix2 n d) k = ix2 n k :=
  funext fun a => Fin.ext (by match a with | ⟨0, _⟩ => rfl | ⟨1, _⟩ => rfl)

private theorem r_v8 (n : Fin 32768) (d k : Fin 256) : ridx_main_v8 (ix2 n d) k = ix2 k d :=
  funext fun a => Fin.ext (by match a with | ⟨0, _⟩ => rfl | ⟨1, _⟩ => rfl)

private theorem l_v10 (n : Fin 32768) (h : Fin 512) (k : Fin 42) : lidx_main_v10 (ix2 n h) k = ix2 n k :=
  funext fun a => Fin.ext (by match a with | ⟨0, _⟩ => rfl | ⟨1, _⟩ => rfl)

private theorem r_v10 (n : Fin 32768) (h : Fin 512) (k : Fin 42) : ridx_main_v10 (ix2 n h) k = ix2 k h :=
  funext fun a => Fin.ext (by match a with | ⟨0, _⟩ => rfl | ⟨1, _⟩ => rfl)

private theorem l_v27 (n : Fin 32768) (d : Fin 256) (k : Fin 512) : lidx_main_v27 (ix2 n d) k = ix2 n k :=
  funext fun a => Fin.ext (by match a with | ⟨0, _⟩ => rfl | ⟨1, _⟩ => rfl)

private theorem r_v27 (n : Fin 32768) (d : Fin 256) (k : Fin 512) : ridx_main_v27 (ix2 n d) k = ix2 k d :=
  funext fun a => Fin.ext (by match a with | ⟨0, _⟩ => rfl | ⟨1, _⟩ => rfl)

/-! ### The stages of the feature row, each at an index -/

/-- The flattened centred coordinates: pos[n, j/3, j%3] - pos[n, 1, j%3]. -/
private theorem lp_at (n : Fin 32768) (j : Fin 42) :
    (val_main_v7 (F := Ideal) a.pos) (ix2 n j) = Cert.Spec.lp a n j := by
  rw [val_main_v7_apply, i_v7, val_main_v6_apply, val_main_v5_apply, val_main_v4_apply, val_main_v3_apply,
    val_main_v2_apply, i_v5]
  rfl

/-- lp · W1 + b1, the product a sum over the 42 flattened coordinates. -/
private theorem hid_at (n : Fin 32768) (h : Fin 512) :
    (val_main_v13 (F := Ideal) a.pos a.W1 a.b1) (ix2 n h) = Cert.Spec.hid a n h := by
  rw [val_main_v13_apply, val_main_v12_apply, val_main_v11_apply, i_v12, val_main_v10_apply]
  simp only [l_v10, r_v10, lp_at]
  rfl

/-- The activation of the hidden row: the reference cubes as (x · x) · x, which is the same number as x · (x · x). -/
private theorem act_at (n : Fin 32768) (h : Fin 512) :
    (val_main_v26 (F := Ideal) a.pos a.W1 a.b1) (ix2 n h) = Cert.Spec.gelu (Cert.Spec.hid a n h) := by
  rw [val_main_v26_apply, val_main_v25_apply, val_main_v24_apply, val_main_cst_2_apply, val_main_v23_apply,
    val_main_v22_apply, val_main_cst_1_apply, val_main_v21_apply, val_main_v20_apply, val_main_v19_apply,
    val_main_cst_0_apply, val_main_v18_apply, val_main_v17_apply, val_main_v16_apply, val_main_cst_apply,
    val_main_v15_apply, val_main_v14_apply, hid_at, ← Cert.Spec.geluR_eq]
  rfl

/-- loc + cond · Wc, the product a sum over the 256 conditioning features. -/
private theorem mix1_at (n : Fin 32768) (d : Fin 256) :
    (val_main_v9 (F := Ideal) a.loc a.cond a.Wc) (ix2 n d) = Cert.Spec.mix1 a n d := by
  rw [val_main_v9_apply, val_main_v8_apply]
  simp only [l_v8, r_v8]
  rfl

/-! ### The two statements -/

/-- The mask column is the mask bit as the number 0 or 1: the unsigned reading of a one-bit word. -/
theorem ref_mf (n : Fin 32768) : (val_main_v1 (F := Ideal) a.mask) (ix2 n (0 : Fin 1)) = Cert.Spec.mf a n := by
  rw [val_main_v1_apply, val_main_v0_apply, i_v1]
  rfl

/-- The mixed feature row: (loc + cond · Wc) + gelu(lp · W1 + b1) · W2 + b2. -/
theorem ref_L (n : Fin 32768) (d : Fin 256) : (val_main_v31 (F := Ideal) a.loc a.pos a.cond a.Wc a.W1 a.b1 a.W2 a.b2) (ix2 n d) = Cert.Spec.L a n d := by
  rw [val_main_v31_apply, val_main_v30_apply, val_main_v29_apply, i_v30, val_main_v28_apply, val_main_v27_apply,
    mix1_at]
  simp only [l_v27, r_v27, act_at]
  rfl

end Cert.ReferenceIdeal.RV

end
-- ==== Proof.RProj.lean ====
/-
  The reference's four projections of the mixed feature row and their gated, masked products, read at an index.
-/
import proofs.«408712_j4063039062804_2_alg».proof.Proof.Gen.ReferenceIdeal.Read
import proofs.«408712_j4063039062804_2_alg».proof.Proof.Spec
import proofs.«408712_j4063039062804_2_alg».proof.Proof.RFront
import Idealize.ShloMosaic.Lib.ValueIdx

set_option maxRecDepth 16384

noncomputable section

open scoped BigOperators

namespace Cert.ReferenceIdeal.RV

open Idealize.ShloMosaic Idealize.ShloMosaic.ValueIdx
open Cert.ReferenceIdeal Cert.ReferenceIdeal.Read

variable (a : Cert.Spec.Args)

/-! ### Index equations -/

/-- The four projections of L: term k of entry (n, f) is L at (n, k) times the weight at (k, f). -/
private theorem l_v32 (n : Fin 32768) (f : Fin 1024) (k : Fin 256) : lidx_main_v32 (ix2 n f) k = ix2 n k :=
  funext fun a => Fin.ext (by match a with | ⟨0, _⟩ => rfl | ⟨1, _⟩ => rfl)

private theorem r_v32 (n : Fin 32768) (f : Fin 1024) (k : Fin 256) : ridx_main_v32 (ix2 n f) k = ix2 k f :=
  funext fun a => Fin.ext (by match a with | ⟨0, _⟩ => rfl | ⟨1, _⟩ => rfl)

private theorem l_v33 (n : Fin 32768) (f : Fin 1024) (k : Fin 256) : lidx_main_v33 (ix2 n f) k = ix2 n k :=
  funext fun a => Fin.ext (by match a with | ⟨0, _⟩ => rfl | ⟨1, _⟩ => rfl)

private theorem r_v33 (n : Fin 32768) (f : Fin 1024) (k : Fin 256) : ridx_main_v33 (ix2 n f) k = ix2 k f :=
  funext fun a => Fin.ext (by match a with | ⟨0, _⟩ => rfl | ⟨1, _⟩ => rfl)

private theorem l_v47 (n : Fin 32768) (f : Fin 1024) (k : Fin 256) : lidx_main_v47 (ix2 n f) k = ix2 n k :=
  funext fun a => Fin.ext (by match a with | ⟨0, _⟩ => rfl | ⟨1, _⟩ => rfl)

private theorem r_v47 (n : Fin 32768) (f : Fin 1024) (k : Fin 256) : ridx_main_v47 (ix2 n f) k = ix2 k f :=
  funext fun a => Fin.ext (by match a with | ⟨0, _⟩ => rfl | ⟨1, _⟩ => rfl)

private theorem l_v61 (n : Fin 32768) (f : Fin 1024) (k : Fin 256) : lidx_main_v61 (ix2 n f) k = ix2 n k :=
  funext fun a => Fin.ext (by match a with | ⟨0, _⟩ => rfl | ⟨1, _⟩ => rfl)

private theorem r_v61 (n : Fin 32768) (f : Fin 1024) (k : Fin 256) : ridx_main_v61 (ix2 n f) k = ix2 k f :=
  funext fun a => Fin.ext (by match a with | ⟨0, _⟩ => rfl | ⟨1, _⟩ => rfl)

/-- The mask column repeated over the 1024 features reads the column at (n, 0); the program does this twice. -/
private theorem i_v77 (n : Fin 32768) (f : Fin 1024) : idx_main_v77 (ix2 n f) = ix2 n (0 : Fin 1) :=
  funext fun a => Fin.ext (by match a with | ⟨0, _⟩ => rfl | ⟨1, _⟩ => rfl)

private theorem i_v98 (n : Fin 32768) (f : Fin 1024) : idx_main_v98 (ix2 n f) = ix2 n (0 : Fin 1) :=
  funext fun a => Fin.ext (by match a with | ⟨0, _⟩ => rfl | ⟨1, _⟩ => rfl)

/-! ### The three gates: a projection of L, then the activation. The reference cubes as (x · x) · x, the same number as x · (x · x). -/

/-- L · Wg. -/
private theorem g_proj (n : Fin 32768) (f : Fin 1024) :
    (val_main_v33 (F := Ideal) a.loc a.pos a.cond a.Wc a.W1 a.b1 a.W2 a.b2 a.Wg) (ix2 n f) = Cert.Spec.proj a a.Wg n f := by
  rw [val_main_v33_apply]
  simp only [l_v33, r_v33, ref_L]
  rfl

/-- The gate gelu(L · Wg). -/
private theorem g_at (n : Fin 32768) (f : Fin 1024) :
    (val_main_v46 (F := Ideal) a.loc a.pos a.cond a.Wc a.W1 a.b1 a.W2 a.b2 a.Wg) (ix2 n f)
      = Cert.Spec.gelu (Cert.Spec.proj a a.Wg n f) := by
  rw [val_main_v46_apply, val_main_v45_apply, val_main_v44_apply, val_main_cst_6_apply, val_main_v43_apply,
    val_main_v42_apply, val_main_cst_5_apply, val_main_v41_apply, val_main_v40_apply, val_main_v39_apply,
    val_main_cst_4_apply, val_main_v38_apply, val_main_v37_apply, val_main_v36_apply, val_main_cst_3_apply,
    val_main_v35_apply, val_main_v34_apply, g_proj, ← Cert.Spec.geluR_eq]
  rfl

/-- L · Wcg. -/
private theorem cg_proj (n : Fin 32768) (f : Fin 1024) :
    (val_main_v47 (F := Ideal) a.loc a.pos a.cond a.Wc a.W1 a.b1 a.W2 a.b2 a.Wcg) (ix2 n f) = Cert.Spec.proj a a.Wcg n f := by
  rw [val_main_v47_apply]
  simp only [l_v47, r_v47, ref_L]
  rfl

/-- The chain gate gelu(L · Wcg). -/
private theorem cg_at (n : Fin 32768) (f : Fin 1024) :
    (val_main_v60 (F := Ideal) a.loc a.pos a.cond a.Wc a.W1 a.b1 a.W2 a.b2 a.Wcg) (ix2 n f)
      = Cert.Spec.gelu (Cert.Spec.proj a a.Wcg n f) := by
  rw [val_main_v60_apply, val_main_v59_apply, val_main_v58_apply, val_main_cst_10_apply, val_main_v57_apply,
    val_main_v56_apply, val_main_cst_9_apply, val_main_v55_apply, val_main_v54_apply, val_main_v53_apply,
    val_main_cst_8_apply, val_main_v52_apply, val_main_v51_apply, val_main_v50_apply, val_main_cst_7_apply,
    val_main_v49_apply, val_main_v48_apply, cg_proj, ← Cert.Spec.geluR_eq]
  rfl

/-- L · Wbg. -/
private theorem bg_proj (n : Fin 32768) (f : Fin 1024) :
    (val_main_v61 (F := Ideal) a.loc a.pos a.cond a.Wc a.W1 a.b1 a.W2 a.b2 a.Wbg) (ix2 n f) = Cert.Spec.proj a a.Wbg n f := by
  rw [val_main_v61_apply]
  simp only [l_v61, r_v61, ref_L]
  rfl

/-- The batch gate gelu(L · Wbg). -/
private theorem bg_at (n : Fin 32768) (f : Fin 1024) :
    (val_main_v74 (F := Ideal) a.loc a.pos a.cond a.Wc a.W1 a.b1 a.W2 a.b2 a.Wbg) (ix2 n f)
      = Cert.Spec.gelu (Cert.Spec.proj a a.Wbg n f) := by
  rw [val_main_v74_apply, val_main_v73_apply, val_main_v72_apply, val_main_cst_14_apply, val_main_v71_apply,
    val_main_v70_apply, val_main_cst_13_apply, val_main_v69_apply, val_main_v68_apply, val_main_v67_apply,
    val_main_cst_12_apply, val_main_v66_apply, val_main_v65_apply, val_main_v64_apply, val_main_cst_11_apply,
    val_main_v63_apply, val_main_v62_apply, bg_proj, ← Cert.Spec.geluR_eq]
  rfl

/-! ### The four statements -/

theorem ref_U (n : Fin 32768) (f : Fin 1024) : (val_main_v32 (F := Ideal) a.loc a.pos a.cond a.Wc a.W1 a.b1 a.W2 a.b2 a.Wu) (ix2 n f) = Cert.Spec.U a n f := by
  rw [val_main_v32_apply]
  simp only [l_v32, r_v32, ref_L]
  rfl

theorem ref_GU (n : Fin 32768) (f : Fin 1024) : (val_main_v75 (F := Ideal) a.loc a.pos a.cond a.Wc a.W1 a.b1 a.W2 a.b2 a.Wu a.Wg) (ix2 n f) = Cert.Spec.G a n f * Cert.Spec.U a n f := by
  rw [val_main_v75_apply, g_at, ref_U]
  rfl

theorem ref_Xb (n : Fin 32768) (f : Fin 1024) : (val_main_v78 (F := Ideal) a.loc a.pos a.cond a.mask a.Wc a.W1 a.b1 a.W2 a.b2 a.Wu a.Wbg) (ix2 n f) = Cert.Spec.Xb a n f := by
  rw [val_main_v78_apply, val_main_v77_apply, i_v77, ref_mf, val_main_v76_apply, bg_at, ref_U]
  rfl

theorem ref_Xc (n : Fin 32768) (f : Fin 1024) : (val_main_v99 (F := Ideal) a.loc a.pos a.cond a.mask a.Wc a.W1 a.b1 a.W2 a.b2 a.Wu a.Wcg) (ix2 n f) = Cert.Spec.Xc a n f := by
  rw [val_main_v99_apply, val_main_v98_apply, i_v98, ref_mf, val_main_v97_apply, cg_at, ref_U]
  rfl

end Cert.ReferenceIdeal.RV

end
-- ==== Proof.LibScatterRows.lean ====
/-
  Host scatter-add read at an element, for the two segment sums of an `[N, D]` array and of an `[N]` array by
  an id column of shape `[N, 1]` into `G` segments.

  At the ideal instance a host scatter-add is, at each operand element, the operand's value plus the sum of the
  update elements whose result index is that element. For the row scatter (update window axis 1, inserted window
  axis 0, the one scatter index component going to operand axis 0, the index vector on axis 1 of the id column)
  update element `(n, j')` lands on operand element `(g, j)` exactly when row `n`'s id, read signed, is `g` and
  `j' = j`; so element `(g, j)` of the result is the operand's plus the sum over the rows `n` with id `g` of
  `upd (n, j)`. The vector scatter (no window axis) is the same without the column. An id outside `[0, G)` lands
  nowhere: its update is dropped.

  Last, two small facts a block-wise one-hot accumulation meets: the 32-bit word equality `w = g` against a small
  natural `g` is the signed reading `w.toInt = g`; and a double sum over `a` blocks of `b` rows is the single sum
  over the `a * b` rows, row `n` in block `n / b` at position `n % b`.
-/
import Idealize.ShloMosaic.PureOps.Ideal
import Idealize.ShloMosaic.Lib.ValueIdx
import Mathlib.Logic.Equiv.Fin.Basic

noncomputable section

open scoped BigOperators

namespace Cert.LibScatterRows

open Idealize.ShloMosaic Idealize.ShloMosaic.ValueIdx

/-! ## The result index, for any scatter -/

/-- A scatter's result index for update index `jj` is `i` exactly when, on every operand axis, the
    start (read signed) plus the window coordinate is `i`'s coordinate: the range test of
    `ScatterDims.resultIdx?` is then met by `i`'s own bounds, and an update that fails it lands nowhere. -/
theorem resultIdx?_eq_some_iff {s si u : Shape} (d : ScatterDims s si u) {w : Nat} (jj : u.Idx) (idx : IVec si w)
    (i : s.Idx) :
    d.resultIdx? jj idx = some i ↔ ∀ a, d.start jj idx a + ((d.window jj a : ℕ) : ℤ) = (((i a).val : ℕ) : ℤ) := by
  unfold ScatterDims.resultIdx?
  split_ifs with h
  · constructor
    · intro hf a
      have e := congrArg Fin.val (congrFun (Option.some.inj hf) a)
      have e' : (d.start jj idx a + ((d.window jj a : ℕ) : ℤ)).toNat = (i a).val := e
      have := (h a).1
      omega
    · intro hall
      congr 1
      funext a
      apply Fin.ext
      show (d.start jj idx a + ((d.window jj a : ℕ) : ℤ)).toNat = (i a).val
      have := hall a
      omega
  · constructor
    · intro hf; cases hf
    · intro hall
      exfalso
      apply h
      intro a
      have := hall a
      have := (i a).isLt
      constructor <;> omega

/-! ## A rank-1 index set is its one coordinate range -/

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter: `[N, D]` updates into `[G, D]` by an `[N, 1]` id column -/

section Rows
variable {G D N : Nat}

/-- The operand shape `[G, D]`. -/
abbrev sR (G D : Nat) : Shape := ⟨2, ![G, D]⟩
/-- The id column's shape `[N, 1]`. -/
abbrev siR (N : Nat) : Shape := ⟨2, ![N, 1]⟩
/-- The updates' shape `[N, D]`. -/
abbrev uR (N D : Nat) : Shape := ⟨2, ![N, D]⟩

/-- The start index of update element `(n', j')` is read at `(n', 0)` of the id column, whatever the component. -/
theorem siIdx_rows (wf : ScatterDims.WF (sR G D) (siR N) (uR N D) [1] [0] [0] 1)
    (n' : Fin N) (j' : Fin D) (c) :
    (⟨[1], [0], [0], 1, wf⟩ : ScatterDims (sR G D) (siR N) (uR N D)).siIdx (ix2 n' j') c = ix2 n' 0 := by
  funext b
  match b with
  | ⟨0, _⟩ => rfl
  | ⟨1, _⟩ =>
    apply Fin.ext
    simp [ScatterDims.siIdx]

/-- On operand axis 0 the window starts at row `n'`'s id, read signed. -/
theorem start_rows0 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 0
      = (idx (ix2 n' 0)).toInt := by
  unfold ScatterDims.start
  rw [dif_pos (by simp)]
  rw [siIdx_rows]

/-- On operand axis 1, which the index map does not name, the window starts at 0. -/
theorem start_rows1 {w : Nat} (wf : ScatterDims.WF (sR G D) (siR N) (uR N D) [1] [0] [0] 1)
    (idx : IVec (siR N) w) (n' : Fin N) (j' : Fin D) :
    (⟨[1], [0], [0], 1, wf⟩ : ScatterDims (sR G D) (siR N) (uR N D)).start (ix2 n' j') idx 1 = 0 := by
  unfold ScatterDims.start
  rw [dif_neg (by simp)]

/-- Operand axis 0 is an inserted window axis: its window coordinate is 0. -/
theorem window_rows0 (wf : ScatterDims.WF (sR G D) (siR N) (uR N D) [1] [0] [0] 1)
    (n' : Fin N) (j' : Fin D) :
    (⟨[1], [0], [0], 1, wf⟩ : ScatterDims (sR G D) (siR N) (uR N D)).window (ix2 n' j') 0 = 0 := by
  unfold ScatterDims.window
  rw [dif_neg (by show (0 : Fin 2) ∉ ([1] : List (Fin 2)); decide)]

/-- Operand axis 1 takes the update's window axis 1: its window coordinate is the update's column. -/
theorem window_rows1 (wf : ScatterDims.WF (sR G D) (siR N) (uR N D) [1] [0] [0] 1)
    (n' : Fin N) (j' : Fin D) :
    (⟨[1], [0], [0], 1, wf⟩ : ScatterDims (sR G D) (siR N) (uR N D)).window (ix2 n' j') 1 = j'.val := by
  unfold ScatterDims.window
  rw [dif_pos (by show (1 : Fin 2) ∈ ([1] : List (Fin 2)); decide)]
  rfl

/-- The row scatter's result index, at dimension numbers given by their literals: update row `n'`, column `j'`
    lands on operand row `g`, column `j` exactly when row `n'`'s id, read signed, is `g` and the columns agree. -/
theorem resultIdx?_rows_lit {w : Nat} (wf : ScatterDims.WF (sR G D) (siR N) (uR N D) [1] [0] [0] 1)
    (idx : IVec (siR N) w) (n' : Fin N) (j' : Fin D) (g : Fin G) (j : Fin D) :
    (⟨[1], [0], [0], 1, wf⟩ : ScatterDims (sR G D) (siR N) (uR N D)).resultIdx? (ix2 n' j') idx = some (ix2 g j)
      ↔ (idx (ix2 n' 0)).toInt = (g.val : ℤ) ∧ j' = j := by
  have s0 := start_rows0 wf idx n' j'
  have s1 := start_rows1 wf idx n' j'
  have w0 := window_rows0 wf n' j'
  have w1 := window_rows1 wf n' j'
  rw [resultIdx?_eq_some_iff]
  constructor
  · intro h
    have h0 := h 0
    have h1 := h 1
    rw [s0, w0] at h0
    rw [s1, w1] at h1
    have h0' : (idx (ix2 n' 0)).toInt + ((0 : ℕ) : ℤ) = ((g.val : ℕ) : ℤ) := h0
    have h1' : (0 : ℤ) + ((j'.val : ℕ) : ℤ) = ((j.val : ℕ) : ℤ) := h1
    exact ⟨by omega, Fin.ext (by omega)⟩
  · rintro ⟨hg, rfl⟩
    refine Fin.forall_fin_two.2 ⟨?_, ?_⟩
    · rw [s0, w0]
      show (idx (ix2 n' 0)).toInt + ((0 : ℕ) : ℤ) = ((g.val : ℕ) : ℤ)
      omega
    · rw [s1, w1]
      show (0 : ℤ) + ((j'.val : ℕ) : ℤ) = ((j'.val : ℕ) : ℤ)
      omega

/-- The row scatter's result index, for any record with these dimension numbers (each hypothesis is `rfl` for a
    record defined by the four literals): update row `n'`, column `j'` lands on operand row `g`, column `j` exactly
    when row `n'`'s id, read signed and not clamped, is `g` and the columns agree. -/
theorem resultIdx?_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (idx : IVec (⟨2, ![N, 1]⟩ : Shape) w) (n' : Fin N) (j' : Fin D) (g : Fin G) (j : Fin D) :
    d.resultIdx? (ix2 n' j') idx = some (ix2 g j) ↔ (idx (ix2 n' 0)).toInt = (g.val : ℤ) ∧ j' = j := by
  obtain ⟨uw, iw, sd, iv, wf⟩ := d
  dsimp only at h1 h2 h3 h4
  subst h1 h2 h3 h4
  exact resultIdx?_rows_lit wf idx n' j' g j

/-- The row segment sum: element `(g, j)` of the scatter-add is the operand's plus the sum, over the rows whose id
    (read signed) is `g`, of the update's element in column `j`. A row whose id is outside `[0, G)` is dropped. -/
theorem hostScatterAdd_rows {w : Nat} (d : ScatterDims (⟨2, ![G, D]⟩ : Shape) (⟨2, ![N, 1]⟩ : Shape) (⟨2, ![N, D]⟩ : Shape))
    (h1 : d.updateWindowDims = [1]) (h2 : d.insertedWindowDims = [0]) (h3 : d.scatterDimsToOperandDims = [0])
    (h4 : d.indexVectorDim = 1) (x : (⟨2, ![G, D]⟩ : Shape).Idx → EReal) (idx : IVec (⟨2, ![N, 1]⟩ : Shape) w)
    (upd : (⟨2, ![N, D]⟩ : Shape).Idx → EReal) (g : Fin G) (j : Fin D) :
    Ideal.hostScatterAdd d x idx upd (ix2 g j)
      = x (ix2 g j) + ∑ n : Fin N, if (idx (ix2 n 0)).toInt = (g.val : ℤ) then upd (ix2 n j) else 0 := by
  unfold Ideal.hostScatterAdd
  congr 1
  rw [Finset.sum_filter, sum_idx2]
  refine Finset.sum_congr rfl fun n _ => ?_
  have hcond : ∀ j' : Fin D,
      (if d.resultIdx? (ix2 n j') idx = some (ix2 g j) then upd (ix2 n j') else 0)
        = if (idx (ix2 n 0)).toInt = (g.val : ℤ) ∧ j' = j then upd (ix2 n j') else 0 :=
    fun j' => if_congr (resultIdx?_rows d h1 h2 h3 h4 idx n j' g j) rfl rfl
  rw [Finset.sum_congr rfl fun j' _ => hcond j']
  by_cases hc : (idx (ix2 n 0)).toInt = (g.val : ℤ)
  · rw [if_pos hc]
    have hin : ∀ j' : Fin D,
        (if (idx (ix2 n 0)).toInt = (g.val : ℤ) ∧ j' = j then upd (ix2 n j') else 0)
          = if j' = j then upd (ix2 n j') else 0 :=
      fun j' => if_congr (and_iff_right hc) rfl rfl
    rw [Finset.sum_congr rfl fun j' _ => hin j', Finset.sum_ite_eq', if_pos (Finset.mem_univ j)]
  · rw [if_neg hc]
    have hout : ∀ j' : Fin D,
        (if (idx (ix2 n 0)).toInt = (g.val : ℤ) ∧ j' = j then upd (ix2 n j') else 0) = 0 :=
      fun j' => if_neg fun h => hc h.1
    rw [Finset.sum_congr rfl fun j' _ => hout j', Finset.sum_const_zero]

end Rows

/-! ## The vector scatter: `[N]` updates into `[G]` by an `[N, 1]` id column -/

section Vec
variable {G N : Nat}

/-- The operand shape `[G]`. -/
abbrev sV (G : Nat) : Shape := ⟨1, ![G]⟩
/-- The updates' shape `[N]`. -/
abbrev uV (N : Nat) : Shape := ⟨1, ![N]⟩

/-- The start index of update element `n'` is read at `(n', 0)` of the id column, whatever the component. -/
theorem siIdx_vec (wf : ScatterDims.WF (sV G) (siR N) (uV N) [] [0] [0] 1) (n' : Fin N) (c) :
    (⟨[], [0], [0], 1, wf⟩ : ScatterDims (sV G) (siR N) (uV N)).siIdx (ix1 n') c = ix2 n' 0 := by
  funext b
  match b with
  | ⟨0, _⟩ => rfl
  | ⟨1, _⟩ =>
    apply Fin.ext
    simp [ScatterDims.siIdx]

/-- On the operand's one axis the window starts at element `n'`'s id, read signed. -/
theorem start_vec {w : Nat} (wf : ScatterDims.WF (sV G) (siR N) (uV N) [] [0] [0] 1)
    (idx : IVec (siR N) w) (n' : Fin N) :
    (⟨[], [0], [0], 1, wf⟩ : ScatterDims (sV G) (siR N) (uV N)).start (ix1 n') idx 0 = (idx (ix2 n' 0)).toInt := by
  unfold ScatterDims.start
  rw [dif_pos (by simp)]
  rw [siIdx_vec]

/-- The operand's one axis is an inserted window axis: its window coordinate is 0. -/
theorem window_vec (wf : ScatterDims.WF (sV G) (siR N) (uV N) [] [0] [0] 1) (n' : Fin N) :
    (⟨[], [0], [0], 1, wf⟩ : ScatterDims (sV G) (siR N) (uV N)).window (ix1 n') 0 = 0 := by
  unfold ScatterDims.window
  rw [dif_neg (by show (0 : Fin 1) ∉ ([] : List (Fin 1)); decide)]

/-- The vector scatter's result index, at dimension numbers given by their literals: update element `n'` lands on
    operand element `g` exactly when its id, read signed, is `g`. -/
theorem resultIdx?_vec_lit {w : Nat} (wf : ScatterDims.WF (sV G) (siR N) (uV N) [] [0] [0] 1)
    (idx : IVec (siR N) w) (n' : Fin N) (g : Fin G) :
    (⟨[], [0], [0], 1, wf⟩ : ScatterDims (sV G) (siR N) (uV N)).resultIdx? (ix1 n') idx = some (ix1 g)
      ↔ (idx (ix2 n' 0)).toInt = (g.val : ℤ) := by
  have s0 := start_vec wf idx n'
  have w0 := window_vec wf n'
  rw [resultIdx?_eq_some_iff]
  constructor
  · intro h
    have h0 := h 0
    rw [s0, w0] at h0
    have h0' : (idx (ix2 n' 0)).toInt + ((0 : ℕ) : ℤ) = ((g.val : ℕ) : ℤ) := h0
    omega
  · intro hg a
    have ha : a = 0 := Subsingleton.elim _ _
    subst ha
    rw [s0, w0]
    show (idx (ix2 n' 0)).toInt + ((0 : ℕ) : ℤ) = ((g.val : ℕ) : ℤ)
    omega

/-- The vector scatter's result index, for any record with these dimension numbers (each hypothesis is `rfl` for a
    record defined by the four literals): update element `n'` lands on operand element `g` exactly when its id,
    read signed and not clamped, is `g`. -/
theorem resultIdx?_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (idx : IVec (⟨2, ![N, 1]⟩ : Shape) w) (n' : Fin N) (g : Fin G) :
    d.resultIdx? (ix1 n') idx = some (ix1 g) ↔ (idx (ix2 n' 0)).toInt = (g.val : ℤ) := by
  obtain ⟨uw, iw, sd, iv, wf⟩ := d
  dsimp only at h1 h2 h3 h4
  subst h1 h2 h3 h4
  exact resultIdx?_vec_lit wf idx n' g

/-- The vector segment sum: element `g` of the scatter-add is the operand's plus the sum, over the elements whose
    id (read signed) is `g`, of the update's element. An element whose id is outside `[0, G)` is dropped. -/
theorem hostScatterAdd_vec {w : Nat} (d : ScatterDims (⟨1, ![G]⟩ : Shape) (⟨2, ![N, 1]⟩ : Shape) (⟨1, ![N]⟩ : Shape))
    (h1 : d.updateWindowDims = []) (h2 : d.insertedWindowDims = [0]) (h3 : d.scatterDimsToOperandDims = [0])
    (h4 : d.indexVectorDim = 1) (x : (⟨1, ![G]⟩ : Shape).Idx → EReal) (idx : IVec (⟨2, ![N, 1]⟩ : Shape) w)
    (upd : (⟨1, ![N]⟩ : Shape).Idx → EReal) (g : Fin G) :
    Ideal.hostScatterAdd d x idx upd (ix1 g)
      = x (ix1 g) + ∑ n : Fin N, if (idx (ix2 n 0)).toInt = (g.val : ℤ) then upd (ix1 n) else 0 := by
  unfold Ideal.hostScatterAdd
  congr 1
  rw [Finset.sum_filter, sum_idx1]
  exact Finset.sum_congr rfl fun n _ => if_congr (resultIdx?_vec d h1 h2 h3 h4 idx n g) rfl rfl

end Vec

/-! ## The one-hot word compare, and sums taken block by block -/

/-- A natural below `2 ^ 31`, as a 32-bit word, reads signed as itself. -/
theorem toInt_ofNat_of_lt (g : ℕ) (hg : g < 2 ^ 31) : (BitVec.ofNat 32 g).toInt = (g : ℤ) := by
  have hn : (BitVec.ofNat 32 g).toNat = g := by
    rw [BitVec.toNat_ofNat]; exact Nat.mod_eq_of_lt (by omega)
  rw [BitVec.toInt_eq_toNat_of_lt (by rw [hn]; omega), hn]

/-- A 32-bit word equals the word of a natural below `2 ^ 31` exactly when its signed reading is that natural. -/
theorem eq_ofNat_iff_toInt (w : BitVec 32) (g : ℕ) (hg : g < 2 ^ 31) :
    w = BitVec.ofNat 32 g ↔ w.toInt = (g : ℤ) := by
  constructor
  · rintro rfl; exact toInt_ofNat_of_lt g hg
  · intro h; apply BitVec.eq_of_toInt_eq; rw [h, toInt_ofNat_of_lt g hg]

/-- The one-hot compare against a segment number below 256: the word equality is the signed reading's. -/
theorem eq_ofNat_iff_toInt_fin (w : BitVec 32) (g : Fin 256) :
    w = BitVec.ofNat 32 g.val ↔ w.toInt = (g.val : ℤ) :=
  eq_ofNat_iff_toInt w g.val (by have := g.isLt; omega)

/-- The same with the segment number cast into the words. -/
theorem eq_natCast_iff_toInt_fin (w : BitVec 32) (g : Fin 256) :
    w = ((g.val : ℕ) : BitVec 32) ↔ w.toInt = (g.val : ℤ) :=
  eq_ofNat_iff_toInt_fin w g

/-- A one-hot weighted sum is the sum over the selected terms: `0 * x = 0` and `1 * x = x` hold for every extended
    real, the infinities included. -/
theorem sum_onehot_mul {N : Nat} (w : Fin N → BitVec 32) (g : Fin 256) (h : Fin N → EReal) :
    ∑ n, (if w n = BitVec.ofNat 32 g.val then (1 : EReal) else 0) * h n
      = ∑ n, if (w n).toInt = (g.val : ℤ) then h n else 0 := by
  refine Finset.sum_congr rfl fun n _ => ?_
  by_cases hc : w n = BitVec.ofNat 32 g.val
  · rw [if_pos hc, if_pos ((eq_ofNat_iff_toInt_fin (w n) g).1 hc), one_mul]
  · rw [if_neg hc, if_neg fun h' => hc ((eq_ofNat_iff_toInt_fin (w n) g).2 h'), zero_mul]

/-- A sum taken block by block, `a` blocks of `b` terms, is the one sum over the `a * b` terms: term `n` is in
    block `n / b` at position `n % b`. -/
theorem sum_blocks {M : Type*} [AddCommMonoid M] (a b : ℕ) (f : Fin a → Fin b → M) :
    ∑ t, ∑ r, f t r = ∑ n : Fin (a * b), f n.divNat n.modNat := by
  rw [← Fintype.sum_prod_type']
  exact (Equiv.sum_comp finProdFinEquiv.symm fun p : Fin a × Fin b => f p.1 p.2).symm

/-- Twenty blocks of 5000 rows are the 100000 rows: row `n` is in block `n / 5000` at position `n % 5000`. -/
theorem sum_blocks_20_5000 {M : Type*} [AddCommMonoid M] (f : Fin 20 → Fin 5000 → M) :
    ∑ t, ∑ r, f t r
      = ∑ n : Fin 100000, f ⟨n.val / 5000, by have := n.isLt; omega⟩ ⟨n.val % 5000, by have := n.isLt; omega⟩ :=
  sum_blocks 20 5000 f

end Cert.LibScatterRows
-- ==== Proof.LibGatherRows.lean ====
/-
  Rows of a table taken at a column of start indices (the table indexed by a one-axis array of row numbers, the
  start indices as an [N, 1] array): the result's entry (n, k) is the table's entry at row  idx[n, 0]  (that word read
  as a signed integer and clamped into the table's rows) and column k. Operand axis 0 is collapsed and indexed, operand
  axis 1 is an offset axis taken whole, and the index vector lies on axis 1 of the start indices.
  When the word reads as a row number of the table the clamp does nothing, and the entry is the table's at that row.
-/
import Idealize.ShloMosaic.PureOps
import Idealize.ShloMosaic.Lib.ValueIdx

noncomputable section

open Idealize.ShloMosaic Idealize.ShloMosaic.ValueIdx

namespace Cert.GatherRows

variable {α : Type}

/-- The dimension numbers of the row gather for a [T, C] table and an [N, 1] column of start indices: axis 0 collapsed
    and indexed, axis 1 an offset axis taken whole; the result is [N, C]. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row gather read at (n, k), at dimension numbers given by their literals: the table at row  idx[n, 0]
    (signed, clamped into [0, T − 1]) and column k. -/
theorem gather_rows_lit {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (n : Fin N) (k : Fin C) :
    Host.gather (rowsDims T C N wf) x idx (ix2 n k)
      = x (ix2 ⟨min (idx (ix2 n 0)).toInt.toNat (T - 1), by omega⟩ k) := by
  unfold Host.gather
  congr 1
  funext a
  refine Fin.ext ?_
  match a with
  | ⟨0, _⟩ =>
    show (rowsDims T C N wf).start (ix2 n k) idx 0 + (rowsDims T C N wf).batchCoord (ix2 n k) 0
      + (rowsDims T C N wf).offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 n k) ⟨List.idxOf (0 : Fin 2) (rowsDims T C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 n k) idx 1 + (rowsDims T C N wf).batchCoord (ix2 n k) 1
      + (rowsDims T C N wf).offCoord (ix2 n k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- The row gather read at (n, k), for any record with these dimension numbers (each hypothesis is `rfl` for a record
    defined by the seven literals): the table at row  idx[n, 0]  (signed, clamped into [0, T − 1]) and column k. -/
theorem gather_rows_apply {T C N w : ℕ} (hT : 0 < T)
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C) :
    Host.gather d x idx (ix2 n k) = x (ix2 ⟨min (idx (ix2 n 0)).toInt.toNat (T - 1), by omega⟩ k) := by
  obtain ⟨od, cs, ob, sb, sm, iv, ss, wf⟩ := d
  dsimp only at h1 h2 h3 h4 h5 h6 h7
  subst h1 h2 h3 h4 h5 h6 h7
  exact gather_rows_lit hT wf x idx n k

/-- The same when the start index, read signed, is a row number of the table: the clamp does nothing. -/
theorem gather_rows_apply_of_lt {T C N w : ℕ}
    (d : GatherDims (⟨2, ![T, C]⟩ : Shape) (⟨2, ![N, 1]⟩ : Shape) (⟨2, ![N, C]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![T, C]⟩ : Shape).Idx → α) (idx : IVec ⟨2, ![N, 1]⟩ w) (n : Fin N) (k : Fin C)
    (h0 : 0 ≤ (idx (ix2 n 0)).toInt) (hlt : (idx (ix2 n 0)).toInt < (T : ℤ)) :
    Host.gather d x idx (ix2 n k) = x (ix2 ⟨(idx (ix2 n 0)).toInt.toNat, by omega⟩ k) := by
  have hT : 0 < T := by omega
  rw [gather_rows_apply hT d h1 h2 h3 h4 h5 h6 h7 x idx n k]
  congr 2
  exact Fin.ext (Nat.min_eq_left (by omega))

end Cert.GatherRows

end
-- ==== Proof.RSeg.lean ====
/-
  The reference's segment means gathered back per residue, when every id is a segment number. The scatter-add at the
  ideal instance is the sum over the rows whose signed id is the segment (an id outside is dropped), which is the
  one-hot weighted sum; the gather reads the table at the id wrapped and clamped, which for an id in range is the id
  itself, and that entry is the one-hot weighted sum over the segments.
-/
import proofs.«408712_j4063039062804_2_alg».proof.Proof.Gen.ReferenceIdeal.Read
import proofs.«408712_j4063039062804_2_alg».proof.Proof.Spec
import proofs.«408712_j4063039062804_2_alg».proof.Proof.SpecSums
import proofs.«408712_j4063039062804_2_alg».proof.Proof.RFront
import proofs.«408712_j4063039062804_2_alg».proof.Proof.RProj
import proofs.«408712_j4063039062804_2_alg».proof.Proof.LibScatterRows
import proofs.«408712_j4063039062804_2_alg».proof.Proof.LibGatherRows
import Idealize.ShloMosaic.Lib.ValueIdx
import Idealize.ShloMosaic.PureOps.Ideal.Laws

set_option maxRecDepth 16384

noncomputable section

open scoped BigOperators

namespace Cert.ReferenceIdeal.RV

open Idealize.ShloMosaic Idealize.ShloMosaic.ValueIdx
open Cert.ReferenceIdeal Cert.ReferenceIdeal.Read

variable (a : Cert.Spec.Args)

/-! ## The batch segments -/

/-- Row n of the batch id column is the batch id of residue n (the column of the masked sums). -/
private theorem idcolB (n : Fin 32768) :
    val_main_v80 (F := Ideal) a.batch (ix2 n (0 : Fin 1)) = a.batch (ix1 n) := by
  rw [val_main_v80_apply]
  exact congrArg a.batch (funext fun d => Fin.ext (by match d with | ⟨0, _⟩ => rfl))

/-- The same for the column of the masked counts. -/
private theorem idcolB' (n : Fin 32768) :
    val_main_v83 (F := Ideal) a.batch (ix2 n (0 : Fin 1)) = a.batch (ix1 n) := by
  rw [val_main_v83_apply]
  exact congrArg a.batch (funext fun d => Fin.ext (by match d with | ⟨0, _⟩ => rfl))

/-- The scattered masked products: entry (s, f) is the sum over the residues whose id is s, the masked sum of
    segment s. A residue whose id is no segment number lands nowhere. -/
private theorem sumB (s : Fin 8) (f : Fin 1024) :
    val_main_v81 (F := Ideal) a.loc a.pos a.cond a.batch a.mask a.Wc a.W1 a.b1 a.W2 a.b2 a.Wu a.Wbg (ix2 s f)
      = Cert.Spec.Sb a s f := by
  unfold val_main_v81
  refine (Cert.LibScatterRows.hostScatterAdd_rows (G := 8) (D := 1024) (N := 32768)
    scatter_S8x1024_S32768x1_S32768x1024_1_0_0_1 rfl rfl rfl rfl _ _ _ s f).trans ?_
  rw [val_main_v79_apply, val_main_cst_15_apply, Ideal.ofBits_def, Ideal.ofBits_zero_f32, zero_add]
  unfold Cert.Spec.Sb
  rw [Cert.Spec.sum_oh_cond (fun n => a.batch (ix1 n)) s.val (by have := s.isLt; omega) (fun n => Cert.Spec.Xb a n f)]
  refine Finset.sum_congr rfl fun n _ => ?_
  rw [idcolB, ref_Xb]

/-- The scattered mask column: entry (s, 0) is the masked count of segment s. -/
private theorem cntB (s : Fin 8) :
    val_main_v84 (F := Ideal) a.batch a.mask (ix2 s (0 : Fin 1)) = Cert.Spec.Nb a s := by
  unfold val_main_v84
  refine (Cert.LibScatterRows.hostScatterAdd_rows (G := 8) (D := 1) (N := 32768)
    scatter_S8x1_S32768x1_S32768x1_1_0_0_1 rfl rfl rfl rfl _ _ _ s 0).trans ?_
  rw [val_main_v82_apply, val_main_cst_16_apply, Ideal.ofBits_def, Ideal.ofBits_zero_f32, zero_add]
  unfold Cert.Spec.Nb
  rw [Cert.Spec.sum_oh_cond (fun n => a.batch (ix1 n)) s.val (by have := s.isLt; omega) (fun n => Cert.Spec.mf a n)]
  refine Finset.sum_congr rfl fun n _ => ?_
  rw [idcolB', ref_mf]

/-- The table of segment means: entry (s, f) is the masked sum over the larger of the masked count and eps. -/
private theorem tabB (s : Fin 8) (f : Fin 1024) :
    val_main_v88 (F := Ideal) a.loc a.pos a.cond a.batch a.mask a.Wc a.W1 a.b1 a.W2 a.b2 a.Wu a.Wbg (ix2 s f)
      = Cert.Spec.Mb a s f := by
  have e : idx_main_v87 (ix2 s f) = ix2 s (0 : Fin 1) :=
    funext fun d => Fin.ext (by match d with | ⟨0, _⟩ => rfl | ⟨1, _⟩ => rfl)
  rw [val_main_v88_apply, val_main_v87_apply, e, val_main_v86_apply, val_main_v85_apply,
    val_main_cst_17_apply, sumB, cntB]
  rfl

/-- A batch id that is a segment number is not negative, so the wrap of negative ids leaves it as it is. -/
private theorem wrapB (hb : ∀ n : Fin 32768, 0 ≤ (a.batch (ix1 n)).toInt ∧ (a.batch (ix1 n)).toInt < 8)
    (n : Fin 32768) :
    val_main_v94 (F := Ideal) a.batch (ix2 n (0 : Fin 1)) = a.batch (ix1 n) := by
  have e : idx_main_v94 (ix2 n (0 : Fin 1)) = ix1 n :=
    funext fun d => Fin.ext (by match d with | ⟨0, _⟩ => rfl)
  rw [val_main_v94_apply, e, val_main_v93_apply, val_main_v90_apply]
  have hc : IntOp.cmpi .slt (a.batch (ix1 n)) (val_main_v89 (F := Ideal) (ix1 n)) = 0#1 := by
    apply eq_zero_of_ne_one
    intro h
    have hlt := IntOp.cmpi_slt.1 h
    rw [val_main_v89_apply, val_main_c_apply] at hlt
    have hz : (0#32 : BitVec 32).toInt = 0 := by decide
    have h0 := (hb n).1
    omega
  rw [hc, select_zero]

theorem ref_meanB (hb : ∀ n : Fin 32768, 0 ≤ (a.batch (ix1 n)).toInt ∧ (a.batch (ix1 n)).toInt < 8)
    (n : Fin 32768) (f : Fin 1024) :
    (val_main_v95 (F := Ideal) a.loc a.pos a.cond a.batch a.mask a.Wc a.W1 a.b1 a.W2 a.b2 a.Wu a.Wbg) (ix2 n f) = ∑ s : Fin 8, Cert.Spec.oh (a.batch (ix1 n)) s.val * Cert.Spec.Mb a s f := by
  have h0 := (hb n).1
  have h1 := (hb n).2
  have hw := wrapB a hb n
  unfold val_main_v95
  refine (Cert.GatherRows.gather_rows_apply_of_lt (T := 8) (C := 1024) (N := 32768)
    gather_S8x1024_S32768x1_S32768x1024_1_0_n_n_0_1_11024 rfl rfl rfl rfl rfl rfl rfl _ _ n f
    (by rw [hw]; exact h0) (by rw [hw]; have := h1; omega)).trans ?_
  rw [tabB, Cert.Spec.sum_oh_pick 8 (by norm_num) (a.batch (ix1 n)) (fun s => Cert.Spec.Mb a s f) h0
    (by have := h1; omega)]
  exact congrArg (fun s => Cert.Spec.Mb a s f) (Fin.ext (congrArg (fun w : BitVec 32 => w.toInt.toNat) hw))

/-! ## The chain segments -/

/-- Row n of the chain id column is the chain id of residue n (the column of the masked sums). -/
private theorem idcolC (n : Fin 32768) :
    val_main_v101 (F := Ideal) a.chain (ix2 n (0 : Fin 1)) = a.chain (ix1 n) := by
  rw [val_main_v101_apply]
  exact congrArg a.chain (funext fun d => Fin.ext (by match d with | ⟨0, _⟩ => rfl))

/-- The same for the column of the masked counts. -/
private theorem idcolC' (n : Fin 32768) :
    val_main_v104 (F := Ideal) a.chain (ix2 n (0 : Fin 1)) = a.chain (ix1 n) := by
  rw [val_main_v104_apply]
  exact congrArg a.chain (funext fun d => Fin.ext (by match d with | ⟨0, _⟩ => rfl))

/-- The scattered masked products: entry (s, f) is the sum over the residues whose id is s, the masked sum of
    segment s. A residue whose id is no segment number lands nowhere. -/
private theorem sumC (s : Fin 32) (f : Fin 1024) :
    val_main_v102 (F := Ideal) a.loc a.pos a.cond a.chain a.mask a.Wc a.W1 a.b1 a.W2 a.b2 a.Wu a.Wcg (ix2 s f)
      = Cert.Spec.Sc a s f := by
  unfold val_main_v102
  refine (Cert.LibScatterRows.hostScatterAdd_rows (G := 32) (D := 1024) (N := 32768)
    scatter_S32x1024_S32768x1_S32768x1024_1_0_0_1 rfl rfl rfl rfl _ _ _ s f).trans ?_
  rw [val_main_v100_apply, val_main_cst_19_apply, Ideal.ofBits_def, Ideal.ofBits_zero_f32, zero_add]
  unfold Cert.Spec.Sc
  rw [Cert.Spec.sum_oh_cond (fun n => a.chain (ix1 n)) s.val (by have := s.isLt; omega) (fun n => Cert.Spec.Xc a n f)]
  refine Finset.sum_congr rfl fun n _ => ?_
  rw [idcolC, ref_Xc]

/-- The scattered mask column: entry (s, 0) is the masked count of segment s. -/
private theorem cntC (s : Fin 32) :
    val_main_v105 (F := Ideal) a.chain a.mask (ix2 s (0 : Fin 1)) = Cert.Spec.Nc a s := by
  unfold val_main_v105
  refine (Cert.LibScatterRows.hostScatterAdd_rows (G := 32) (D := 1) (N := 32768)
    scatter_S32x1_S32768x1_S32768x1_1_0_0_1 rfl rfl rfl rfl _ _ _ s 0).trans ?_
  rw [val_main_v103_apply, val_main_cst_20_apply, Ideal.ofBits_def, Ideal.ofBits_zero_f32, zero_add]
  unfold Cert.Spec.Nc
  rw [Cert.Spec.sum_oh_cond (fun n => a.chain (ix1 n)) s.val (by have := s.isLt; omega) (fun n => Cert.Spec.mf a n)]
  refine Finset.sum_congr rfl fun n _ => ?_
  rw [idcolC', ref_mf]

/-- The table of segment means: entry (s, f) is the masked sum over the larger of the masked count and eps. -/
private theorem tabC (s : Fin 32) (f : Fin 1024) :
    val_main_v109 (F := Ideal) a.loc a.pos a.cond a.chain a.mask a.Wc a.W1 a.b1 a.W2 a.b2 a.Wu a.Wcg (ix2 s f)
      = Cert.Spec.Mc a s f := by
  have e : idx_main_v108 (ix2 s f) = ix2 s (0 : Fin 1) :=
    funext fun d => Fin.ext (by match d with | ⟨0, _⟩ => rfl | ⟨1, _⟩ => rfl)
  rw [val_main_v109_apply, val_main_v108_apply, e, val_main_v107_apply, val_main_v106_apply,
    val_main_cst_21_apply, sumC, cntC]
  rfl

/-- A chain id that is a segment number is not negative, so the wrap of negative ids leaves it as it is. -/
private theorem wrapC (hc : ∀ n : Fin 32768, 0 ≤ (a.chain (ix1 n)).toInt ∧ (a.chain (ix1 n)).toInt < 32)
    (n : Fin 32768) :
    val_main_v115 (F := Ideal) a.chain (ix2 n (0 : Fin 1)) = a.chain (ix1 n) := by
  have e : idx_main_v115 (ix2 n (0 : Fin 1)) = ix1 n :=
    funext fun d => Fin.ext (by match d with | ⟨0, _⟩ => rfl)
  rw [val_main_v115_apply, e, val_main_v114_apply, val_main_v111_apply]
  have hc : IntOp.cmpi .slt (a.chain (ix1 n)) (val_main_v110 (F := Ideal) (ix1 n)) = 0#1 := by
    apply eq_zero_of_ne_one
    intro h
    have hlt := IntOp.cmpi_slt.1 h
    rw [val_main_v110_apply, val_main_c_22_apply] at hlt
    have hz : (0#32 : BitVec 32).toInt = 0 := by decide
    have h0 := (hc n).1
    omega
  rw [hc, select_zero]

theorem ref_meanC (hc : ∀ n : Fin 32768, 0 ≤ (a.chain (ix1 n)).toInt ∧ (a.chain (ix1 n)).toInt < 32)
    (n : Fin 32768) (f : Fin 1024) :
    (val_main_v116 (F := Ideal) a.loc a.pos a.cond a.chain a.mask a.Wc a.W1 a.b1 a.W2 a.b2 a.Wu a.Wcg) (ix2 n f) = ∑ s : Fin 32, Cert.Spec.oh (a.chain (ix1 n)) s.val * Cert.Spec.Mc a s f := by
  have h0 := (hc n).1
  have h1 := (hc n).2
  have hw := wrapC a hc n
  unfold val_main_v116
  refine (Cert.GatherRows.gather_rows_apply_of_lt (T := 32) (C := 1024) (N := 32768)
    gather_S32x1024_S32768x1_S32768x1024_1_0_n_n_0_1_11024 rfl rfl rfl rfl rfl rfl rfl _ _ n f
    (by rw [hw]; exact h0) (by rw [hw]; have := h1; omega)).trans ?_
  rw [tabC, Cert.Spec.sum_oh_pick 32 (by norm_num) (a.chain (ix1 n)) (fun s => Cert.Spec.Mc a s f) h0
    (by have := h1; omega)]
  exact congrArg (fun s => Cert.Spec.Mc a s f) (Fin.ext (congrArg (fun w : BitVec 32 => w.toInt.toNat) hw))

end Cert.ReferenceIdeal.RV

end
-- ==== Proof.RTail.lean ====
/-
  The reference's result read at an index: the hidden row (gated projection plus the two gathered means) times Wo
  plus bo, which is the specification's result when every id is a segment number.
-/
import proofs.«408712_j4063039062804_2_alg».proof.Proof.Gen.ReferenceIdeal.Read
import proofs.«408712_j4063039062804_2_alg».proof.Proof.Spec
import proofs.«408712_j4063039062804_2_alg».proof.Proof.RProj
import proofs.«408712_j4063039062804_2_alg».proof.Proof.RSeg
import Idealize.ShloMosaic.Lib.ValueIdx

set_option maxRecDepth 16384

noncomputable section

open scoped BigOperators

namespace Cert.ReferenceIdeal.RV

open Idealize.ShloMosaic Idealize.ShloMosaic.ValueIdx
open Cert.ReferenceIdeal Cert.ReferenceIdeal.Read

variable (a : Cert.Spec.Args)

/-- In the last product, entry (n, d) reads the left operand at row n, column k. -/
private theorem lidx_out (n : Fin 32768) (d : Fin 256) (k : Fin 1024) :
    lidx_main_v118 (ix2 n d) k = ix2 n k :=
  funext fun a => Fin.ext (by match a with | ⟨0, _⟩ => rfl | ⟨1, _⟩ => rfl)

/-- … and the right operand Wo at row k, column d. -/
private theorem ridx_out (n : Fin 32768) (d : Fin 256) (k : Fin 1024) :
    ridx_main_v118 (ix2 n d) k = ix2 k d :=
  funext fun a => Fin.ext (by match a with | ⟨0, _⟩ => rfl | ⟨1, _⟩ => rfl)

/-- The bias broadcast along the rows reads bo at column d. -/
private theorem idx_bias (n : Fin 32768) (d : Fin 256) :
    idx_main_v119 (idx_main_v120 (ix2 n d)) = ix1 d :=
  funext fun a => Fin.ext (by match a with | ⟨0, _⟩ => rfl)

/-- The sum of the three summands at (n, f) is the specification's hidden row: the gated projection, then the mean of
    the residue's batch segment, then the mean of its chain segment, added in that order. -/
private theorem ref_hidden (hb : ∀ n : Fin 32768, 0 ≤ (a.batch (ix1 n)).toInt ∧ (a.batch (ix1 n)).toInt < 8)
    (hc : ∀ n : Fin 32768, 0 ≤ (a.chain (ix1 n)).toInt ∧ (a.chain (ix1 n)).toInt < 32)
    (n : Fin 32768) (f : Fin 1024) :
    (val_main_v117 (F := Ideal) a.loc a.pos a.cond a.chain a.batch a.mask a.Wc a.W1 a.b1 a.W2 a.b2 a.Wu a.Wg a.Wcg a.Wbg) (ix2 n f)
      = Cert.Spec.hidden a n f := by
  rw [val_main_v117_apply, val_main_v96_apply, ref_GU a n f, ref_meanB a hb n f, ref_meanC a hc n f]
  rfl

theorem ref_out (hb : ∀ n : Fin 32768, 0 ≤ (a.batch (ix1 n)).toInt ∧ (a.batch (ix1 n)).toInt < 8)
    (hc : ∀ n : Fin 32768, 0 ≤ (a.chain (ix1 n)).toInt ∧ (a.chain (ix1 n)).toInt < 32)
    (n : Fin 32768) (d : Fin 256) :
    (val_main_v121 (F := Ideal) a.loc a.pos a.cond a.chain a.batch a.mask a.Wc a.W1 a.b1 a.W2 a.b2 a.Wu a.Wg a.Wcg a.Wbg a.Wo a.bo) (ix2 n d) = Cert.Spec.out a n d := by
  rw [val_main_v121_apply, val_main_v118_apply, val_main_v120_apply, val_main_v119_apply, idx_bias]
  simp only [lidx_out, ridx_out, ref_hidden a hb hc]
  rfl

/-- The reference's result array is the specification's. -/
theorem ref_outArr (hb : ∀ n : Fin 32768, 0 ≤ (a.batch (ix1 n)).toInt ∧ (a.batch (ix1 n)).toInt < 8)
    (hc : ∀ n : Fin 32768, 0 ≤ (a.chain (ix1 n)).toInt ∧ (a.chain (ix1 n)).toInt < 32) :
    (val_main_v121 (F := Ideal) a.loc a.pos a.cond a.chain a.batch a.mask a.Wc a.W1 a.b1 a.W2 a.b2 a.Wu a.Wg a.Wcg a.Wbg a.Wo a.bo) = Cert.Spec.outArr a :=
  Cert.Spec.eq_outArr a _ fun n d => ref_out a hb hc n d

end Cert.ReferenceIdeal.RV

end
-- ==== Proof.PreDecode.lean ====
/-
  The precondition's two added conjuncts decoded: where the precondition holds, every batch id read signed lies in
  [0, 8) and every chain id in [0, 32). The predicate is a conjunction of bits; its last two conjuncts are the
  all-reductions of (0 ≤ id) and (id < bound) over the 32768 ids.
-/
import proofs.«408712_j4063039062804_2_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Cert.Pre_finite_inputs

variable [hPre : Cert.Pre_finite_inputs.Facts]

/-- The scalar shape has one index. -/
private instance : Subsingleton S_.Idx := ⟨fun a b => funext fun d => d.elim0⟩

/-- An all-reduction of (0 ≤ id) ∧ (id < bound) over the ids that came out 1 bounds every id, read signed. -/
private theorem range_of_all (ids : IVec S32768 32) (bw : BitVec 32) (bound : Int) (hbw : bw.toInt = bound)
    (h0 : S_.BroadcastsInDim S32768 (![] : Fin 0 → Fin S32768.rank)) (hr : S32768.ReducesTo [0] S_) (hu : 0 < S_.numel)
    (init : IVec S_ 1)
    (e : Host.reduce IntOp.andi
          (andi (cmpi .sge ids (broadcastInDim S32768 ![] h0 (constantI S_ 32 0#32)))
                (cmpi .slt ids (broadcastInDim S32768 ![] h0 (constantI S_ 32 bw)))) init hr hu ix0 = 1#1)
    (n : Fin 32768) : 0 ≤ (ids (ix1 n)).toInt ∧ (ids (ix1 n)).toInt < bound := by
  have hn := Host.reduce_andi_all _ init hr hu ix0 e (ix1 n)
  obtain ⟨hge, hlt⟩ := IntOp.andi_eq_one.1 (show IntOp.andi _ _ = 1#1 from hn)
  have h1 := IntOp.cmpi_sge.1 (show IntOp.cmpi .sge (ids (ix1 n)) 0#32 = 1#1 from hge)
  have h2 := IntOp.cmpi_slt.1 (show IntOp.cmpi .slt (ids (ix1 n)) bw = 1#1 from hlt)
  rw [show (0#32 : BitVec 32).toInt = 0 from by decide] at h1
  rw [hbw] at h2
  exact ⟨h1, h2⟩

theorem ranges (x0 : FVec Ideal S32768x256 .f32) (x1 : FVec Ideal S32768x14x3 .f32) (x2 : FVec Ideal S32768x256 .f32)
    (x3 x4 : IVec S32768 32) (x5 : IVec S32768 1) (x6 : FVec Ideal S256x256 .f32) (x7 : FVec Ideal S42x512 .f32)
    (x8 : FVec Ideal S512 .f32) (x9 : FVec Ideal S512x256 .f32) (x10 : FVec Ideal S256 .f32)
    (x11 x12 x13 x14 : FVec Ideal S256x1024 .f32) (x15 : FVec Ideal S1024x256 .f32) (x16 : FVec Ideal S256 .f32)
    (h : fn (F := Ideal) x0 x1 x2 x3 x4 x5 x6 x7 x8 x9 x10 x11 x12 x13 x14 x15 x16 = fun _ => 1#1) :
    (∀ n : Fin 32768, 0 ≤ (x4 (ix1 n)).toInt ∧ (x4 (ix1 n)).toInt < 8)
      ∧ (∀ n : Fin 32768, 0 ≤ (x3 (ix1 n)).toInt ∧ (x3 (ix1 n)).toInt < 32) := by
  have e := congrFun h ix0
  dsimp only [fn, fn_part1, fn_part2, fn_part3, fn_part4] at e
  -- the predicate is ((… ∧ batch test) ∧ chain test): peel the last two conjuncts
  obtain ⟨e1, hC⟩ := IntOp.andi_eq_one.1 (show IntOp.andi _ _ = 1#1 from e)
  obtain ⟨-, hB⟩ := IntOp.andi_eq_one.1 (show IntOp.andi _ _ = 1#1 from e1)
  exact ⟨fun n => range_of_all x4 8#32 8 (by decide) _ _ _ _ hB n, fun n => range_of_all x3 32#32 32 (by decide) _ _ _ _ hC n⟩

end Cert.PreDecode

end
-- ==== Proof.Assembly.lean ====
/-
  The five claims. The three frames are the generated runs. The idealization changed no operation. For the value
  claim both programs are run from memories that agree on the arguments: the kernel's program ends with its result
  buffer at the specification's result array of its arguments, the reference's result term is that same array once its
  arguments are rewritten to the kernel's, the precondition giving the two id ranges the reference's segment
  means need.
-/
import proofs.«408712_j4063039062804_2_alg».proof.Defs
import proofs.«408712_j4063039062804_2_alg».proof.Proof.Gen.Kernel.Frame
import proofs.«408712_j4063039062804_2_alg».proof.Proof.Gen.KernelIdeal.Frame
import proofs.«408712_j4063039062804_2_alg».proof.Proof.Gen.ReferenceIdeal.Run
import proofs.«408712_j4063039062804_2_alg».proof.Proof.Gen.ReferenceIdeal.Read
import proofs.«408712_j4063039062804_2_alg».proof.Proof.Gen.Pre_finite_inputs
import proofs.«408712_j4063039062804_2_alg».proof.Proof.KRun
import proofs.«408712_j4063039062804_2_alg».proof.Proof.KValue
import proofs.«408712_j4063039062804_2_alg».proof.Proof.RTail
import proofs.«408712_j4063039062804_2_alg».proof.Proof.PreDecode

noncomputable section

namespace Cert.Proof.Claims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's result array of the kernel's arguments. -/
theorem algebraic : Cert.algebraic_KernelIdeal_ReferenceIdeal := by
  intro m ρ m' ρ' hpre hagree
  refine ⟨fun c => Cert.Spec.outArr (Cert.KernelIdeal.KV.argsK m c), ?_, ?_⟩
  · exact (θ_run Cert.KernelIdeal.defs _ _).mono
      (fun r h c => ⟨(h c).1.trans (Cert.KernelIdeal.KV.W4_result m ρ c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨hb, hc⟩ := Cert.PreDecode.ranges
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (hpre c)
    rw [Cert.ReferenceIdeal.Read.val_main_v121_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact Cert.ReferenceIdeal.RV.ref_outArr (Cert.KernelIdeal.KV.argsK m c) hb hc

end Cert.Proof.Claims

end
-- ==== Proof.lean ====
/-
  The kernel's two-pass program and the plain reference compute the same result on the extended reals whenever every
  segment id is a segment number (0 ≤ batch < 8, 0 ≤ chain < 32): both end at the specification's result array
  (Proof/Spec.lean). Outside that range they differ: the reference drops the row from the segment sums but still
  reads a mean for it (the id clamped into the table), while the kernel's one-hot row is zero and adds nothing.
-/
import proofs.«408712_j4063039062804_2_alg».proof.Defs
import proofs.«408712_j4063039062804_2_alg».proof.Proof.Gen.Kernel
import proofs.«408712_j4063039062804_2_alg».proof.Proof.Gen.Kernel.Skeleton
import proofs.«408712_j4063039062804_2_alg».proof.Proof.Gen.Kernel.Launch
import proofs.«408712_j4063039062804_2_alg».proof.Proof.Gen.Kernel.Points
import proofs.«408712_j4063039062804_2_alg».proof.Proof.Gen.Kernel.Frame
import proofs.«408712_j4063039062804_2_alg».proof.Proof.Gen.KernelIdeal
import proofs.«408712_j4063039062804_2_alg».proof.Proof.Gen.KernelIdeal.Skeleton
import proofs.«408712_j4063039062804_2_alg».proof.Proof.Gen.KernelIdeal.Launch
import proofs.«408712_j4063039062804_2_alg».proof.Proof.Gen.KernelIdeal.Points
import proofs.«408712_j4063039062804_2_alg».proof.Proof.Gen.KernelIdeal.Frame
import proofs.«408712_j4063039062804_2_alg».proof.Proof.Gen.ReferenceIdeal
import proofs.«408712_j4063039062804_2_alg».proof.Proof.Gen.ReferenceIdeal.Run
import proofs.«408712_j4063039062804_2_alg».proof.Proof.Gen.ReferenceIdeal.Read
import proofs.«408712_j4063039062804_2_alg».proof.Proof.Gen.Pre_finite_inputs
import proofs.«408712_j4063039062804_2_alg».proof.Proof.Assembly
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
